-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v19)) (v2 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_v36) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_v67) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1600000x32 : Shape := ⟨2, ![1600000, 32]⟩
abbrev S50000x32 : Shape := ⟨2, ![50000, 32]⟩
abbrev S1x32 : Shape := ⟨2, ![1, 32]⟩
abbrev S1600000 : Shape := ⟨1, ![1600000]⟩
abbrev S128x64 : Shape := ⟨2, ![128, 64]⟩
abbrev S64 : Shape := ⟨1, ![64]⟩
abbrev S64x64 : Shape := ⟨2, ![64, 64]⟩
abbrev S160x64 : Shape := ⟨2, ![160, 64]⟩
abbrev S_ : Shape := ⟨0, ![]⟩

class Facts : Prop where
  bcast_S_S1600000x32 : S_.BroadcastsInDim S1600000x32 (![] : Fin 0 → Fin S1600000x32.rank)
  reducesTo_S1600000x32_S_d0_1 : S1600000x32.ReducesTo [0, 1] S_
  h_S_ : 0 < S_.numel
  bcast_S_S50000x32 : S_.BroadcastsInDim S50000x32 (![] : Fin 0 → Fin S50000x32.rank)
  reducesTo_S50000x32_S_d0_1 : S50000x32.ReducesTo [0, 1] S_
  bcast_S_S1x32 : S_.BroadcastsInDim S1x32 (![] : Fin 0 → Fin S1x32.rank)
  reducesTo_S1x32_S_d0_1 : S1x32.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S160x64 : S_.BroadcastsInDim S160x64 (![] : Fin 0 → Fin S160x64.rank)
  reducesTo_S160x64_S_d0_1 : S160x64.ReducesTo [0, 1] S_
  bcast_S_S1600000 : S_.BroadcastsInDim S1600000 (![] : Fin 0 → Fin S1600000.rank)
  reducesTo_S1600000_S_d0 : S1600000.ReducesTo [0] S_

variable [Facts]

def fn_part5 {F : FTy → Type} [FloatOps F] (main_arg4 : IVec S1600000 32) (main_v81 : IVec S_ 1) (main_v83 : IVec S1600000 1) (main_c_33 : IVec S_ 1) : IVec S_ 1 :=
  let main_v84 : IVec S_ 1 := (fun x v => Host.reduce IntOp.andi x v reducesTo_S1600000_S_d0 h_S_) main_v83 main_c_33
  let main_v85 : IVec S_ 1 := andi main_v81 main_v84
  let main_c_34 : IVec S_ 32 := constantI S_ 32 50000#32
  let main_v86 : IVec S1600000 32 := broadcastInDim S1600000 ![] bcast_S_S1600000 main_c_34
  let main_v87 : IVec S1600000 1 := cmpi .slt main_arg4 main_v86
  let main_c_35 : IVec S_ 1 := constantI S_ 1 1#1
  let main_v88 : IVec S_ 1 := (fun x v => Host.reduce IntOp.andi x v reducesTo_S1600000_S_d0 h_S_) main_v87 main_c_35
  let main_v89 : IVec S_ 1 := andi main_v85 main_v88
  main_v89

def fn_part4 {F : FTy → Type} [FloatOps F] (main_arg3 : IVec S1600000 32) (main_arg4 : IVec S1600000 32) (main_arg16 : FVec F S64 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_c_28 : IVec S_ 32 := constantI S_ 32 0#32
  let main_v74 : IVec S1600000 32 := broadcastInDim S1600000 ![] bcast_S_S1600000 main_c_28
  let main_v75 : IVec S1600000 1 := cmpi .sge main_arg3 main_v74
  let main_c_29 : IVec S_ 1 := constantI S_ 1 1#1
  let main_v76 : IVec S_ 1 := (fun x v => Host.reduce IntOp.andi x v reducesTo_S1600000_S_d0 h_S_) main_v75 main_c_29
  let main_v77 : IVec S_ 1 := andi main_v73 main_v76
  let main_c_30 : IVec S_ 32 := constantI S_ 32 50000#32
  let main_v78 : IVec S1600000 32 := broadcastInDim S1600000 ![] bcast_S_S1600000 main_c_30
  let main_v79 : IVec S1600000 1 := cmpi .slt main_arg3 main_v78
  let main_c_31 : IVec S_ 1 := constantI S_ 1 1#1
  let main_v80 : IVec S_ 1 := (fun x v => Host.reduce IntOp.andi x v reducesTo_S1600000_S_d0 h_S_) main_v79 main_c_31
  let main_v81 : IVec S_ 1 := andi main_v77 main_v80
  let main_c_32 : IVec S_ 32 := constantI S_ 32 0#32
  let main_v82 : IVec S1600000 32 := broadcastInDim S1600000 ![] bcast_S_S1600000 main_c_32
  let main_v83 : IVec S1600000 1 := cmpi .sge main_arg4 main_v82
  let main_c_33 : IVec S_ 1 := constantI S_ 1 1#1
  fn_part5 (F := F) main_arg4 main_v81 main_v83 main_c_33

def fn_part3 {F : FTy → Type} [FloatOps F] (main_arg3 : IVec S1600000 32) (main_arg4 : IVec S1600000 32) (main_arg13 : FVec F S160x64 .f32) (main_arg14 : FVec F S64 .f32) (main_arg15 : FVec F S64x64 .f32) (main_arg16 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S160x64 .f32 := Host.absf main_arg13
  let main_cst_20 : FVec F S_ .f32 := constant S_ .f32 0x7F800000#32
  let main_v55 : FVec F S160x64 .f32 := broadcastInDim S160x64 ![] bcast_S_S160x64 main_cst_20
  let main_v56 : IVec S160x64 1 := cmpf .olt main_v54 main_v55
  let main_c_21 : IVec S_ 1 := constantI S_ 1 1#1
  let main_v57 : IVec S_ 1 := (fun x v => Host.reduce IntOp.andi x v reducesTo_S160x64_S_d0_1 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x64 .f32 := Host.absf main_arg15
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_arg3 main_arg4 main_arg16 main_v63 main_v67

def fn_part2 {F : FTy → Type} [FloatOps F] (main_arg3 : IVec S1600000 32) (main_arg4 : IVec S1600000 32) (main_arg9 : FVec F S128x64 .f32) (main_arg10 : FVec F S64 .f32) (main_arg11 : FVec F S64x64 .f32) (main_arg12 : FVec F S64 .f32) (main_arg13 : FVec F S160x64 .f32) (main_arg14 : FVec F S64 .f32) (main_arg15 : FVec F S64x64 .f32) (main_arg16 : FVec F S64 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg3 main_arg4 main_arg13 main_arg14 main_arg15 main_arg16 main_v48 main_v49 main_v50

def fn_part1 {F : FTy → Type} [FloatOps F] (main_arg3 : IVec S1600000 32) (main_arg4 : IVec S1600000 32) (main_arg6 : FVec F S64 .f32) (main_arg7 : FVec F S64x64 .f32) (main_arg8 : FVec F S64 .f32) (main_arg9 : FVec F S128x64 .f32) (main_arg10 : FVec F S64 .f32) (main_arg11 : FVec F S64x64 .f32) (main_arg12 : FVec F S64 .f32) (main_arg13 : FVec F S160x64 .f32) (main_arg14 : FVec F S64 .f32) (main_arg15 : FVec F S64x64 .f32) (main_arg16 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg3 main_arg4 main_arg9 main_arg10 main_arg11 main_arg12 main_arg13 main_arg14 main_arg15 main_arg16 main_v33

def fn {F : FTy → Type} [FloatOps F] (main_arg0 : FVec F S1600000x32 .f32) (main_arg1 : FVec F S50000x32 .f32) (main_arg2 : FVec F S1x32 .f32) (main_arg3 : IVec S1600000 32) (main_arg4 : IVec S1600000 32) (main_arg5 : FVec F S128x64 .f32) (main_arg6 : FVec F S64 .f32) (main_arg7 : FVec F S64x64 .f32) (main_arg8 : FVec F S64 .f32) (main_arg9 : FVec F S128x64 .f32) (main_arg10 : FVec F S64 .f32) (main_arg11 : FVec F S64x64 .f32) (main_arg12 : FVec F S64 .f32) (main_arg13 : FVec F S160x64 .f32) (main_arg14 : FVec F S64 .f32) (main_arg15 : FVec F S64x64 .f32) (main_arg16 : FVec F S64 .f32) : IVec S_ 1 :=
  let main_v0 : FVec F S1600000x32 .f32 := Host.absf main_arg0
  let main_cst : FVec F S_ .f32 := constant S_ .f32 0x7F800000#32
  let main_v1 : FVec F S1600000x32 .f32 := broadcastInDim S1600000x32 ![] bcast_S_S1600000x32 main_cst
  let main_v2 : IVec S1600000x32 1 := cmpf .olt main_v0 main_v1
  let main_c : IVec S_ 1 := constantI S_ 1 1#1
  let main_v3 : IVec S_ 1 := (fun x v => Host.reduce IntOp.andi x v reducesTo_S1600000x32_S_d0_1 h_S_) main_v2 main_c
  let main_v4 : FVec F S50000x32 .f32 := Host.absf main_arg1
  let main_cst_0 : FVec F S_ .f32 := constant S_ .f32 0x7F800000#32
  let main_v5 : FVec F S50000x32 .f32 := broadcastInDim S50000x32 ![] bcast_S_S50000x32 main_cst_0
  let main_v6 : IVec S50000x32 1 := cmpf .olt main_v4 main_v5
  let main_c_1 : IVec S_ 1 := constantI S_ 1 1#1
  let main_v7 : IVec S_ 1 := (fun x v => Host.reduce IntOp.andi x v reducesTo_S50000x32_S_d0_1 h_S_) main_v6 main_c_1
  let main_v8 : IVec S_ 1 := andi main_v3 main_v7
  let main_v9 : FVec F S1x32 .f32 := Host.absf main_arg2
  let main_cst_2 : FVec F S_ .f32 := constant S_ .f32 0x7F800000#32
  let main_v10 : FVec F S1x32 .f32 := broadcastInDim S1x32 ![] bcast_S_S1x32 main_cst_2
  let main_v11 : IVec S1x32 1 := cmpf .olt main_v9 main_v10
  let main_c_3 : IVec S_ 1 := constantI S_ 1 1#1
  let main_v12 : IVec S_ 1 := (fun x v => Host.reduce IntOp.andi x v reducesTo_S1x32_S_d0_1 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg3 main_arg4 main_arg6 main_arg7 main_arg8 main_arg9 main_arg10 main_arg11 main_arg12 main_arg13 main_arg14 main_arg15 main_arg16 main_v13 main_v16
-- ==== Kernel.lean ====
abbrev S1600000x32 : Shape := ⟨2, ![1600000, 32]⟩
abbrev S50000x32 : Shape := ⟨2, ![50000, 32]⟩
abbrev S1x32 : Shape := ⟨2, ![1, 32]⟩
abbrev S1600000 : Shape := ⟨1, ![1600000]⟩
abbrev S128x64 : Shape := ⟨2, ![128, 64]⟩
abbrev S64 : Shape := ⟨1, ![64]⟩
abbrev S64x64 : Shape := ⟨2, ![64, 64]⟩
abbrev S160x64 : Shape := ⟨2, ![160, 64]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1x64 : Shape := ⟨2, ![1, 64]⟩
abbrev S1600000x64 : Shape := ⟨2, ![1600000, 64]⟩
abbrev S3200x32 : Shape := ⟨2, ![3200, 32]⟩
abbrev S3200x64 : Shape := ⟨2, ![3200, 64]⟩
abbrev S3200x128 : Shape := ⟨2, ![3200, 128]⟩
abbrev S50000x64 : Shape := ⟨2, ![50000, 64]⟩
abbrev S50000 : Shape := ⟨1, ![50000]⟩
abbrev S50000x1 : Shape := ⟨2, ![50000, 1]⟩
abbrev S2000x32 : Shape := ⟨2, ![2000, 32]⟩
abbrev S2000x64 : Shape := ⟨2, ![2000, 64]⟩
abbrev S2000x128 : Shape := ⟨2, ![2000, 128]⟩
abbrev S1x160 : Shape := ⟨2, ![1, 160]⟩

abbrev nBuf : Space → Nat
  | .hbm => 132
  | .vmem => 24
  | .smem => 0
  | _ => 0

abbrev hbmTy0_0 (i : Nat) : BufTy := match i % 128 with
  | 0 => ⟨S1600000x32, .f32⟩
  | 1 => ⟨S50000x32, .f32⟩
  | 2 => ⟨S1x32, .f32⟩
  | 3 => ⟨S1600000, .i32⟩
  | 4 => ⟨S1600000, .i32⟩
  | 5 => ⟨S128x64, .f32⟩
  | 6 => ⟨S64, .f32⟩
  | 7 => ⟨S64x64, .f32⟩
  | 8 => ⟨S64, .f32⟩
  | 9 => ⟨S128x64, .f32⟩
  | 10 => ⟨S64, .f32⟩
  | 11 => ⟨S64x64, .f32⟩
  | 12 => ⟨S64, .f32⟩
  | 13 => ⟨S160x64, .f32⟩
  | 14 => ⟨S64, .f32⟩
  | 15 => ⟨S64x64, .f32⟩
  | 16 => ⟨S64, .f32⟩
  | 17 => ⟨S_, .i32⟩
  | 18 => ⟨S1600000, .i32⟩
  | 19 => ⟨S1600000, .i1⟩
  | 20 => ⟨S_, .i32⟩
  | 21 => ⟨S1600000, .i32⟩
  | 22 => ⟨S1600000, .i32⟩
  | 23 => ⟨S1600000, .i32⟩
  | 24 => ⟨S1600000x1, .i32⟩
  | 25 => ⟨S1, .i32⟩
  | 26 => ⟨S_, .i32⟩
  | 27 => ⟨S1600000x1, .i32⟩
  | 28 => ⟨S1600000x1, .i1⟩
  | 29 => ⟨S1x1, .i32⟩
  | 30 => ⟨S1600000x1, .i32⟩
  | 31 => ⟨S1600000x1, .i1⟩
  | 32 => ⟨S1600000x1, .i1⟩
  | 33 => ⟨S_, .i1⟩
  | 34 => ⟨S1600000, .i1⟩
  | 35 => ⟨S1600000x32, .f32⟩
  | 36 => ⟨S1600000x32, .i1⟩
  | 37 => ⟨S_, .f32⟩
  | 38 => ⟨S1600000x32, .f32⟩
  | 39 => ⟨S1600000x32, .f32⟩
  | 40 => ⟨S_, .i32⟩
  | 41 => ⟨S1600000, .i32⟩
  | 42 => ⟨S1600000, .i1⟩
  | 43 => ⟨S_, .i32⟩
  | 44 => ⟨S1600000, .i32⟩
  | 45 => ⟨S1600000, .i32⟩
  | 46 => ⟨S1600000, .i32⟩
  | 47 => ⟨S1600000x1, .i32⟩
  | 48 => ⟨S1, .i32⟩
  | 49 => ⟨S_, .i32⟩
  | 50 => ⟨S1600000x1, .i32⟩
  | 51 => ⟨S1600000x1, .i1⟩
  | 52 => ⟨S1x1, .i32⟩
  | 53 => ⟨S1600000x1, .i32⟩
  | 54 => ⟨S1600000x1, .i1⟩
  | 55 => ⟨S1600000x1, .i1⟩
  | 56 => ⟨S_, .i1⟩
  | 57 => ⟨S1600000, .i1⟩
  | 58 => ⟨S1600000x32, .f32⟩
  | 59 => ⟨S1600000x32, .i1⟩
  | 60 => ⟨S_, .f32⟩
  | 61 => ⟨S1600000x32, .f32⟩
  | 62 => ⟨S1600000x32, .f32⟩
  | 63 => ⟨S1x64, .f32⟩
  | 64 => ⟨S1x64, .f32⟩
  | 65 => ⟨S1600000x64, .f32⟩
  | 66 => ⟨S_, .f32⟩
  | 67 => ⟨S50000x64, .f32⟩
  | 68 => ⟨S1600000x1, .i32⟩
  | 69 => ⟨S50000x64, .f32⟩
  | 70 => ⟨S_, .f32⟩
  | 71 => ⟨S1600000, .f32⟩
  | 72 => ⟨S_, .f32⟩
  | 73 => ⟨S50000, .f32⟩
  | 74 => ⟨S1600000x1, .i32⟩
  | 75 => ⟨S50000, .f32⟩
  | 76 => ⟨S_, .f32⟩
  | 77 => ⟨S50000, .f32⟩
  | 78 => ⟨S50000, .f32⟩
  | 79 => ⟨S50000x1, .f32⟩
  | 80 => ⟨S50000x64, .f32⟩
  | 81 => ⟨S50000x64, .f32⟩
  | 82 => ⟨S1x64, .f32⟩
  | 83 => ⟨S1x64, .f32⟩
  | 84 => ⟨S50000x64, .f32⟩
  | 85 => ⟨S_, .f32⟩
  | 86 => ⟨S64, .f32⟩
  | 87 => ⟨S1x64, .f32⟩
  | 88 => ⟨S_, .f32⟩
  | 89 => ⟨S1x64, .f32⟩
  | 90 => ⟨S1x64, .f32⟩
  | 91 => ⟨S_, .f32⟩
  | 92 => ⟨S64, .f32⟩
  | 93 => ⟨S1x64, .f32⟩
  | 94 => ⟨S_, .f32⟩
  | 95 => ⟨S1x64, .f32⟩
  | 96 => ⟨S1x64, .f32⟩
  | 97 => ⟨S1x160, .f32⟩
  | 98 => ⟨S1x64, .f32⟩
  | 99 => ⟨S1x64, .f32⟩
  | 100 => ⟨S1x64, .f32⟩
  | 101 => ⟨S_, .f32⟩
  | 102 => ⟨S1x64, .f32⟩
  | 103 => ⟨S1x64, .f32⟩
  | 104 => ⟨S1x64, .f32⟩
  | 105 => ⟨S1x64, .f32⟩
  | 106 => ⟨S1x64, .i1⟩
  | 107 => ⟨S1x64, .f32⟩
  | 108 => ⟨S1x64, .f32⟩
  | 109 => ⟨S1x64, .f32⟩
  | 110 => ⟨S1x64, .f32⟩
  | 111 => ⟨S1x64, .f32⟩
  | 112 => ⟨S1x64, .f32⟩
  | 113 => ⟨S1x64, .f32⟩
  | 114 => ⟨S1x64, .f32⟩
  | 115 => ⟨S1x64, .f32⟩
  | 116 => ⟨S1x64, .f32⟩
  | 117 => ⟨S1x64, .f32⟩
  | 118 => ⟨S_, .f32⟩
  | 119 => ⟨S1x64, .f32⟩
  | 120 => ⟨S1x64, .f32⟩
  | 121 => ⟨S1x64, .f32⟩
  | 122 => ⟨S1x64, .f32⟩
  | 123 => ⟨S1x64, .i1⟩
  | 124 => ⟨S1x64, .f32⟩
  | 125 => ⟨S1x64, .f32⟩
  | 126 => ⟨S1x64, .f32⟩
  | 127 => ⟨S1x64, .f32⟩
  | _ => ⟨S1600000x32, .f32⟩

abbrev hbmTy0_1 (i : Nat) : BufTy := match i % 128 with
  | 0 => ⟨S1x64, .f32⟩
  | 1 => ⟨S1x64, .f32⟩
  | 2 => ⟨S1x64, .f32⟩
  | 3 => ⟨S1x64, .f32⟩
  | _ => ⟨S1600000x32, .f32⟩

abbrev hbmTy (i : Nat) : BufTy := match i / 128 with
  | 0 => hbmTy0_0 i
  | 1 => hbmTy0_1 i
  | _ => ⟨S1600000x32, .f32⟩

abbrev bufTy : (tb : Table) → Fin (tcTables nBuf tb) → BufTy
  | .hbm, ⟨i, _⟩ => hbmTy i
  | .local _ .vmem, ⟨0, _⟩ => ⟨S3200x32, .f32⟩
  | .local _ .vmem, ⟨1, _⟩ => ⟨S3200x32, .f32⟩
  | .local _ .vmem, ⟨2, _⟩ => ⟨S3200x32, .f32⟩
  | .local _ .vmem, ⟨3, _⟩ => ⟨S3200x32, .f32⟩
  | .local _ .vmem, ⟨4, _⟩ => ⟨S3200x32, .f32⟩
  | .local _ .vmem, ⟨5, _⟩ => ⟨S3200x32, .f32⟩
  | .local _ .vmem, ⟨6, _⟩ => ⟨S1x32, .f32⟩
  | .local _ .vmem, ⟨7, _⟩ => ⟨S128x64, .f32⟩
  | .local _ .vmem, ⟨8, _⟩ => ⟨S1x64, .f32⟩
  | .local _ .vmem, ⟨9, _⟩ => ⟨S64x64, .f32⟩
  | .local _ .vmem, ⟨10, _⟩ => ⟨S1x64, .f32⟩
  | .local _ .vmem, ⟨11, _⟩ => ⟨S3200x64, .f32⟩
  | .local _ .vmem, ⟨12, _⟩ => ⟨S3200x64, .f32⟩
  | .local _ .vmem, ⟨13, _⟩ => ⟨S2000x32, .f32⟩
  | .local _ .vmem, ⟨14, _⟩ => ⟨S2000x32, .f32⟩
  | .local _ .vmem, ⟨15, _⟩ => ⟨S2000x64, .f32⟩
  | .local _ .vmem, ⟨16, _⟩ => ⟨S2000x64, .f32⟩
  | .local _ .vmem, ⟨17, _⟩ => ⟨S1x32, .f32⟩
  | .local _ .vmem, ⟨18, _⟩ => ⟨S128x64, .f32⟩
  | .local _ .vmem, ⟨19, _⟩ => ⟨S1x64, .f32⟩
  | .local _ .vmem, ⟨20, _⟩ => ⟨S64x64, .f32⟩
  | .local _ .vmem, ⟨21, _⟩ => ⟨S1x64, .f32⟩
  | .local _ .vmem, ⟨22, _⟩ => ⟨S2000x64, .f32⟩
  | .local _ .vmem, ⟨23, _⟩ => ⟨S2000x64, .f32⟩
  | _, _ => ⟨S1600000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v0 : Ref sig .tc := ⟨.hbm, 39, rfl⟩
abbrev main_call1_c : Ref sig .tc := ⟨.hbm, 40, rfl⟩
abbrev main_call1_v0 : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_c_1 : Ref sig .tc := ⟨.hbm, 48, rfl⟩
abbrev main_call1_c_2 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_3 : Ref sig .tc := ⟨.hbm, 56, rfl⟩
abbrev main_call1_v12 : Ref sig .tc := ⟨.hbm, 57, rfl⟩
abbrev main_call1_v13 : Ref sig .tc := ⟨.hbm, 58, rfl⟩
abbrev main_call1_v14 : Ref sig .tc := ⟨.hbm, 59, rfl⟩
abbrev main_call1_cst : Ref sig .tc := ⟨.hbm, 60, rfl⟩
abbrev main_call1_v15 : Ref sig .tc := ⟨.hbm, 61, rfl⟩
abbrev main_v1 : Ref sig .tc := ⟨.hbm, 62, rfl⟩
abbrev main_v2 : Ref sig .tc := ⟨.hbm, 63, rfl⟩
abbrev main_v3 : Ref sig .tc := ⟨.hbm, 64, rfl⟩
abbrev main_v4 : Ref sig .tc := ⟨.hbm, 65, rfl⟩
abbrev main_cst : Ref sig .tc := ⟨.hbm, 66, rfl⟩
abbrev main_v5 : Ref sig .tc := ⟨.hbm, 67, rfl⟩
abbrev main_v6 : Ref sig .tc := ⟨.hbm, 68, rfl⟩
abbrev main_v7 : Ref sig .tc := ⟨.hbm, 69, rfl⟩
abbrev main_cst_0 : Ref sig .tc := ⟨.hbm, 70, rfl⟩
abbrev main_v8 : Ref sig .tc := ⟨.hbm, 71, rfl⟩
abbrev main_cst_1 : Ref sig .tc := ⟨.hbm, 72, rfl⟩
abbrev main_v9 : Ref sig .tc := ⟨.hbm, 73, rfl⟩
abbrev main_v10 : Ref sig .tc := ⟨.hbm, 74, rfl⟩
abbrev main_v11 : Ref sig .tc := ⟨.hbm, 75, rfl⟩
abbrev main_cst_2 : Ref sig .tc := ⟨.hbm, 76, rfl⟩
abbrev main_v12 : Ref sig .tc := ⟨.hbm, 77, rfl⟩
abbrev main_v13 : Ref sig .tc := ⟨.hbm, 78, rfl⟩
abbrev main_v14 : Ref sig .tc := ⟨.hbm, 79, rfl⟩
abbrev main_v15 : Ref sig .tc := ⟨.hbm, 80, rfl⟩
abbrev main_v16 : Ref sig .tc := ⟨.hbm, 81, rfl⟩
abbrev main_v17 : Ref sig .tc := ⟨.hbm, 82, rfl⟩
abbrev main_v18 : Ref sig .tc := ⟨.hbm, 83, rfl⟩
abbrev main_v19 : Ref sig .tc := ⟨.hbm, 84, rfl⟩
abbrev main_cst_3 : Ref sig .tc := ⟨.hbm, 85, rfl⟩
abbrev main_v20 : Ref sig .tc := ⟨.hbm, 86, rfl⟩
abbrev main_v21 : Ref sig .tc := ⟨.hbm, 87, rfl⟩
abbrev main_cst_4 : Ref sig .tc := ⟨.hbm, 88, rfl⟩
abbrev main_v22 : Ref sig .tc := ⟨.hbm, 89, rfl⟩
abbrev main_v23 : Ref sig .tc := ⟨.hbm, 90, rfl⟩
abbrev main_cst_5 : Ref sig .tc := ⟨.hbm, 91, rfl⟩
abbrev main_v24 : Ref sig .tc := ⟨.hbm, 92, rfl⟩
abbrev main_v25 : Ref sig .tc := ⟨.hbm, 93, rfl⟩
abbrev main_cst_6 : Ref sig .tc := ⟨.hbm, 94, rfl⟩
abbrev main_v26 : Ref sig .tc := ⟨.hbm, 95, rfl⟩
abbrev main_v27 : Ref sig .tc := ⟨.hbm, 96, rfl⟩
abbrev main_v28 : Ref sig .tc := ⟨.hbm, 97, rfl⟩
abbrev main_v29 : Ref sig .tc := ⟨.hbm, 98, rfl⟩
abbrev main_v30 : Ref sig .tc := ⟨.hbm, 99, rfl⟩
abbrev main_v31 : Ref sig .tc := ⟨.hbm, 100, rfl⟩
abbrev main_call2_cst : Ref sig .tc := ⟨.hbm, 101, rfl⟩
abbrev main_call2_v0 : Ref sig .tc := ⟨.hbm, 102, rfl⟩
abbrev main_call2_v1 : Ref sig .tc := ⟨.hbm, 103, rfl⟩
abbrev main_call2_v2 : Ref sig .tc := ⟨.hbm, 104, rfl⟩
abbrev main_call2_v3 : Ref sig .tc := ⟨.hbm, 105, rfl⟩
abbrev main_call2_v4 : Ref sig .tc := ⟨.hbm, 106, rfl⟩
abbrev main_call2_v5 : Ref sig .tc := ⟨.hbm, 107, rfl⟩
abbrev main_call2_v6 : Ref sig .tc := ⟨.hbm, 108, rfl⟩
abbrev main_call2_v7 : Ref sig .tc := ⟨.hbm, 109, rfl⟩
abbrev main_call2_v8 : Ref sig .tc := ⟨.hbm, 110, rfl⟩
abbrev main_call2_v9 : Ref sig .tc := ⟨.hbm, 111, rfl⟩
abbrev main_call2_v10 : Ref sig .tc := ⟨.hbm, 112, rfl⟩
abbrev main_call2_v11 : Ref sig .tc := ⟨.hbm, 113, rfl⟩
abbrev main_v32 : Ref sig .tc := ⟨.hbm, 114, rfl⟩
abbrev main_v33 : Ref sig .tc := ⟨.hbm, 115, rfl⟩
abbrev main_v34 : Ref sig .tc := ⟨.hbm, 116, rfl⟩
abbrev main_v35 : Ref sig .tc := ⟨.hbm, 117, rfl⟩
abbrev main_call3_cst : Ref sig .tc := ⟨.hbm, 118, rfl⟩
abbrev main_call3_v0 : Ref sig .tc := ⟨.hbm, 119, rfl⟩
abbrev main_call3_v1 : Ref sig .tc := ⟨.hbm, 120, rfl⟩
abbrev main_call3_v2 : Ref sig .tc := ⟨.hbm, 121, rfl⟩
abbrev main_call3_v3 : Ref sig .tc := ⟨.hbm, 122, rfl⟩
abbrev main_call3_v4 : Ref sig .tc := ⟨.hbm, 123, rfl⟩
abbrev main_call3_v5 : Ref sig .tc := ⟨.hbm, 124, rfl⟩
abbrev main_call3_v6 : Ref sig .tc := ⟨.hbm, 125, rfl⟩
abbrev main_call3_v7 : Ref sig .tc := ⟨.hbm, 126, rfl⟩
abbrev main_call3_v8 : Ref sig .tc := ⟨.hbm, 127, rfl⟩
abbrev main_call3_v9 : Ref sig .tc := ⟨.hbm, 128, rfl⟩
abbrev main_call3_v10 : Ref sig .tc := ⟨.hbm, 129, rfl⟩
abbrev main_call3_v11 : Ref sig .tc := ⟨.hbm, 130, rfl⟩
abbrev main_v36 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem7_1 : DmaSem sig := 23

abbrev nD : Nat := 1
abbrev τ : Topo := Topo.v7x

variable {F : FTy → Type} [FloatOps F]

abbrev grid0 : Pipeline.Grid := ⟨1, ![500], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3200x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S3200x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x32_0 : S1600000.BroadcastsInDim S1600000x32 (![0] : Fin 1 → Fin S1600000x32.rank)
  bcast_S_S1600000x32 : S_.BroadcastsInDim S1600000x32 (![] : Fin 0 → Fin S1600000x32.rank)
  shapeCasts_S64_S1x64 : S64.ShapeCasts S1x64
  inb_S3200x32_S3200x32_0_0 : ∀ a, (![0, 0] : Fin 2 → Nat) a + S3200x32.size a ≤ S3200x32.size a
  h_S3200x32 : 0 < S3200x32.numel
  shapeCasts_S3200x32_S3200x32 : S3200x32.ShapeCasts S3200x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S3200x32 : S1x32.Broadcasts S3200x32
  concatenates_S3200x32_S3200x32_S3200x32_S3200x32_S3200x128_d1 : Shape.Concatenates [S3200x32, S3200x32, S3200x32, S3200x32] S3200x128 1
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S64x64_S64x64_0_0 : ∀ a, (![0, 0] : Fin 2 → Nat) a + S64x64.size a ≤ S64x64.size a
  h_S64x64 : 0 < S64x64.numel
  bitsLt_bf16_f32 : FTy.bits .bf16 < FTy.bits .f32
  broadcasts_S1x64_S3200x64 : S1x64.Broadcasts S3200x64
  inb_S3200x64_S3200x64_0_0 : ∀ a, (![0, 0] : Fin 2 → Nat) a + S3200x64.size a ≤ S3200x64.size a
  h_S3200x64 : 0 < S3200x64.numel
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  inb_S2000x32_S2000x32_0_0 : ∀ a, (![0, 0] : Fin 2 → Nat) a + S2000x32.size a ≤ S2000x32.size a
  h_S2000x32 : 0 < S2000x32.numel
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  broadcasts_S1x32_S2000x32 : S1x32.Broadcasts S2000x32
  concatenates_S2000x32_S2000x64_S2000x32_S2000x128_d1 : Shape.Concatenates [S2000x32, S2000x64, S2000x32] S2000x128 1
  broadcasts_S1x64_S2000x64 : S1x64.Broadcasts S2000x64
  reducesTo_S1600000x64_S64_d0 : S1600000x64.ReducesTo [0] S64
  bcast_S64_S1x64_1 : S64.BroadcastsInDim S1x64 (![1] : Fin 1 → Fin S1x64.rank)
  bcast_S_S1x64 : S_.BroadcastsInDim S1x64 (![] : Fin 0 → Fin S1x64.rank)
  reducesTo_S50000x64_S64_d0 : S50000x64.ReducesTo [0] S64
  concatenates_S1x32_S1x64_S1x64_S1x160_d1 : Shape.Concatenates [S1x32, S1x64, S1x64] S1x160 1
  gather_S50000x32_S1600000x1_S1600000x32_1_0_n_n_0_1_132_wf : GatherDims.WF S50000x32 S1600000x1 S1600000x32 [1] [0] [] [0] [] 1 ![1, 32]
  dot_S3200x128_S128x64_S3200x64_1_0_0_1_n_n_wf : DotDims.WF S3200x128 S128x64 S3200x64 [1] [0] [0] [1] [] []
  dot_S3200x64_S64x64_S3200x64_1_0_0_1_n_n_wf : DotDims.WF S3200x64 S64x64 S3200x64 [1] [0] [0] [1] [] []
  scatter_S50000x64_S1600000x1_S1600000x64_1_0_0_1_wf : ScatterDims.WF S50000x64 S1600000x1 S1600000x64 [1] [0] [0] 1
  scatter_S50000_S1600000x1_S1600000_n_0_0_1_wf : ScatterDims.WF S50000 S1600000x1 S1600000 [] [0] [0] 1
  dot_S2000x128_S128x64_S2000x64_1_0_0_1_n_n_wf : DotDims.WF S2000x128 S128x64 S2000x64 [1] [0] [0] [1] [] []
  dot_S2000x64_S64x64_S2000x64_1_0_0_1_n_n_wf : DotDims.WF S2000x64 S64x64 S2000x64 [1] [0] [0] [1] [] []
  dot_S1x160_S160x64_S1x64_1_0_0_1_n_n_wf : DotDims.WF S1x160 S160x64 S1x64 [1] [0] [0] [1] [] []
  dot_S1x64_S64x64_S1x64_1_0_0_1_n_n_wf : DotDims.WF S1x64 S64x64 S1x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x32.size a ≤ S1600000x32.size a
  hwx0_0 : ∀ i : grid0.Coords, EltTy.bits .f32 = 32 ∨ (Rect.block (s := S1600000x32) S3200x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x32.size a ≤ S1600000x32.size a
  hwx0_1 : ∀ i : grid0.Coords, EltTy.bits .f32 = 32 ∨ (Rect.block (s := S1600000x32) S3200x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3200x32.size a ≤ S1600000x32.size a
  hwx0_2 : ∀ i : grid0.Coords, EltTy.bits .f32 = 32 ∨ (Rect.block (s := S1600000x32) S3200x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S3200x64.size a ≤ S1600000x64.size a
  hwx0_8 : ∀ i : grid0.Coords, EltTy.bits .f32 = 32 ∨ (Rect.block (s := S1600000x64) S3200x64.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x32.size a ≤ S50000x32.size a
  hwx1_0 : ∀ i : grid1.Coords, EltTy.bits .f32 = 32 ∨ (Rect.block (s := S50000x32) S2000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S50000x64.size a
  hwx1_1 : ∀ i : grid1.Coords, EltTy.bits .f32 = 32 ∨ (Rect.block (s := S50000x64) S2000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x64.size a ≤ S50000x64.size a
  hwx1_7 : ∀ i : grid1.Coords, EltTy.bits .f32 = 32 ∨ (Rect.block (s := S50000x64) S2000x64.size (cc1_transform_7 i) (hinb1_7 i)).WholeWords (EltTy.packing .f32)

variable [Facts₀]

def gather_S50000x32_S1600000x1_S1600000x32_1_0_n_n_0_1_132 : GatherDims S50000x32 S1600000x1 S1600000x32 where
  offsetDims := [1]
  collapsedSliceDims := [0]
  operandBatchingDims := []
  startIndicesBatchingDims := []
  startIndexMap := [0]
  indexVectorDim := 1
  sliceSizes := ![1, 32]
  wf := gather_S50000x32_S1600000x1_S1600000x32_1_0_n_n_0_1_132_wf
def dot_S3200x128_S128x64_S3200x64_1_0_0_1_n_n : DotDims S3200x128 S128x64 S3200x64 where
  lhsContracting := [1]
  rhsContracting := [0]
  lhsNonContracting := [0]
  rhsNonContracting := [1]
  lhsBatch := []
  rhsBatch := []
  wf := dot_S3200x128_S128x64_S3200x64_1_0_0_1_n_n_wf
def dot_S3200x64_S64x64_S3200x64_1_0_0_1_n_n : DotDims S3200x64 S64x64 S3200x64 where
  lhsContracting := [1]
  rhsContracting := [0]
  lhsNonContracting := [0]
  rhsNonContracting := [1]
  lhsBatch := []
  rhsBatch := []
  wf := dot_S3200x64_S64x64_S3200x64_1_0_0_1_n_n_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S1x160_S160x64_S1x64_1_0_0_1_n_n : DotDims S1x160 S160x64 S1x64 where
  lhsContracting := [1]
  rhsContracting := [0]
  lhsNonContracting := [0]
  rhsNonContracting := [1]
  lhsBatch := []
  rhsBatch := []
  wf := dot_S1x160_S160x64_S1x64_1_0_0_1_n_n_wf
def dot_S1x64_S64x64_S1x64_1_0_0_1_n_n : DotDims S1x64 S64x64 S1x64 where
  lhsContracting := [1]
  rhsContracting := [0]
  lhsNonContracting := [0]
  rhsNonContracting := [1]
  lhsBatch := []
  rhsBatch := []
  wf := dot_S1x64_S64x64_S1x64_1_0_0_1_n_n_wf

abbrev win0_0 : Pipeline.Window sig grid0 :=
  Pipeline.Window.ofSpec (Memref.whole main_v0) S3200x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S3200x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S3200x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S3200x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_arg1) S2000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v17) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg11) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v18) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v19) S2000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S1600000x32 : Shape := ⟨2, ![1600000, 32]⟩
abbrev S50000x32 : Shape := ⟨2, ![50000, 32]⟩
abbrev S1x32 : Shape := ⟨2, ![1, 32]⟩
abbrev S1600000 : Shape := ⟨1, ![1600000]⟩
abbrev S128x64 : Shape := ⟨2, ![128, 64]⟩
abbrev S64 : Shape := ⟨1, ![64]⟩
abbrev S64x64 : Shape := ⟨2, ![64, 64]⟩
abbrev S160x64 : Shape := ⟨2, ![160, 64]⟩
abbrev S32 : Shape := ⟨1, ![32]⟩
abbrev S_ : Shape := ⟨0, ![]⟩
abbrev S1600000x1 : Shape := ⟨2, ![1600000, 1]⟩
abbrev S1600000x128 : Shape := ⟨2, ![1600000, 128]⟩
abbrev S1600000x64 : Shape := ⟨2, ![1600000, 64]⟩
abbrev S1x64 : Shape := ⟨2, ![1, 64]⟩
abbrev S50000x64 : Shape := ⟨2, ![50000, 64]⟩
abbrev S50000 : Shape := ⟨1, ![50000]⟩
abbrev S50000x1 : Shape := ⟨2, ![50000, 1]⟩
abbrev S50000x128 : Shape := ⟨2, ![50000, 128]⟩
abbrev S1x160 : Shape := ⟨2, ![1, 160]⟩

abbrev nBuf : Space → Nat
  | .hbm => 175
  | .vmem => 0
  | .smem => 0
  | _ => 0

abbrev hbmTy0_0 (i : Nat) : BufTy := match i % 128 with
  | 0 => ⟨S1600000x32, .f32⟩
  | 1 => ⟨S50000x32, .f32⟩
  | 2 => ⟨S1x32, .f32⟩
  | 3 => ⟨S1600000, .i32⟩
  | 4 => ⟨S1600000, .i32⟩
  | 5 => ⟨S128x64, .f32⟩
  | 6 => ⟨S64, .f32⟩
  | 7 => ⟨S64x64, .f32⟩
  | 8 => ⟨S64, .f32⟩
  | 9 => ⟨S128x64, .f32⟩
  | 10 => ⟨S64, .f32⟩
  | 11 => ⟨S64x64, .f32⟩
  | 12 => ⟨S64, .f32⟩
  | 13 => ⟨S160x64, .f32⟩
  | 14 => ⟨S64, .f32⟩
  | 15 => ⟨S64x64, .f32⟩
  | 16 => ⟨S64, .f32⟩
  | 17 => ⟨S32, .f32⟩
  | 18 => ⟨S_, .i32⟩
  | 19 => ⟨S1600000, .i32⟩
  | 20 => ⟨S1600000, .i1⟩
  | 21 => ⟨S_, .i32⟩
  | 22 => ⟨S1600000, .i32⟩
  | 23 => ⟨S1600000, .i32⟩
  | 24 => ⟨S1600000, .i32⟩
  | 25 => ⟨S1600000x1, .i32⟩
  | 26 => ⟨S1600000x32, .f32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000x32, .f32⟩
  | 36 => ⟨S1600000x32, .f32⟩
  | 37 => ⟨S1600000x128, .f32⟩
  | 38 => ⟨S1600000x64, .f32⟩
  | 39 => ⟨S1x64, .f32⟩
  | 40 => ⟨S1600000x64, .f32⟩
  | 41 => ⟨S1600000x64, .f32⟩
  | 42 => ⟨S_, .f32⟩
  | 43 => ⟨S1600000x64, .f32⟩
  | 44 => ⟨S1600000x64, .f32⟩
  | 45 => ⟨S1600000x64, .f32⟩
  | 46 => ⟨S1600000x64, .f32⟩
  | 47 => ⟨S1600000x64, .i1⟩
  | 48 => ⟨S1600000x64, .f32⟩
  | 49 => ⟨S1600000x64, .f32⟩
  | 50 => ⟨S1600000x64, .f32⟩
  | 51 => ⟨S1600000x64, .f32⟩
  | 52 => ⟨S1600000x64, .f32⟩
  | 53 => ⟨S1600000x64, .f32⟩
  | 54 => ⟨S1600000x64, .f32⟩
  | 55 => ⟨S1600000x64, .f32⟩
  | 56 => ⟨S1600000x64, .f32⟩
  | 57 => ⟨S1x64, .f32⟩
  | 58 => ⟨S1600000x64, .f32⟩
  | 59 => ⟨S1600000x64, .f32⟩
  | 60 => ⟨S_, .f32⟩
  | 61 => ⟨S1600000x64, .f32⟩
  | 62 => ⟨S1600000x64, .f32⟩
  | 63 => ⟨S1600000x64, .f32⟩
  | 64 => ⟨S1600000x64, .f32⟩
  | 65 => ⟨S1600000x64, .i1⟩
  | 66 => ⟨S1600000x64, .f32⟩
  | 67 => ⟨S1600000x64, .f32⟩
  | 68 => ⟨S1600000x64, .f32⟩
  | 69 => ⟨S1600000x64, .f32⟩
  | 70 => ⟨S1600000x64, .f32⟩
  | 71 => ⟨S1600000x64, .f32⟩
  | 72 => ⟨S1600000x64, .f32⟩
  | 73 => ⟨S1600000x64, .f32⟩
  | 74 => ⟨S_, .f32⟩
  | 75 => ⟨S50000x64, .f32⟩
  | 76 => ⟨S1600000x1, .i32⟩
  | 77 => ⟨S50000x64, .f32⟩
  | 78 => ⟨S_, .f32⟩
  | 79 => ⟨S1600000, .f32⟩
  | 80 => ⟨S_, .f32⟩
  | 81 => ⟨S50000, .f32⟩
  | 82 => ⟨S1600000x1, .i32⟩
  | 83 => ⟨S50000, .f32⟩
  | 84 => ⟨S_, .f32⟩
  | 85 => ⟨S50000, .f32⟩
  | 86 => ⟨S50000, .f32⟩
  | 87 => ⟨S50000x1, .f32⟩
  | 88 => ⟨S50000x64, .f32⟩
  | 89 => ⟨S50000x64, .f32⟩
  | 90 => ⟨S50000x32, .f32⟩
  | 91 => ⟨S50000x128, .f32⟩
  | 92 => ⟨S50000x64, .f32⟩
  | 93 => ⟨S1x64, .f32⟩
  | 94 => ⟨S50000x64, .f32⟩
  | 95 => ⟨S50000x64, .f32⟩
  | 96 => ⟨S_, .f32⟩
  | 97 => ⟨S50000x64, .f32⟩
  | 98 => ⟨S50000x64, .f32⟩
  | 99 => ⟨S50000x64, .f32⟩
  | 100 => ⟨S50000x64, .f32⟩
  | 101 => ⟨S50000x64, .i1⟩
  | 102 => ⟨S50000x64, .f32⟩
  | 103 => ⟨S50000x64, .f32⟩
  | 104 => ⟨S50000x64, .f32⟩
  | 105 => ⟨S50000x64, .f32⟩
  | 106 => ⟨S50000x64, .f32⟩
  | 107 => ⟨S50000x64, .f32⟩
  | 108 => ⟨S50000x64, .f32⟩
  | 109 => ⟨S50000x64, .f32⟩
  | 110 => ⟨S50000x64, .f32⟩
  | 111 => ⟨S1x64, .f32⟩
  | 112 => ⟨S50000x64, .f32⟩
  | 113 => ⟨S50000x64, .f32⟩
  | 114 => ⟨S_, .f32⟩
  | 115 => ⟨S50000x64, .f32⟩
  | 116 => ⟨S50000x64, .f32⟩
  | 117 => ⟨S50000x64, .f32⟩
  | 118 => ⟨S50000x64, .f32⟩
  | 119 => ⟨S50000x64, .i1⟩
  | 120 => ⟨S50000x64, .f32⟩
  | 121 => ⟨S50000x64, .f32⟩
  | 122 => ⟨S50000x64, .f32⟩
  | 123 => ⟨S50000x64, .f32⟩
  | 124 => ⟨S50000x64, .f32⟩
  | 125 => ⟨S50000x64, .f32⟩
  | 126 => ⟨S50000x64, .f32⟩
  | 127 => ⟨S50000x64, .f32⟩
  | _ => ⟨S1600000x32, .f32⟩

abbrev hbmTy0_1 (i : Nat) : BufTy := match i % 128 with
  | 0 => ⟨S_, .f32⟩
  | 1 => ⟨S64, .f32⟩
  | 2 => ⟨S1x64, .f32⟩
  | 3 => ⟨S_, .f32⟩
  | 4 => ⟨S1x64, .f32⟩
  | 5 => ⟨S1x64, .f32⟩
  | 6 => ⟨S_, .f32⟩
  | 7 => ⟨S64, .f32⟩
  | 8 => ⟨S1x64, .f32⟩
  | 9 => ⟨S_, .f32⟩
  | 10 => ⟨S1x64, .f32⟩
  | 11 => ⟨S1x64, .f32⟩
  | 12 => ⟨S1x160, .f32⟩
  | 13 => ⟨S1x64, .f32⟩
  | 14 => ⟨S1x64, .f32⟩
  | 15 => ⟨S1x64, .f32⟩
  | 16 => ⟨S_, .f32⟩
  | 17 => ⟨S1x64, .f32⟩
  | 18 => ⟨S1x64, .f32⟩
  | 19 => ⟨S1x64, .f32⟩
  | 20 => ⟨S1x64, .f32⟩
  | 21 => ⟨S1x64, .i1⟩
  | 22 => ⟨S1x64, .f32⟩
  | 23 => ⟨S1x64, .f32⟩
  | 24 => ⟨S1x64, .f32⟩
  | 25 => ⟨S1x64, .f32⟩
  | 26 => ⟨S1x64, .f32⟩
  | 27 => ⟨S1x64, .f32⟩
  | 28 => ⟨S1x64, .f32⟩
  | 29 => ⟨S1x64, .f32⟩
  | 30 => ⟨S1x64, .f32⟩
  | 31 => ⟨S1x64, .f32⟩
  | 32 => ⟨S1x64, .f32⟩
  | 33 => ⟨S_, .f32⟩
  | 34 => ⟨S1x64, .f32⟩
  | 35 => ⟨S1x64, .f32⟩
  | 36 => ⟨S1x64, .f32⟩
  | 37 => ⟨S1x64, .f32⟩
  | 38 => ⟨S1x64, .i1⟩
  | 39 => ⟨S1x64, .f32⟩
  | 40 => ⟨S1x64, .f32⟩
  | 41 => ⟨S1x64, .f32⟩
  | 42 => ⟨S1x64, .f32⟩
  | 43 => ⟨S1x64, .f32⟩
  | 44 => ⟨S1x64, .f32⟩
  | 45 => ⟨S1x64, .f32⟩
  | 46 => ⟨S1x64, .f32⟩
  | _ => ⟨S1600000x32, .f32⟩

abbrev hbmTy (i : Nat) : BufTy := match i / 128 with
  | 0 => hbmTy0_0 i
  | 1 => hbmTy0_1 i
  | _ => ⟨S1600000x32, .f32⟩

abbrev bufTy : (tb : Table) → Fin (tcTables nBuf tb) → BufTy
  | .hbm, ⟨i, _⟩ => hbmTy i
  | _, _ => ⟨S1600000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_c : Ref sig .tc := ⟨.hbm, 18, rfl⟩
abbrev main_v1 : Ref sig .tc := ⟨.hbm, 19, rfl⟩
abbrev main_v2 : Ref sig .tc := ⟨.hbm, 20, rfl⟩
abbrev main_c_0 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_c_1 : Ref sig .tc := ⟨.hbm, 27, rfl⟩
abbrev main_v8 : Ref sig .tc := ⟨.hbm, 28, rfl⟩
abbrev main_v9 : Ref sig .tc := ⟨.hbm, 29, rfl⟩
abbrev main_c_2 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_call0_cst : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_call0_v5 : Ref sig .tc := ⟨.hbm, 48, rfl⟩
abbrev main_call0_v6 : Ref sig .tc := ⟨.hbm, 49, rfl⟩
abbrev main_call0_v7 : Ref sig .tc := ⟨.hbm, 50, rfl⟩
abbrev main_call0_v8 : Ref sig .tc := ⟨.hbm, 51, rfl⟩
abbrev main_call0_v9 : Ref sig .tc := ⟨.hbm, 52, rfl⟩
abbrev main_call0_v10 : Ref sig .tc := ⟨.hbm, 53, rfl⟩
abbrev main_call0_v11 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_call1_cst : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_call1_v5 : Ref sig .tc := ⟨.hbm, 66, rfl⟩
abbrev main_call1_v6 : Ref sig .tc := ⟨.hbm, 67, rfl⟩
abbrev main_call1_v7 : Ref sig .tc := ⟨.hbm, 68, rfl⟩
abbrev main_call1_v8 : Ref sig .tc := ⟨.hbm, 69, rfl⟩
abbrev main_call1_v9 : Ref sig .tc := ⟨.hbm, 70, rfl⟩
abbrev main_call1_v10 : Ref sig .tc := ⟨.hbm, 71, rfl⟩
abbrev main_call1_v11 : Ref sig .tc := ⟨.hbm, 72, rfl⟩
abbrev main_v26 : Ref sig .tc := ⟨.hbm, 73, rfl⟩
abbrev main_cst : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_cst_3 : Ref sig .tc := ⟨.hbm, 78, rfl⟩
abbrev main_v30 : Ref sig .tc := ⟨.hbm, 79, rfl⟩
abbrev main_cst_4 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_cst_5 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_call2_cst : Ref sig .tc := ⟨.hbm, 96, rfl⟩
abbrev main_call2_v0 : Ref sig .tc := ⟨.hbm, 97, rfl⟩
abbrev main_call2_v1 : Ref sig .tc := ⟨.hbm, 98, rfl⟩
abbrev main_call2_v2 : Ref sig .tc := ⟨.hbm, 99, rfl⟩
abbrev main_call2_v3 : Ref sig .tc := ⟨.hbm, 100, rfl⟩
abbrev main_call2_v4 : Ref sig .tc := ⟨.hbm, 101, rfl⟩
abbrev main_call2_v5 : Ref sig .tc := ⟨.hbm, 102, rfl⟩
abbrev main_call2_v6 : Ref sig .tc := ⟨.hbm, 103, rfl⟩
abbrev main_call2_v7 : Ref sig .tc := ⟨.hbm, 104, rfl⟩
abbrev main_call2_v8 : Ref sig .tc := ⟨.hbm, 105, rfl⟩
abbrev main_call2_v9 : Ref sig .tc := ⟨.hbm, 106, rfl⟩
abbrev main_call2_v10 : Ref sig .tc := ⟨.hbm, 107, rfl⟩
abbrev main_call2_v11 : Ref sig .tc := ⟨.hbm, 108, rfl⟩
abbrev main_v45 : Ref sig .tc := ⟨.hbm, 109, rfl⟩
abbrev main_v46 : Ref sig .tc := ⟨.hbm, 110, rfl⟩
abbrev main_v47 : Ref sig .tc := ⟨.hbm, 111, rfl⟩
abbrev main_v48 : Ref sig .tc := ⟨.hbm, 112, rfl⟩
abbrev main_v49 : Ref sig .tc := ⟨.hbm, 113, rfl⟩
abbrev main_call3_cst : Ref sig .tc := ⟨.hbm, 114, rfl⟩
abbrev main_call3_v0 : Ref sig .tc := ⟨.hbm, 115, rfl⟩
abbrev main_call3_v1 : Ref sig .tc := ⟨.hbm, 116, rfl⟩
abbrev main_call3_v2 : Ref sig .tc := ⟨.hbm, 117, rfl⟩
abbrev main_call3_v3 : Ref sig .tc := ⟨.hbm, 118, rfl⟩
abbrev main_call3_v4 : Ref sig .tc := ⟨.hbm, 119, rfl⟩
abbrev main_call3_v5 : Ref sig .tc := ⟨.hbm, 120, rfl⟩
abbrev main_call3_v6 : Ref sig .tc := ⟨.hbm, 121, rfl⟩
abbrev main_call3_v7 : Ref sig .tc := ⟨.hbm, 122, rfl⟩
abbrev main_call3_v8 : Ref sig .tc := ⟨.hbm, 123, rfl⟩
abbrev main_call3_v9 : Ref sig .tc := ⟨.hbm, 124, rfl⟩
abbrev main_call3_v10 : Ref sig .tc := ⟨.hbm, 125, rfl⟩
abbrev main_call3_v11 : Ref sig .tc := ⟨.hbm, 126, rfl⟩
abbrev main_v50 : Ref sig .tc := ⟨.hbm, 127, rfl⟩
abbrev main_cst_6 : Ref sig .tc := ⟨.hbm, 128, rfl⟩
abbrev main_v51 : Ref sig .tc := ⟨.hbm, 129, rfl⟩
abbrev main_v52 : Ref sig .tc := ⟨.hbm, 130, rfl⟩
abbrev main_cst_7 : Ref sig .tc := ⟨.hbm, 131, rfl⟩
abbrev main_v53 : Ref sig .tc := ⟨.hbm, 132, rfl⟩
abbrev main_v54 : Ref sig .tc := ⟨.hbm, 133, rfl⟩
abbrev main_cst_8 : Ref sig .tc := ⟨.hbm, 134, rfl⟩
abbrev main_v55 : Ref sig .tc := ⟨.hbm, 135, rfl⟩
abbrev main_v56 : Ref sig .tc := ⟨.hbm, 136, rfl⟩
abbrev main_cst_9 : Ref sig .tc := ⟨.hbm, 137, rfl⟩
abbrev main_v57 : Ref sig .tc := ⟨.hbm, 138, rfl⟩
abbrev main_v58 : Ref sig .tc := ⟨.hbm, 139, rfl⟩
abbrev main_v59 : Ref sig .tc := ⟨.hbm, 140, rfl⟩
abbrev main_v60 : Ref sig .tc := ⟨.hbm, 141, rfl⟩
abbrev main_v61 : Ref sig .tc := ⟨.hbm, 142, rfl⟩
abbrev main_v62 : Ref sig .tc := ⟨.hbm, 143, rfl⟩
abbrev main_call4_cst : Ref sig .tc := ⟨.hbm, 144, rfl⟩
abbrev main_call4_v0 : Ref sig .tc := ⟨.hbm, 145, rfl⟩
abbrev main_call4_v1 : Ref sig .tc := ⟨.hbm, 146, rfl⟩
abbrev main_call4_v2 : Ref sig .tc := ⟨.hbm, 147, rfl⟩
abbrev main_call4_v3 : Ref sig .tc := ⟨.hbm, 148, rfl⟩
abbrev main_call4_v4 : Ref sig .tc := ⟨.hbm, 149, rfl⟩
abbrev main_call4_v5 : Ref sig .tc := ⟨.hbm, 150, rfl⟩
abbrev main_call4_v6 : Ref sig .tc := ⟨.hbm, 151, rfl⟩
abbrev main_call4_v7 : Ref sig .tc := ⟨.hbm, 152, rfl⟩
abbrev main_call4_v8 : Ref sig .tc := ⟨.hbm, 153, rfl⟩
abbrev main_call4_v9 : Ref sig .tc := ⟨.hbm, 154, rfl⟩
abbrev main_call4_v10 : Ref sig .tc := ⟨.hbm, 155, rfl⟩
abbrev main_call4_v11 : Ref sig .tc := ⟨.hbm, 156, rfl⟩
abbrev main_v63 : Ref sig .tc := ⟨.hbm, 157, rfl⟩
abbrev main_v64 : Ref sig .tc := ⟨.hbm, 158, rfl⟩
abbrev main_v65 : Ref sig .tc := ⟨.hbm, 159, rfl⟩
abbrev main_v66 : Ref sig .tc := ⟨.hbm, 160, rfl⟩
abbrev main_call5_cst : Ref sig .tc := ⟨.hbm, 161, rfl⟩
abbrev main_call5_v0 : Ref sig .tc := ⟨.hbm, 162, rfl⟩
abbrev main_call5_v1 : Ref sig .tc := ⟨.hbm, 163, rfl⟩
abbrev main_call5_v2 : Ref sig .tc := ⟨.hbm, 164, rfl⟩
abbrev main_call5_v3 : Ref sig .tc := ⟨.hbm, 165, rfl⟩
abbrev main_call5_v4 : Ref sig .tc := ⟨.hbm, 166, rfl⟩
abbrev main_call5_v5 : Ref sig .tc := ⟨.hbm, 167, rfl⟩
abbrev main_call5_v6 : Ref sig .tc := ⟨.hbm, 168, rfl⟩
abbrev main_call5_v7 : Ref sig .tc := ⟨.hbm, 169, rfl⟩
abbrev main_call5_v8 : Ref sig .tc := ⟨.hbm, 170, rfl⟩
abbrev main_call5_v9 : Ref sig .tc := ⟨.hbm, 171, rfl⟩
abbrev main_call5_v10 : Ref sig .tc := ⟨.hbm, 172, rfl⟩
abbrev main_call5_v11 : Ref sig .tc := ⟨.hbm, 173, rfl⟩
abbrev main_v67 : Ref sig .tc := ⟨.hbm, 174, rfl⟩

abbrev nD : Nat := 1
abbrev τ : Topo := Topo.v7x

variable {F : FTy → Type} [FloatOps F]

class Facts₀ : Prop where
  shapeCasts_S1x32_S32 : S1x32.ShapeCasts S32
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S32_S1600000x32_1 : S32.BroadcastsInDim S1600000x32 (![1] : Fin 1 → Fin S1600000x32.rank)
  concatenates_S1600000x32_S1600000x32_S1600000x32_S1600000x32_S1600000x128_d1 : Shape.Concatenates [S1600000x32, S1600000x32, S1600000x32, S1600000x32] S1600000x128 1
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S32_S50000x32_1 : S32.BroadcastsInDim S50000x32 (![1] : Fin 1 → Fin S50000x32.rank)
  concatenates_S50000x32_S50000x64_S50000x32_S50000x128_d1 : Shape.Concatenates [S50000x32, S50000x64, S50000x32] S50000x128 1
  bcast_S1x64_S50000x64_0_1 : S1x64.BroadcastsInDim S50000x64 (![0, 1] : Fin 2 → Fin S50000x64.rank)
  reducesTo_S1600000x64_S64_d0 : S1600000x64.ReducesTo [0] S64
  h_S_ : 0 < S_.numel
  bcast_S_S1x64 : S_.BroadcastsInDim S1x64 (![] : Fin 0 → Fin S1x64.rank)
  reducesTo_S50000x64_S64_d0 : S50000x64.ReducesTo [0] S64
  concatenates_S1x32_S1x64_S1x64_S1x160_d1 : Shape.Concatenates [S1x32, S1x64, S1x64] S1x160 1
  gather_S50000x32_S1600000x1_S1600000x32_1_0_n_n_0_1_132_wf : GatherDims.WF S50000x32 S1600000x1 S1600000x32 [1] [0] [] [0] [] 1 ![1, 32]
  dot_S1600000x128_S128x64_S1600000x64_1_0_0_1_n_n_wf : DotDims.WF S1600000x128 S128x64 S1600000x64 [1] [0] [0] [1] [] []
  dot_S1600000x64_S64x64_S1600000x64_1_0_0_1_n_n_wf : DotDims.WF S1600000x64 S64x64 S1600000x64 [1] [0] [0] [1] [] []
  scatter_S50000x64_S1600000x1_S1600000x64_1_0_0_1_wf : ScatterDims.WF S50000x64 S1600000x1 S1600000x64 [1] [0] [0] 1
  scatter_S50000_S1600000x1_S1600000_n_0_0_1_wf : ScatterDims.WF S50000 S1600000x1 S1600000 [] [0] [0] 1
  dot_S50000x128_S128x64_S50000x64_1_0_0_1_n_n_wf : DotDims.WF S50000x128 S128x64 S50000x64 [1] [0] [0] [1] [] []
  dot_S50000x64_S64x64_S50000x64_1_0_0_1_n_n_wf : DotDims.WF S50000x64 S64x64 S50000x64 [1] [0] [0] [1] [] []
  dot_S1x160_S160x64_S1x64_1_0_0_1_n_n_wf : DotDims.WF S1x160 S160x64 S1x64 [1] [0] [0] [1] [] []
  dot_S1x64_S64x64_S1x64_1_0_0_1_n_n_wf : DotDims.WF S1x64 S64x64 S1x64 [1] [0] [0] [1] [] []

variable [Facts₀]

def gather_S50000x32_S1600000x1_S1600000x32_1_0_n_n_0_1_132 : GatherDims S50000x32 S1600000x1 S1600000x32 where
  offsetDims := [1]
  collapsedSliceDims := [0]
  operandBatchingDims := []
  startIndicesBatchingDims := []
  startIndexMap := [0]
  indexVectorDim := 1
  sliceSizes := ![1, 32]
  wf := gather_S50000x32_S1600000x1_S1600000x32_1_0_n_n_0_1_132_wf
def dot_S1600000x128_S128x64_S1600000x64_1_0_0_1_n_n : DotDims S1600000x128 S128x64 S1600000x64 where
  lhsContracting := [1]
  rhsContracting := [0]
  lhsNonContracting := [0]
  rhsNonContracting := [1]
  lhsBatch := []
  rhsBatch := []
  wf := dot_S1600000x128_S128x64_S1600000x64_1_0_0_1_n_n_wf
def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S1x160_S160x64_S1x64_1_0_0_1_n_n : DotDims S1x160 S160x64 S1x64 where
  lhsContracting := [1]
  rhsContracting := [0]
  lhsNonContracting := [0]
  rhsNonContracting := [1]
  lhsBatch := []
  rhsBatch := []
  wf := dot_S1x160_S160x64_S1x64_1_0_0_1_n_n_wf
def dot_S1x64_S64x64_S1x64_1_0_0_1_n_n : DotDims S1x64 S64x64 S1x64 where
  lhsContracting := [1]
  rhsContracting := [0]
  lhsNonContracting := [0]
  rhsNonContracting := [1]
  lhsBatch := []
  rhsBatch := []
  wf := dot_S1x64_S64x64_S1x64_1_0_0_1_n_n_wf

class Facts : Prop extends Facts₀ where

variable [Facts]
-- ==== Proof.K.Region0.lean ====
/-
  Region 0 of the kernel program (the edge perceptron, one grid point per block of 3200 edges), at a parameter
  `V`: the buffers' contents when the region is entered. A window's block at a point is read off its array; the
  body loads its eight input blocks whole, computes, and stores one value into the whole output block, so the output
  buffer after the body is that value of the input blocks (`out0_8`); with that the pipeline's proof data and the
  body's obligation at every grid point.
-/
import proofs.«409539_j52209622450458_2_alg».proof.Proof.Gen.Kernel.Launch
import proofs.«409539_j52209622450458_2_alg».proof.Proof.Gen.Kernel.Skeleton
import proofs.«409539_j52209622450458_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangles the body reads and writes through. -/
abbrev rA0 : Rect S3200x32 := Rect.unit (s := S3200x32) ![0, 0] S3200x32.size inb_S3200x32_S3200x32_0_0
abbrev rU0 : Rect S1x32 := Rect.unit (s := S1x32) ![0, 0] S1x32.size inb_S1x32_S1x32_0_0
abbrev rW10 : Rect S128x64 := Rect.unit (s := S128x64) ![0, 0] S128x64.size inb_S128x64_S128x64_0_0
abbrev rB0 : Rect S1x64 := Rect.unit (s := S1x64) ![0, 0] S1x64.size inb_S1x64_S1x64_0_0
abbrev rW20 : Rect S64x64 := Rect.unit (s := S64x64) ![0, 0] S64x64.size inb_S64x64_S64x64_0_0
abbrev rO0 : Rect S3200x64 := Rect.unit (s := S3200x64) ![0, 0] S3200x64.size inb_S3200x64_S3200x64_0_0

/-- The value the body stores, of the eight input blocks. -/
def val0 (x0 x1 x2 : Vec F S3200x32 .f32) (x3 : Vec F S1x32 .f32) (x4 : Vec F S128x64 .f32) (x5 : Vec F S1x64 .f32)
    (x6 : Vec F S64x64 .f32) (x7 : Vec F S1x64 .f32) : Vec F S3200x64 .f32 :=
  k0_pay1 (k0_pay2 (View.ld x0 rA0) (View.ld x1 rA0) (View.ld x2 rA0) (View.ld x3 rU0) (View.ld x4 rW10) (View.ld x5 rB0)
    (View.ld x6 rW20) (View.ld x7 rB0))

/-- Window 8's staging buffer after the body: its one store, which covers the buffer. -/
def out0_8 (x0 x1 x2 : Vec F S3200x32 .f32) (x3 : Vec F S1x32 .f32) (x4 : Vec F S128x64 .f32) (x5 : Vec F S1x64 .f32)
    (x6 : Vec F S64x64 .f32) (x7 : Vec F S1x64 .f32) : Vec F S3200x64 .f32 :=
  View.canon [⟨rO0, val0 x0 x1 x2 x3 x4 x5 x6 x7⟩]

/-- The proof data of pipeline 0 on core `c`: the arrays as the region finds them; after the body at point `t`
    each input's buffer at its block and the output's at `out0_8` of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0_8 (iblk0 V c 0 t) (iblk0 V c 1 t) (iblk0 V c 2 t) (iblk0 V c 3 t) (iblk0 V c 4 t) (iblk0 V c 5 t) (iblk0 V c 6 t) (iblk0 V c 7 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]

theorem after0_8 (c : Dev nD) (t : Fin cfg0.N) : (dat0 V c).after 8 t =
    out0_8 (iblk0 V c 0 t) (iblk0 V c 1 t) (iblk0 V c 2 t) (iblk0 V c 3 t) (iblk0 V c 4 t) (iblk0 V c 5 t) (iblk0 V c 6 t) (iblk0 V c 7 t) := by
  dsimp only [dat0]

end Cert.Kernel.Hand

end
-- ==== Proof.K.Region1.lean ====
/-
  Region 1 of the kernel program (the node perceptron, one grid point per block of 2000 nodes), at a parameter
  `V`: the buffers' contents when the region is entered. As for region 0: a window's block at a point is read off
  its array; the body loads its seven input blocks whole, computes, and stores one value into the whole output block.
-/
import proofs.«409539_j52209622450458_2_alg».proof.Proof.Gen.Kernel.Launch
import proofs.«409539_j52209622450458_2_alg».proof.Proof.Gen.Kernel.Skeleton
import proofs.«409539_j52209622450458_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-buffer rectangles the body reads and writes through. -/
abbrev rN1 : Rect S2000x32 := Rect.unit (s := S2000x32) ![0, 0] S2000x32.size inb_S2000x32_S2000x32_0_0
abbrev rM1 : Rect S2000x64 := Rect.unit (s := S2000x64) ![0, 0] S2000x64.size inb_S2000x64_S2000x64_0_0
abbrev rU1 : Rect S1x32 := Rect.unit (s := S1x32) ![0, 0] S1x32.size inb_S1x32_S1x32_0_0
abbrev rW11 : Rect S128x64 := Rect.unit (s := S128x64) ![0, 0] S128x64.size inb_S128x64_S128x64_0_0
abbrev rB1 : Rect S1x64 := Rect.unit (s := S1x64) ![0, 0] S1x64.size inb_S1x64_S1x64_0_0
abbrev rW21 : Rect S64x64 := Rect.unit (s := S64x64) ![0, 0] S64x64.size inb_S64x64_S64x64_0_0

/-- The value the body stores, of the seven input blocks. -/
def val1 (x0 : Vec F S2000x32 .f32) (x1 : Vec F S2000x64 .f32) (x2 : Vec F S1x32 .f32) (x3 : Vec F S128x64 .f32) (x4 : Vec F S1x64 .f32)
    (x5 : Vec F S64x64 .f32) (x6 : Vec F S1x64 .f32) : Vec F S2000x64 .f32 :=
  k1_pay1 (k1_pay2 (View.ld x0 rN1) (View.ld x1 rM1) (View.ld x2 rU1) (View.ld x3 rW11) (View.ld x4 rB1) (View.ld x5 rW21) (View.ld x6 rB1))
    (Scalar.ofBits .f32 0x00000000#32)
    (k1_pay3 (View.ld x0 rN1) (View.ld x1 rM1) (View.ld x2 rU1) (View.ld x3 rW11) (View.ld x4 rB1) (View.ld x5 rW21) (View.ld x6 rB1))
    (k1_pay4 (F := F))

/-- Window 7's staging buffer after the body: its one store, which covers the buffer. -/
def out1_7 (x0 : Vec F S2000x32 .f32) (x1 : Vec F S2000x64 .f32) (x2 : Vec F S1x32 .f32) (x3 : Vec F S128x64 .f32) (x4 : Vec F S1x64 .f32)
    (x5 : Vec F S64x64 .f32) (x6 : Vec F S1x64 .f32) : Vec F S2000x64 .f32 :=
  View.canon [⟨rM1, val1 x0 x1 x2 x3 x4 x5 x6⟩]

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]

theorem after1_7 (c : Dev nD) (t : Fin cfg1.N) : (dat1 V c).after 7 t =
    out1_7 (iblk1 V c 0 t) (iblk1 V c 1 t) (iblk1 V c 2 t) (iblk1 V c 3 t) (iblk1 V c 4 t) (iblk1 V c 5 t) (iblk1 V c 6 t) := by
  dsimp only [dat1]

end Cert.Kernel.Hand

end
-- ==== Proof.K.Fold.lean ====
/-
  The buffers' contents at every boundary between two items of the kernel program's @main, as a fold from the launch
  memory: a stretch of host operations applies them; a kernel region leaves each of its arrays at what the pipeline's
  write-backs fold to (its inputs as entered, its output at the blocks the grid points wrote) and every other buffer
  as entered.
-/
import proofs.«409539_j52209622450458_2_alg».proof.Proof.K.Region0
import proofs.«409539_j52209622450458_2_alg».proof.Proof.K.Region1
import Idealize.ShloMosaic.Lib.Pipeline.FrameSuffix

set_option maxRecDepth 16384

noncomputable section

namespace Cert.Kernel.Hand

open Cert.Kernel Cert.Kernel.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ)

/-- Core `c`'s buffers at launch. -/
abbrev W0 : Dev nD → Valuation τ sig (Elt F) := fun c b => m ((c : Dev nD), b)
/-- After the gather of the source rows. -/
abbrev W1 : Dev nD → Valuation τ sig (Elt F) := fun c => StableHlo.after hostOps0 (W0 m c)
/-- After the gather of the destination rows. -/
abbrev W2 : Dev nD → Valuation τ sig (Elt F) := fun c => StableHlo.after hostOps0_1 (W1 m c)
/-- After the two bias reshapes: region 0's entry. -/
abbrev W3 : Dev nD → Valuation τ sig (Elt F) := fun c => StableHlo.after hostOps0_2 (W2 m c)
/-- The same read at the TensorCore's references (what region 0's proof data take). -/
abbrev E3 : (c : Dev nD) → (b : Ref sig .tc) → Buf (Elt F) ((c : Thread nD τ).loc b) := fun c b => W3 m c b
/-- At region 0's exit. -/
def W4 (c : Dev nD) : Valuation τ sig (Elt F) :=
  Pipeline.withArrays spec0 c (W3 m c) fun w => (dat0 (E3 m) c).arrAt w cfg0.N
theorem W4_arr (c : Dev nD) (w : Fin cfg0.W) :
    W4 m c (Proc.devRef .tc (Pipeline.arrRef spec0 w)) = (dat0 (E3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
/-- After the segment mean and the two bias reshapes: region 1's entry. -/
abbrev W5 : Dev nD → Valuation τ sig (Elt F) := fun c => StableHlo.after hostOps1 (W4 m c)
abbrev E5 : (c : Dev nD) → (b : Ref sig .tc) → Buf (Elt F) ((c : Thread nD τ).loc b) := fun c b => W5 m c b
/-- At region 1's exit. -/
def W6 (c : Dev nD) : Valuation τ sig (Elt F) :=
  Pipeline.withArrays spec1 c (W5 m c) fun w => (dat1 (E5 m) c).arrAt w cfg1.N
theorem W6_arr (c : Dev nD) (w : Fin cfg1.W) :
    W6 m c (Proc.devRef .tc (Pipeline.arrRef spec1 w)) = (dat1 (E5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
/-- The readout: the two column means and the concatenation, the first layer's softplus, the second layer, its softplus. -/
abbrev W7 : Dev nD → Valuation τ sig (Elt F) := fun c => StableHlo.after hostOps2 (W6 m c)
abbrev W8 : Dev nD → Valuation τ sig (Elt F) := fun c => StableHlo.after hostOps2_1 (W7 m c)
abbrev W9 : Dev nD → Valuation τ sig (Elt F) := fun c => StableHlo.after hostOps2_2 (W8 m c)
abbrev W10 : Dev nD → Valuation τ sig (Elt F) := fun c => StableHlo.after hostOps2_3 (W9 m c)

end Cert.Kernel.Hand

end
-- ==== Proof.K.Body0.lean ====
/-
  Region 0 of the kernel program, the body's obligation: on whole staging memrefs holding the eight input blocks the
  kernel function loads them, computes, and stores one value over the whole output buffer; so at every grid point the
  body runs without fault, leaves each input buffer as it was and the output buffer at `out0_8` of the input blocks.
-/
import proofs.«409539_j52209622450458_2_alg».proof.Proof.K.Region0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The inputs' buffers before the body -/

/-- Each input's current staging buffer holds its block at every point, fetched there or not: unfetched, the block
    index has not moved; the windows are uncut and never idle, and the body leaves each block in place. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl)
    (fun t => by rw [after0_5]; unfold Dat.blockOf iblk0; rw [A_eq0]; try rfl) t d).trans
    (by unfold Dat.fetched Dat.blockOf iblk0; rw [A_eq0]; try rfl)
theorem before0_6 (c : Dev nD) (t : Fin cfg0.N) (d) : (dat0 V c).before 6 t d = iblk0 V c 6 t :=
  ((dat0 V c).before_in_eq_fetched 6 rfl (fun _ => rfl) (fun _ _ _ => rfl)
    (fun t => by rw [after0_6]; unfold Dat.blockOf iblk0; rw [A_eq0]; try rfl) t d).trans
    (by unfold Dat.fetched Dat.blockOf iblk0; rw [A_eq0]; try rfl)
theorem before0_7 (c : Dev nD) (t : Fin cfg0.N) (d) : (dat0 V c).before 7 t d = iblk0 V c 7 t :=
  ((dat0 V c).before_in_eq_fetched 7 rfl (fun _ => rfl) (fun _ _ _ => rfl)
    (fun t => by rw [after0_7]; unfold Dat.blockOf iblk0; rw [A_eq0]; try rfl) t d).trans
    (by unfold Dat.fetched Dat.blockOf iblk0; rw [A_eq0]; try rfl)

/-! ## The body's triple -/

/-- The one store covers the output buffer. -/
theorem cover0_8 (p0 : Vec F S3200x64 .f32) (y : S3200x64.Idx) :
    ∃ pc ∈ ([⟨rO0, p0⟩] : List (View.Piece (Elt F) S3200x64 .f32)), y ∈ pc.1.set :=
  View.cover_of_tiled [⟨rO0, p0⟩] S3200x64.size (by rfl) y

set_option maxHeartbeats 1000000 in
/-- The kernel function on whole staging memrefs, the inputs' at contents `x0 … x7` and the output's at anything, runs to
    the continuation holding the inputs' as they were and the output's at `out0_8` of the inputs'. -/
theorem sound_kernel0 (c : Dev nD) (E : Set ℕ) (i : grid0.Coords) (arg1 : Memref sig .tc .vmem S3200x32 .f32) (harg1 : arg1.IsWhole) (arg2 : Memref sig .tc .vmem S3200x32 .f32) (harg2 : arg2.IsWhole) (arg3 : Memref sig .tc .vmem S3200x32 .f32) (harg3 : arg3.IsWhole) (arg4 : Memref sig .tc .vmem S1x32 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S3200x64 .f32) (harg9 : arg9.IsWhole)
    (x0 x1 x2 : Vec F S3200x32 .f32) (x3 : Vec F S1x32 .f32) (x4 : Vec F S128x64 .f32) (x5 : Vec F S1x64 .f32) (x6 : Vec F S64x64 .f32) (x7 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (out0_8 x0 x1 x2 x3 x4 x5 x6 x7)) -∗ K ⟨⟩))
      ⊢ wp frame (wpE (defs₀ (F := F)) Variants.none c none) E (cc0__edge_mlp_kernel i arg1 harg1 arg2 harg2 arg3 harg3 arg4 harg4 arg5 harg5 arg6 harg6 arg7 harg7 arg8 harg8 arg9 harg9) K := by
  simp only [cc0__edge_mlp_kernel_eq_skeleton]; unfold cc0__edge_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover0_8 _)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

/-- The body at any point: the inputs' memrefs hold their blocks, so the kernel's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Body1.lean ====
/-
  Region 1 of the kernel program, the body at a grid point: from staging buffers holding each input window's block the
  body loads the seven blocks whole, computes, and stores one value over the whole output buffer; the inputs' buffers
  are left as found and the output's holds `out1_7` of the input blocks. This is the library's body obligation for
  the proof data `dat1`, at every point and at any float family.
-/
import proofs.«409539_j52209622450458_2_alg».proof.Proof.K.Region1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Each input's staging buffer holds its block at every point

An input window is uncut and never idle, and the body leaves its block in place; so its current buffer holds the
block at the point whether it was fetched there or not (unfetched, the block index has not moved). -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)

theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)

/-! ## The one store covers the output buffer -/

/-- The body's one store is over the whole output rectangle, so it covers the buffer. -/
theorem cover1_7 (p0 : Vec F S2000x64 .f32) (y : S2000x64.Idx) :
    ∃ pc ∈ ([⟨rM1, p0⟩] : List (View.Piece (Elt F) S2000x64 .f32)), y ∈ pc.1.set :=
  View.cover_of_tiled [⟨rM1, p0⟩] S2000x64.size (by rfl) y

/-! ## The body's triple over whole memrefs -/

set_option maxHeartbeats 1000000 in
/-- The kernel body on whole staging memrefs, the inputs' at contents `x0 … x6` and the output's at anything, runs
    without fault to the continuation holding the inputs' as they were and the output's at `out1_7` of the inputs. -/
theorem sound_kernel1 (c : Dev nD) (E : Set ℕ) (i : grid1.Coords)
    (arg1 : Memref sig .tc .vmem S2000x32 .f32) (harg1 : arg1.IsWhole)
    (arg2 : Memref sig .tc .vmem S2000x64 .f32) (harg2 : arg2.IsWhole)
    (arg3 : Memref sig .tc .vmem S1x32 .f32) (harg3 : arg3.IsWhole)
    (arg4 : Memref sig .tc .vmem S128x64 .f32) (harg4 : arg4.IsWhole)
    (arg5 : Memref sig .tc .vmem S1x64 .f32) (harg5 : arg5.IsWhole)
    (arg6 : Memref sig .tc .vmem S64x64 .f32) (harg6 : arg6.IsWhole)
    (arg7 : Memref sig .tc .vmem S1x64 .f32) (harg7 : arg7.IsWhole)
    (arg8 : Memref sig .tc .vmem S2000x64 .f32) (harg8 : arg8.IsWhole)
    (x0 : Vec F S2000x32 .f32) (x1 : Vec F S2000x64 .f32) (x2 : Vec F S1x32 .f32) (x3 : Vec F S128x64 .f32) (x4 : Vec F S1x64 .f32) (x5 : Vec F S64x64 .f32) (x6 : Vec F S1x64 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out1_7 x0 x1 x2 x3 x4 x5 x6)) -∗ K ⟨⟩))
      ⊢ wp frame (wpE (defs₀ (F := F)) Variants.none c none) E (cc1__node_mlp_kernel i arg1 harg1 arg2 harg2 arg3 harg3 arg4 harg4 arg5 harg5 arg6 harg6 arg7 harg7 arg8 harg8) K := by
  simp only [cc1__node_mlp_kernel_eq_skeleton]; unfold cc1__node_mlp_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The body obligation, at a generic point -/

/-- What the body is called with at point `t`: the invariant, what the core owes, and the eight windows' current
    staging buffers at what the pipeline left in them. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- What it returns: the same invariant and debt, and each window's buffer at what the body leaves in it. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' buffers hold their blocks, so the triple over whole memrefs applies; the
    invariant and the core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Run.lean ====
/-
  The run of the kernel program's @main. Its ten items are the launch kit's segments: a stretch of host operations is
  entered from its boundary's contents and left at what the operations make of them; a kernel region is entered from
  every unscoped buffer at the boundary's contents, splits its windows' arrays out of them, runs the pipeline over the
  region's proof data and puts the arrays back at what the write-backs fold to. The thread state between two items is
  "every unscoped buffer at the fold's valuation there, the generator register at some state, nothing owed". So every
  weakly fair execution terminates, nothing faulting, with every unscoped buffer at the fold's last valuation; this is
  read at the three result buffers and at the seventeen arguments, which no item writes.
-/
import proofs.«409539_j52209622450458_2_alg».proof.Proof.K.Fold
import proofs.«409539_j52209622450458_2_alg».proof.Proof.K.Body0
import proofs.«409539_j52209622450458_2_alg».proof.Proof.K.Body1
import proofs.«409539_j52209622450458_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Pipeline.Frame
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The regions' exit contents, at the TensorCore's references -/

/-- Region 0's exit contents read at the TensorCore's references. -/
abbrev E4 : (c : Dev nD) → (b : Ref sig .tc) → Buf (Elt F) ((c : Thread nD τ).loc b) := fun c b => W4 m c b
/-- Region 1's exit contents read at the TensorCore's references. -/
abbrev E6 : (c : Dev nD) → (b : Ref sig .tc) → Buf (Elt F) ((c : Thread nD τ).loc b) := fun c b => W6 m c b

/-- At region 0's exit each of its arrays holds what the pipeline leaves, every other buffer what it held at entry. -/
theorem hF0 (c : Dev nD) (w : Fin cfg0.W) : (dat0 (E3 m) c).arrAt w cfg0.N = E4 m c (Pipeline.arrRef spec0 w) :=
  (W4_arr m c w).symm
theorem hrest0 (c : Dev nD) : ∀ b, b ∉ Finset.univ.image (Pipeline.arrRef spec0) → E4 m c b = E3 m c b :=
  fun b hb => W4_of_ne m c b fun w e => hb (Finset.mem_image.mpr ⟨w, Finset.mem_univ _, e⟩)
/-- The same at region 1's exit. -/
theorem hF1 (c : Dev nD) (w : Fin cfg1.W) : (dat1 (E5 m) c).arrAt w cfg1.N = E6 m c (Pipeline.arrRef spec1 w) :=
  (W6_arr m c w).symm
theorem hrest1 (c : Dev nD) : ∀ b, b ∉ Finset.univ.image (Pipeline.arrRef spec1) → E6 m c b = E5 m c b :=
  fun b hb => W6_of_ne m c b fun w e => hb (Finset.mem_image.mpr ⟨w, Finset.mem_univ _, e⟩)

/-! ## The arguments end as launched

No host operation writes an argument (it is in no stretch's list of written references) and no region does: an
argument that is a window's array is an input window's, whose array the pipeline leaves as entered; any other
argument is no array of the region. So the fold at an argument's buffer walks back to the launch memory. -/

/-- A buffer that no stretch writes and that both regions leave as entered holds its launch contents at the end. -/
theorem W10_of (c : Dev nD) (r : Ref sig .tc)
    (h0 : r ∉ hostOps0_W) (h1 : r ∉ hostOps0_1_W) (h2 : r ∉ hostOps0_2_W)
    (h3 : W4 m c (Proc.devRef .tc r) = W3 m c (Proc.devRef .tc r)) (h4 : r ∉ hostOps1_W)
    (h5 : W6 m c (Proc.devRef .tc r) = W5 m c (Proc.devRef .tc r)) (h6 : r ∉ hostOps2_W) (h7 : r ∉ hostOps2_1_W)
    (h8 : r ∉ hostOps2_2_W) (h9 : r ∉ hostOps2_3_W) :
    W10 m c (Proc.devRef .tc r) = m ((c : Thread nD τ).loc r) :=
  calc W10 m c (Proc.devRef .tc r)
    _ = W9 m c (Proc.devRef .tc r) := StableHlo.after_of_writes_sub hostOps2_3 _ hostOps2_3_writes h9
    _ = W8 m c (Proc.devRef .tc r) := StableHlo.after_of_writes_sub hostOps2_2 _ hostOps2_2_writes h8
    _ = W7 m c (Proc.devRef .tc r) := StableHlo.after_of_writes_sub hostOps2_1 _ hostOps2_1_writes h7
    _ = W6 m c (Proc.devRef .tc r) := StableHlo.after_of_writes_sub hostOps2 _ hostOps2_writes h6
    _ = W5 m c (Proc.devRef .tc r) := h5
    _ = W4 m c (Proc.devRef .tc r) := StableHlo.after_of_writes_sub hostOps1 _ hostOps1_writes h4
    _ = W3 m c (Proc.devRef .tc r) := h3
    _ = W2 m c (Proc.devRef .tc r) := StableHlo.after_of_writes_sub hostOps0_2 _ hostOps0_2_writes h2
    _ = W1 m c (Proc.devRef .tc r) := StableHlo.after_of_writes_sub hostOps0_1 _ hostOps0_1_writes h1
    _ = W0 m c (Proc.devRef .tc r) := StableHlo.after_of_writes_sub hostOps0 _ hostOps0_writes h0
    _ = m ((c : Thread nD τ).loc r) := rfl

/-- An input window's array leaves region 0 as it entered. -/
theorem W4_in (c : Dev nD) (w : Fin cfg0.W) (hin : (cfg0.win w).isOut = false) :
    W4 m c (Proc.devRef .tc (Pipeline.arrRef spec0 w)) = W3 m c (Proc.devRef .tc (Pipeline.arrRef spec0 w)) :=
  (W4_arr m c w).trans (((dat0 (E3 m) c).arrAt_in w hin _).trans (A_eq0 (E3 m) c w))
/-- An input window's array leaves region 1 as it entered. -/
theorem W6_in (c : Dev nD) (w : Fin cfg1.W) (hin : (cfg1.win w).isOut = false) :
    W6 m c (Proc.devRef .tc (Pipeline.arrRef spec1 w)) = W5 m c (Proc.devRef .tc (Pipeline.arrRef spec1 w)) :=
  (W6_arr m c w).trans (((dat1 (E5 m) c).arrAt_in w hin _).trans (A_eq1 (E5 m) c w))

theorem W10_main_arg0 (c : Dev nD) : W10 m c (Proc.devRef .tc main_arg0) = m ((c : Thread nD τ).loc main_arg0) :=
  W10_of m c main_arg0 (by decide) (by decide) (by decide) (W4_in m c 2 rfl) (by decide)
    (W6_of_ne m c main_arg0 (by decide)) (by decide) (by decide) (by decide) (by decide)
theorem W10_main_arg1 (c : Dev nD) : W10 m c (Proc.devRef .tc main_arg1) = m ((c : Thread nD τ).loc main_arg1) :=
  W10_of m c main_arg1 (by decide) (by decide) (by decide) (W4_of_ne m c main_arg1 (by decide)) (by decide)
    (W6_in m c 0 rfl) (by decide) (by decide) (by decide) (by decide)
theorem W10_main_arg2 (c : Dev nD) : W10 m c (Proc.devRef .tc main_arg2) = m ((c : Thread nD τ).loc main_arg2) :=
  W10_of m c main_arg2 (by decide) (by decide) (by decide) (W4_in m c 3 rfl) (by decide)
    (W6_in m c 2 rfl) (by decide) (by decide) (by decide) (by decide)
theorem W10_main_arg3 (c : Dev nD) : W10 m c (Proc.devRef .tc main_arg3) = m ((c : Thread nD τ).loc main_arg3) :=
  W10_of m c main_arg3 (by decide) (by decide) (by decide) (W4_of_ne m c main_arg3 (by decide)) (by decide)
    (W6_of_ne m c main_arg3 (by decide)) (by decide) (by decide) (by decide) (by decide)
theorem W10_main_arg4 (c : Dev nD) : W10 m c (Proc.devRef .tc main_arg4) = m ((c : Thread nD τ).loc main_arg4) :=
  W10_of m c main_arg4 (by decide) (by decide) (by decide) (W4_of_ne m c main_arg4 (by decide)) (by decide)
    (W6_of_ne m c main_arg4 (by decide)) (by decide) (by decide) (by decide) (by decide)
theorem W10_main_arg5 (c : Dev nD) : W10 m c (Proc.devRef .tc main_arg5) = m ((c : Thread nD τ).loc main_arg5) :=
  W10_of m c main_arg5 (by decide) (by decide) (by decide) (W4_in m c 4 rfl) (by decide)
    (W6_of_ne m c main_arg5 (by decide)) (by decide) (by decide) (by decide) (by decide)
theorem W10_main_arg6 (c : Dev nD) : W10 m c (Proc.devRef .tc main_arg6) = m ((c : Thread nD τ).loc main_arg6) :=
  W10_of m c main_arg6 (by decide) (by decide) (by decide) (W4_of_ne m c main_arg6 (by decide)) (by decide)
    (W6_of_ne m c main_arg6 (by decide)) (by decide) (by decide) (by decide) (by decide)
theorem W10_main_arg7 (c : Dev nD) : W10 m c (Proc.devRef .tc main_arg7) = m ((c : Thread nD τ).loc main_arg7) :=
  W10_of m c main_arg7 (by decide) (by decide) (by decide) (W4_in m c 6 rfl) (by decide)
    (W6_of_ne m c main_arg7 (by decide)) (by decide) (by decide) (by decide) (by decide)
theorem W10_main_arg8 (c : Dev nD) : W10 m c (Proc.devRef .tc main_arg8) = m ((c : Thread nD τ).loc main_arg8) :=
  W10_of m c main_arg8 (by decide) (by decide) (by decide) (W4_of_ne m c main_arg8 (by decide)) (by decide)
    (W6_of_ne m c main_arg8 (by decide)) (by decide) (by decide) (by decide) (by decide)
theorem W10_main_arg9 (c : Dev nD) : W10 m c (Proc.devRef .tc main_arg9) = m ((c : Thread nD τ).loc main_arg9) :=
  W10_of m c main_arg9 (by decide) (by decide) (by decide) (W4_of_ne m c main_arg9 (by decide)) (by decide)
    (W6_in m c 3 rfl) (by decide) (by decide) (by decide) (by decide)
theorem W10_main_arg10 (c : Dev nD) : W10 m c (Proc.devRef .tc main_arg10) = m ((c : Thread nD τ).loc main_arg10) :=
  W10_of m c main_arg10 (by decide) (by decide) (by decide) (W4_of_ne m c main_arg10 (by decide)) (by decide)
    (W6_of_ne m c main_arg10 (by decide)) (by decide) (by decide) (by decide) (by decide)
theorem W10_main_arg11 (c : Dev nD) : W10 m c (Proc.devRef .tc main_arg11) = m ((c : Thread nD τ).loc main_arg11) :=
  W10_of m c main_arg11 (by decide) (by decide) (by decide) (W4_of_ne m c main_arg11 (by decide)) (by decide)
    (W6_in m c 5 rfl) (by decide) (by decide) (by decide) (by decide)
theorem W10_main_arg12 (c : Dev nD) : W10 m c (Proc.devRef .tc main_arg12) = m ((c : Thread nD τ).loc main_arg12) :=
  W10_of m c main_arg12 (by decide) (by decide) (by decide) (W4_of_ne m c main_arg12 (by decide)) (by decide)
    (W6_of_ne m c main_arg12 (by decide)) (by decide) (by decide) (by decide) (by decide)
theorem W10_main_arg13 (c : Dev nD) : W10 m c (Proc.devRef .tc main_arg13) = m ((c : Thread nD τ).loc main_arg13) :=
  W10_of m c main_arg13 (by decide) (by decide) (by decide) (W4_of_ne m c main_arg13 (by decide)) (by decide)
    (W6_of_ne m c main_arg13 (by decide)) (by decide) (by decide) (by decide) (by decide)
theorem W10_main_arg14 (c : Dev nD) : W10 m c (Proc.devRef .tc main_arg14) = m ((c : Thread nD τ).loc main_arg14) :=
  W10_of m c main_arg14 (by decide) (by decide) (by decide) (W4_of_ne m c main_arg14 (by decide)) (by decide)
    (W6_of_ne m c main_arg14 (by decide)) (by decide) (by decide) (by decide) (by decide)
theorem W10_main_arg15 (c : Dev nD) : W10 m c (Proc.devRef .tc main_arg15) = m ((c : Thread nD τ).loc main_arg15) :=
  W10_of m c main_arg15 (by decide) (by decide) (by decide) (W4_of_ne m c main_arg15 (by decide)) (by decide)
    (W6_of_ne m c main_arg15 (by decide)) (by decide) (by decide) (by decide) (by decide)
theorem W10_main_arg16 (c : Dev nD) : W10 m c (Proc.devRef .tc main_arg16) = m ((c : Thread nD τ).loc main_arg16) :=
  W10_of m c main_arg16 (by decide) (by decide) (by decide) (W4_of_ne m c main_arg16 (by decide)) (by decide)
    (W6_of_ne m c main_arg16 (by decide)) (by decide) (by decide) (by decide) (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E3 m) c
  | ⟨1, _⟩ => fun c => dat1 (E5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at
    nothing. -/
abbrev R (c : Dev nD) : sProp 𝕄 := iprop((∃ r, prngReg c r) ∗ ∃ W, owes (c : Thread nD τ) (0 : CellTallies nD τ sig Unit) W)
/-- A stretch of host operations as a segment: over the unscoped references from the contents `W`, `R` riding along;
    it is left with those references at the operations' result on `W c`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the fold's last valuation, the generator register
    at some state. -/
abbrev Tₙ (c : Dev nD) : sProp 𝕄 := iprop(StableHlo.held (c : Thread nD τ) (Pipeline.ucRefs τ sig) (W10 m c) ∗ ∃ r, prngReg c r)

/-! ## The regions as segments -/

-- a library lemma stated over the pinned configuration unifies with the printed one only when unification may
-- unfold plain definitions in a metavariable's type
set_option backward.isDefEq.respectTransparency.types false in
/-- Region 0 over the thread state: entered from every unscoped buffer at the fold's valuation before it, left at
    the one after it. Its windows' arrays are split out of the unscoped buffers and put back at what the write-backs
    fold to; the generator register goes into the pipeline's invariant and comes back; nothing is owed; the kernel has
    no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (E3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E3 m c) (E4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 1 over the thread state: entered from every unscoped buffer at the fold's valuation before it, left at
    the one after it. Its windows' arrays are split out of the unscoped buffers and put back at what the write-backs
    fold to; the generator register goes into the pipeline's invariant and comes back; nothing is owed; the kernel has
    no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (E5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E5 m c) (E6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- The last stretch leaves the last thread state beside the core owing nothing. -/
theorem Tₙ_of (c : Dev nD) : iprop(StableHlo.held (c : Thread nD τ) (Pipeline.ucRefs τ sig) (W10 m c) ∗ R c)
    ⊢ (iprop(Tₙ m c ∗ ∃ W, owes (c : Thread nD τ) (0 : CellTallies nD τ sig Unit) W) : sProp 𝕄) := by
  iintro ⟨Hh, Hr, HO⟩
  isplitl [Hh Hr]
  · isplitl [Hh] <;> iassumption
  iexact HO

/-- @main's ten items in order: a host segment per stretch from its boundary's contents, a region per custom call. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .host (hseg hostOps2 hostOps2_sub hostOps2_fresh (W6 m)),
    .host (hseg hostOps2_1 hostOps2_1_sub hostOps2_1_fresh (W7 m)),
    .host (hseg hostOps2_2 hostOps2_2_sub hostOps2_2_fresh (W8 m)),
    .host (hseg hostOps2_3 hostOps2_3_sub hostOps2_3_fresh (W9 m)) ]

/-- @main is the run of the segments: it is the chain of its items, and the segments' run is the chain of their
    fragments, which are those items. -/
theorem main_run (c : Dev nD) : main (F := F) c = Pipeline.Seg.run (segs m) := by
  rw [main_chain c, Pipeline.Seg.run_eq_chain]
  rfl

-- the launch theorem's implicit arguments are found by unifying its conclusion with this one, which takes unfolding
-- plain definitions in a metavariable's type
set_option backward.isDefEq.respectTransparency.types false in
/-- THE RUN. From any memory with zero counters, every weakly fair execution of @main on the TensorCores terminates,
    nothing faulting, and every final memory holds each unscoped buffer at the fold's last valuation: the three result
    buffers there, and each argument, which the fold leaves as launched. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v4) = W10 m c (Proc.devRef .tc main_v4)
      ∧ r.2.mem ((c.tc : Thread nD τ).loc main_v19) = W10 m c (Proc.devRef .tc main_v19)
      ∧ r.2.mem ((c.tc : Thread nD τ).loc main_v36) = W10 m c (Proc.devRef .tc main_v36)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun c => Tₙ_of m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h c =>
      ⟨h c _ (mem_uc main_v4 (by decide)),
       h c _ (mem_uc main_v19 (by decide)),
       h c _ (mem_uc main_v36 (by decide)),
       (h c _ (mem_uc main_arg0 (by decide))).trans (W10_main_arg0 m c),
       (h c _ (mem_uc main_arg1 (by decide))).trans (W10_main_arg1 m c),
       (h c _ (mem_uc main_arg2 (by decide))).trans (W10_main_arg2 m c),
       (h c _ (mem_uc main_arg3 (by decide))).trans (W10_main_arg3 m c),
       (h c _ (mem_uc main_arg4 (by decide))).trans (W10_main_arg4 m c),
       (h c _ (mem_uc main_arg5 (by decide))).trans (W10_main_arg5 m c),
       (h c _ (mem_uc main_arg6 (by decide))).trans (W10_main_arg6 m c),
       (h c _ (mem_uc main_arg7 (by decide))).trans (W10_main_arg7 m c),
       (h c _ (mem_uc main_arg8 (by decide))).trans (W10_main_arg8 m c),
       (h c _ (mem_uc main_arg9 (by decide))).trans (W10_main_arg9 m c),
       (h c _ (mem_uc main_arg10 (by decide))).trans (W10_main_arg10 m c),
       (h c _ (mem_uc main_arg11 (by decide))).trans (W10_main_arg11 m c),
       (h c _ (mem_uc main_arg12 (by decide))).trans (W10_main_arg12 m c),
       (h c _ (mem_uc main_arg13 (by decide))).trans (W10_main_arg13 m c),
       (h c _ (mem_uc main_arg14 (by decide))).trans (W10_main_arg14 m c),
       (h c _ (mem_uc main_arg15 (by decide))).trans (W10_main_arg15 m c),
       (h c _ (mem_uc main_arg16 (by decide))).trans (W10_main_arg16 m c)⟩)

end Cert.Kernel.Hand

end
-- ==== Proof.KI.Region0.lean ====
/-
  Region 0 of the kernel program (the edge perceptron, one grid point per block of 3200 edges), at a parameter
  `V`: the buffers' contents when the region is entered. A window's block at a point is read off its array; the
  body loads its eight input blocks whole, computes, and stores one value into the whole output block, so the output
  buffer after the body is that value of the input blocks (`out0_8`); with that the pipeline's proof data and the
  body's obligation at every grid point.
-/
import proofs.«409539_j52209622450458_2_alg».proof.Proof.Gen.KernelIdeal.Launch
import proofs.«409539_j52209622450458_2_alg».proof.Proof.Gen.KernelIdeal.Skeleton
import proofs.«409539_j52209622450458_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangles the body reads and writes through. -/
abbrev rA0 : Rect S3200x32 := Rect.unit (s := S3200x32) ![0, 0] S3200x32.size inb_S3200x32_S3200x32_0_0
abbrev rU0 : Rect S1x32 := Rect.unit (s := S1x32) ![0, 0] S1x32.size inb_S1x32_S1x32_0_0
abbrev rW10 : Rect S128x64 := Rect.unit (s := S128x64) ![0, 0] S128x64.size inb_S128x64_S128x64_0_0
abbrev rB0 : Rect S1x64 := Rect.unit (s := S1x64) ![0, 0] S1x64.size inb_S1x64_S1x64_0_0
abbrev rW20 : Rect S64x64 := Rect.unit (s := S64x64) ![0, 0] S64x64.size inb_S64x64_S64x64_0_0
abbrev rO0 : Rect S3200x64 := Rect.unit (s := S3200x64) ![0, 0] S3200x64.size inb_S3200x64_S3200x64_0_0

/-- The value the body stores, of the eight input blocks. -/
def val0 (x0 x1 x2 : Vec F S3200x32 .f32) (x3 : Vec F S1x32 .f32) (x4 : Vec F S128x64 .f32) (x5 : Vec F S1x64 .f32)
    (x6 : Vec F S64x64 .f32) (x7 : Vec F S1x64 .f32) : Vec F S3200x64 .f32 :=
  k0_pay1 (k0_pay2 (View.ld x0 rA0) (View.ld x1 rA0) (View.ld x2 rA0) (View.ld x3 rU0) (View.ld x4 rW10) (View.ld x5 rB0)
    (View.ld x6 rW20) (View.ld x7 rB0))

/-- Window 8's staging buffer after the body: its one store, which covers the buffer. -/
def out0_8 (x0 x1 x2 : Vec F S3200x32 .f32) (x3 : Vec F S1x32 .f32) (x4 : Vec F S128x64 .f32) (x5 : Vec F S1x64 .f32)
    (x6 : Vec F S64x64 .f32) (x7 : Vec F S1x64 .f32) : Vec F S3200x64 .f32 :=
  View.canon [⟨rO0, val0 x0 x1 x2 x3 x4 x5 x6 x7⟩]

/-- The proof data of pipeline 0 on core `c`: the arrays as the region finds them; after the body at point `t`
    each input's buffer at its block and the output's at `out0_8` of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0_8 (iblk0 V c 0 t) (iblk0 V c 1 t) (iblk0 V c 2 t) (iblk0 V c 3 t) (iblk0 V c 4 t) (iblk0 V c 5 t) (iblk0 V c 6 t) (iblk0 V c 7 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]

theorem after0_8 (c : Dev nD) (t : Fin cfg0.N) : (dat0 V c).after 8 t =
    out0_8 (iblk0 V c 0 t) (iblk0 V c 1 t) (iblk0 V c 2 t) (iblk0 V c 3 t) (iblk0 V c 4 t) (iblk0 V c 5 t) (iblk0 V c 6 t) (iblk0 V c 7 t) := by
  dsimp only [dat0]

end Cert.KernelIdeal.Hand

end
-- ==== Proof.KI.Region1.lean ====
/-
  Region 1 of the kernel program (the node perceptron, one grid point per block of 2000 nodes), at a parameter
  `V`: the buffers' contents when the region is entered. As for region 0: a window's block at a point is read off
  its array; the body loads its seven input blocks whole, computes, and stores one value into the whole output block.
-/
import proofs.«409539_j52209622450458_2_alg».proof.Proof.Gen.KernelIdeal.Launch
import proofs.«409539_j52209622450458_2_alg».proof.Proof.Gen.KernelIdeal.Skeleton
import proofs.«409539_j52209622450458_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-buffer rectangles the body reads and writes through. -/
abbrev rN1 : Rect S2000x32 := Rect.unit (s := S2000x32) ![0, 0] S2000x32.size inb_S2000x32_S2000x32_0_0
abbrev rM1 : Rect S2000x64 := Rect.unit (s := S2000x64) ![0, 0] S2000x64.size inb_S2000x64_S2000x64_0_0
abbrev rU1 : Rect S1x32 := Rect.unit (s := S1x32) ![0, 0] S1x32.size inb_S1x32_S1x32_0_0
abbrev rW11 : Rect S128x64 := Rect.unit (s := S128x64) ![0, 0] S128x64.size inb_S128x64_S128x64_0_0
abbrev rB1 : Rect S1x64 := Rect.unit (s := S1x64) ![0, 0] S1x64.size inb_S1x64_S1x64_0_0
abbrev rW21 : Rect S64x64 := Rect.unit (s := S64x64) ![0, 0] S64x64.size inb_S64x64_S64x64_0_0

/-- The value the body stores, of the seven input blocks. -/
def val1 (x0 : Vec F S2000x32 .f32) (x1 : Vec F S2000x64 .f32) (x2 : Vec F S1x32 .f32) (x3 : Vec F S128x64 .f32) (x4 : Vec F S1x64 .f32)
    (x5 : Vec F S64x64 .f32) (x6 : Vec F S1x64 .f32) : Vec F S2000x64 .f32 :=
  k1_pay1 (k1_pay2 (View.ld x0 rN1) (View.ld x1 rM1) (View.ld x2 rU1) (View.ld x3 rW11) (View.ld x4 rB1) (View.ld x5 rW21) (View.ld x6 rB1))
    (Scalar.ofBits .f32 0x00000000#32)
    (k1_pay3 (View.ld x0 rN1) (View.ld x1 rM1) (View.ld x2 rU1) (View.ld x3 rW11) (View.ld x4 rB1) (View.ld x5 rW21) (View.ld x6 rB1))
    (k1_pay4 (F := F))

/-- Window 7's staging buffer after the body: its one store, which covers the buffer. -/
def out1_7 (x0 : Vec F S2000x32 .f32) (x1 : Vec F S2000x64 .f32) (x2 : Vec F S1x32 .f32) (x3 : Vec F S128x64 .f32) (x4 : Vec F S1x64 .f32)
    (x5 : Vec F S64x64 .f32) (x6 : Vec F S1x64 .f32) : Vec F S2000x64 .f32 :=
  View.canon [⟨rM1, val1 x0 x1 x2 x3 x4 x5 x6⟩]

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]

theorem after1_7 (c : Dev nD) (t : Fin cfg1.N) : (dat1 V c).after 7 t =
    out1_7 (iblk1 V c 0 t) (iblk1 V c 1 t) (iblk1 V c 2 t) (iblk1 V c 3 t) (iblk1 V c 4 t) (iblk1 V c 5 t) (iblk1 V c 6 t) := by
  dsimp only [dat1]

end Cert.KernelIdeal.Hand

end
-- ==== Proof.KI.Fold.lean ====
/-
  The buffers' contents at every boundary between two items of the kernel program's @main, as a fold from the launch
  memory: a stretch of host operations applies them; a kernel region leaves each of its arrays at what the pipeline's
  write-backs fold to (its inputs as entered, its output at the blocks the grid points wrote) and every other buffer
  as entered.
-/
import proofs.«409539_j52209622450458_2_alg».proof.Proof.KI.Region0
import proofs.«409539_j52209622450458_2_alg».proof.Proof.KI.Region1
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ)

/-- Core `c`'s buffers at launch. -/
abbrev W0 : Dev nD → Valuation τ sig (Elt F) := fun c b => m ((c : Dev nD), b)
/-- After the gather of the source rows. -/
abbrev W1 : Dev nD → Valuation τ sig (Elt F) := fun c => StableHlo.after hostOps0 (W0 m c)
/-- After the gather of the destination rows. -/
abbrev W2 : Dev nD → Valuation τ sig (Elt F) := fun c => StableHlo.after hostOps0_1 (W1 m c)
/-- After the two bias reshapes: region 0's entry. -/
abbrev W3 : Dev nD → Valuation τ sig (Elt F) := fun c => StableHlo.after hostOps0_2 (W2 m c)
/-- The same read at the TensorCore's references (what region 0's proof data take). -/
abbrev E3 : (c : Dev nD) → (b : Ref sig .tc) → Buf (Elt F) ((c : Thread nD τ).loc b) := fun c b => W3 m c b
/-- At region 0's exit. -/
def W4 (c : Dev nD) : Valuation τ sig (Elt F) :=
  Pipeline.withArrays spec0 c (W3 m c) fun w => (dat0 (E3 m) c).arrAt w cfg0.N
theorem W4_arr (c : Dev nD) (w : Fin cfg0.W) :
    W4 m c (Proc.devRef .tc (Pipeline.arrRef spec0 w)) = (dat0 (E3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
/-- After the segment mean and the two bias reshapes: region 1's entry. -/
abbrev W5 : Dev nD → Valuation τ sig (Elt F) := fun c => StableHlo.after hostOps1 (W4 m c)
abbrev E5 : (c : Dev nD) → (b : Ref sig .tc) → Buf (Elt F) ((c : Thread nD τ).loc b) := fun c b => W5 m c b
/-- At region 1's exit. -/
def W6 (c : Dev nD) : Valuation τ sig (Elt F) :=
  Pipeline.withArrays spec1 c (W5 m c) fun w => (dat1 (E5 m) c).arrAt w cfg1.N
theorem W6_arr (c : Dev nD) (w : Fin cfg1.W) :
    W6 m c (Proc.devRef .tc (Pipeline.arrRef spec1 w)) = (dat1 (E5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
/-- The readout: the two column means and the concatenation, the first layer's softplus, the second layer, its softplus. -/
abbrev W7 : Dev nD → Valuation τ sig (Elt F) := fun c => StableHlo.after hostOps2 (W6 m c)
abbrev W8 : Dev nD → Valuation τ sig (Elt F) := fun c => StableHlo.after hostOps2_1 (W7 m c)
abbrev W9 : Dev nD → Valuation τ sig (Elt F) := fun c => StableHlo.after hostOps2_2 (W8 m c)
abbrev W10 : Dev nD → Valuation τ sig (Elt F) := fun c => StableHlo.after hostOps2_3 (W9 m c)

end Cert.KernelIdeal.Hand

end
-- ==== Proof.KI.Body0.lean ====
/-
  Region 0 of the kernel program, the body's obligation: on whole staging memrefs holding the eight input blocks the
  kernel function loads them, computes, and stores one value over the whole output buffer; so at every grid point the
  body runs without fault, leaves each input buffer as it was and the output buffer at `out0_8` of the input blocks.
-/
import proofs.«409539_j52209622450458_2_alg».proof.Proof.KI.Region0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The inputs' buffers before the body -/

/-- Each input's current staging buffer holds its block at every point, fetched there or not: unfetched, the block
    index has not moved; the windows are uncut and never idle, and the body leaves each block in place. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl)
    (fun t => by rw [after0_5]; unfold Dat.blockOf iblk0; rw [A_eq0]; try rfl) t d).trans
    (by unfold Dat.fetched Dat.blockOf iblk0; rw [A_eq0]; try rfl)
theorem before0_6 (c : Dev nD) (t : Fin cfg0.N) (d) : (dat0 V c).before 6 t d = iblk0 V c 6 t :=
  ((dat0 V c).before_in_eq_fetched 6 rfl (fun _ => rfl) (fun _ _ _ => rfl)
    (fun t => by rw [after0_6]; unfold Dat.blockOf iblk0; rw [A_eq0]; try rfl) t d).trans
    (by unfold Dat.fetched Dat.blockOf iblk0; rw [A_eq0]; try rfl)
theorem before0_7 (c : Dev nD) (t : Fin cfg0.N) (d) : (dat0 V c).before 7 t d = iblk0 V c 7 t :=
  ((dat0 V c).before_in_eq_fetched 7 rfl (fun _ => rfl) (fun _ _ _ => rfl)
    (fun t => by rw [after0_7]; unfold Dat.blockOf iblk0; rw [A_eq0]; try rfl) t d).trans
    (by unfold Dat.fetched Dat.blockOf iblk0; rw [A_eq0]; try rfl)

/-! ## The body's triple -/

/-- The one store covers the output buffer. -/
theorem cover0_8 (p0 : Vec F S3200x64 .f32) (y : S3200x64.Idx) :
    ∃ pc ∈ ([⟨rO0, p0⟩] : List (View.Piece (Elt F) S3200x64 .f32)), y ∈ pc.1.set :=
  View.cover_of_tiled [⟨rO0, p0⟩] S3200x64.size (by rfl) y

set_option maxHeartbeats 1000000 in
/-- The kernel function on whole staging memrefs, the inputs' at contents `x0 … x7` and the output's at anything, runs to
    the continuation holding the inputs' as they were and the output's at `out0_8` of the inputs'. -/
theorem sound_kernel0 (c : Dev nD) (E : Set ℕ) (i : grid0.Coords) (arg1 : Memref sig .tc .vmem S3200x32 .f32) (harg1 : arg1.IsWhole) (arg2 : Memref sig .tc .vmem S3200x32 .f32) (harg2 : arg2.IsWhole) (arg3 : Memref sig .tc .vmem S3200x32 .f32) (harg3 : arg3.IsWhole) (arg4 : Memref sig .tc .vmem S1x32 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S3200x64 .f32) (harg9 : arg9.IsWhole)
    (x0 x1 x2 : Vec F S3200x32 .f32) (x3 : Vec F S1x32 .f32) (x4 : Vec F S128x64 .f32) (x5 : Vec F S1x64 .f32) (x6 : Vec F S64x64 .f32) (x7 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (out0_8 x0 x1 x2 x3 x4 x5 x6 x7)) -∗ K ⟨⟩))
      ⊢ wp frame (wpE (defs₀ (F := F)) Variants.none c none) E (cc0__edge_mlp_kernel i arg1 harg1 arg2 harg2 arg3 harg3 arg4 harg4 arg5 harg5 arg6 harg6 arg7 harg7 arg8 harg8 arg9 harg9) K := by
  simp only [cc0__edge_mlp_kernel_eq_skeleton]; unfold cc0__edge_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover0_8 _)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

/-- The body at any point: the inputs' memrefs hold their blocks, so the kernel's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Body1.lean ====
/-
  Region 1 of the kernel program, the body at a grid point: from staging buffers holding each input window's block the
  body loads the seven blocks whole, computes, and stores one value over the whole output buffer; the inputs' buffers
  are left as found and the output's holds `out1_7` of the input blocks. This is the library's body obligation for
  the proof data `dat1`, at every point and at any float family.
-/
import proofs.«409539_j52209622450458_2_alg».proof.Proof.KI.Region1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Each input's staging buffer holds its block at every point

An input window is uncut and never idle, and the body leaves its block in place; so its current buffer holds the
block at the point whether it was fetched there or not (unfetched, the block index has not moved). -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)

theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)

/-! ## The one store covers the output buffer -/

/-- The body's one store is over the whole output rectangle, so it covers the buffer. -/
theorem cover1_7 (p0 : Vec F S2000x64 .f32) (y : S2000x64.Idx) :
    ∃ pc ∈ ([⟨rM1, p0⟩] : List (View.Piece (Elt F) S2000x64 .f32)), y ∈ pc.1.set :=
  View.cover_of_tiled [⟨rM1, p0⟩] S2000x64.size (by rfl) y

/-! ## The body's triple over whole memrefs -/

set_option maxHeartbeats 1000000 in
/-- The kernel body on whole staging memrefs, the inputs' at contents `x0 … x6` and the output's at anything, runs
    without fault to the continuation holding the inputs' as they were and the output's at `out1_7` of the inputs. -/
theorem sound_kernel1 (c : Dev nD) (E : Set ℕ) (i : grid1.Coords)
    (arg1 : Memref sig .tc .vmem S2000x32 .f32) (harg1 : arg1.IsWhole)
    (arg2 : Memref sig .tc .vmem S2000x64 .f32) (harg2 : arg2.IsWhole)
    (arg3 : Memref sig .tc .vmem S1x32 .f32) (harg3 : arg3.IsWhole)
    (arg4 : Memref sig .tc .vmem S128x64 .f32) (harg4 : arg4.IsWhole)
    (arg5 : Memref sig .tc .vmem S1x64 .f32) (harg5 : arg5.IsWhole)
    (arg6 : Memref sig .tc .vmem S64x64 .f32) (harg6 : arg6.IsWhole)
    (arg7 : Memref sig .tc .vmem S1x64 .f32) (harg7 : arg7.IsWhole)
    (arg8 : Memref sig .tc .vmem S2000x64 .f32) (harg8 : arg8.IsWhole)
    (x0 : Vec F S2000x32 .f32) (x1 : Vec F S2000x64 .f32) (x2 : Vec F S1x32 .f32) (x3 : Vec F S128x64 .f32) (x4 : Vec F S1x64 .f32) (x5 : Vec F S64x64 .f32) (x6 : Vec F S1x64 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out1_7 x0 x1 x2 x3 x4 x5 x6)) -∗ K ⟨⟩))
      ⊢ wp frame (wpE (defs₀ (F := F)) Variants.none c none) E (cc1__node_mlp_kernel i arg1 harg1 arg2 harg2 arg3 harg3 arg4 harg4 arg5 harg5 arg6 harg6 arg7 harg7 arg8 harg8) K := by
  simp only [cc1__node_mlp_kernel_eq_skeleton]; unfold cc1__node_mlp_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The body obligation, at a generic point -/

/-- What the body is called with at point `t`: the invariant, what the core owes, and the eight windows' current
    staging buffers at what the pipeline left in them. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- What it returns: the same invariant and debt, and each window's buffer at what the body leaves in it. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' buffers hold their blocks, so the triple over whole memrefs applies; the
    invariant and the core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/-
  The run of the kernel program's @main. Its ten items are the launch kit's segments: a stretch of host operations is
  entered from its boundary's contents and left at what the operations make of them; a kernel region is entered from
  every unscoped buffer at the boundary's contents, splits its windows' arrays out of them, runs the pipeline over the
  region's proof data and puts the arrays back at what the write-backs fold to. The thread state between two items is
  "every unscoped buffer at the fold's valuation there, the generator register at some state, nothing owed". So every
  weakly fair execution terminates, nothing faulting, with every unscoped buffer at the fold's last valuation; this is
  read at the three result buffers and at the seventeen arguments, which no item writes.
-/
import proofs.«409539_j52209622450458_2_alg».proof.Proof.KI.Fold
import proofs.«409539_j52209622450458_2_alg».proof.Proof.KI.Body0
import proofs.«409539_j52209622450458_2_alg».proof.Proof.KI.Body1
import proofs.«409539_j52209622450458_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Pipeline.Frame
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The regions' exit contents, at the TensorCore's references -/

/-- Region 0's exit contents read at the TensorCore's references. -/
abbrev E4 : (c : Dev nD) → (b : Ref sig .tc) → Buf (Elt F) ((c : Thread nD τ).loc b) := fun c b => W4 m c b
/-- Region 1's exit contents read at the TensorCore's references. -/
abbrev E6 : (c : Dev nD) → (b : Ref sig .tc) → Buf (Elt F) ((c : Thread nD τ).loc b) := fun c b => W6 m c b

/-- At region 0's exit each of its arrays holds what the pipeline leaves, every other buffer what it held at entry. -/
theorem hF0 (c : Dev nD) (w : Fin cfg0.W) : (dat0 (E3 m) c).arrAt w cfg0.N = E4 m c (Pipeline.arrRef spec0 w) :=
  (W4_arr m c w).symm
theorem hrest0 (c : Dev nD) : ∀ b, b ∉ Finset.univ.image (Pipeline.arrRef spec0) → E4 m c b = E3 m c b :=
  fun b hb => W4_of_ne m c b fun w e => hb (Finset.mem_image.mpr ⟨w, Finset.mem_univ _, e⟩)
/-- The same at region 1's exit. -/
theorem hF1 (c : Dev nD) (w : Fin cfg1.W) : (dat1 (E5 m) c).arrAt w cfg1.N = E6 m c (Pipeline.arrRef spec1 w) :=
  (W6_arr m c w).symm
theorem hrest1 (c : Dev nD) : ∀ b, b ∉ Finset.univ.image (Pipeline.arrRef spec1) → E6 m c b = E5 m c b :=
  fun b hb => W6_of_ne m c b fun w e => hb (Finset.mem_image.mpr ⟨w, Finset.mem_univ _, e⟩)

/-! ## The arguments end as launched

No host operation writes an argument (it is in no stretch's list of written references) and no region does: an
argument that is a window's array is an input window's, whose array the pipeline leaves as entered; any other
argument is no array of the region. So the fold at an argument's buffer walks back to the launch memory. -/

/-- A buffer that no stretch writes and that both regions leave as entered holds its launch contents at the end. -/
theorem W10_of (c : Dev nD) (r : Ref sig .tc)
    (h0 : r ∉ hostOps0_W) (h1 : r ∉ hostOps0_1_W) (h2 : r ∉ hostOps0_2_W)
    (h3 : W4 m c (Proc.devRef .tc r) = W3 m c (Proc.devRef .tc r)) (h4 : r ∉ hostOps1_W)
    (h5 : W6 m c (Proc.devRef .tc r) = W5 m c (Proc.devRef .tc r)) (h6 : r ∉ hostOps2_W) (h7 : r ∉ hostOps2_1_W)
    (h8 : r ∉ hostOps2_2_W) (h9 : r ∉ hostOps2_3_W) :
    W10 m c (Proc.devRef .tc r) = m ((c : Thread nD τ).loc r) :=
  calc W10 m c (Proc.devRef .tc r)
    _ = W9 m c (Proc.devRef .tc r) := StableHlo.after_of_writes_sub hostOps2_3 _ hostOps2_3_writes h9
    _ = W8 m c (Proc.devRef .tc r) := StableHlo.after_of_writes_sub hostOps2_2 _ hostOps2_2_writes h8
    _ = W7 m c (Proc.devRef .tc r) := StableHlo.after_of_writes_sub hostOps2_1 _ hostOps2_1_writes h7
    _ = W6 m c (Proc.devRef .tc r) := StableHlo.after_of_writes_sub hostOps2 _ hostOps2_writes h6
    _ = W5 m c (Proc.devRef .tc r) := h5
    _ = W4 m c (Proc.devRef .tc r) := StableHlo.after_of_writes_sub hostOps1 _ hostOps1_writes h4
    _ = W3 m c (Proc.devRef .tc r) := h3
    _ = W2 m c (Proc.devRef .tc r) := StableHlo.after_of_writes_sub hostOps0_2 _ hostOps0_2_writes h2
    _ = W1 m c (Proc.devRef .tc r) := StableHlo.after_of_writes_sub hostOps0_1 _ hostOps0_1_writes h1
    _ = W0 m c (Proc.devRef .tc r) := StableHlo.after_of_writes_sub hostOps0 _ hostOps0_writes h0
    _ = m ((c : Thread nD τ).loc r) := rfl

/-- An input window's array leaves region 0 as it entered. -/
theorem W4_in (c : Dev nD) (w : Fin cfg0.W) (hin : (cfg0.win w).isOut = false) :
    W4 m c (Proc.devRef .tc (Pipeline.arrRef spec0 w)) = W3 m c (Proc.devRef .tc (Pipeline.arrRef spec0 w)) :=
  (W4_arr m c w).trans (((dat0 (E3 m) c).arrAt_in w hin _).trans (A_eq0 (E3 m) c w))
/-- An input window's array leaves region 1 as it entered. -/
theorem W6_in (c : Dev nD) (w : Fin cfg1.W) (hin : (cfg1.win w).isOut = false) :
    W6 m c (Proc.devRef .tc (Pipeline.arrRef spec1 w)) = W5 m c (Proc.devRef .tc (Pipeline.arrRef spec1 w)) :=
  (W6_arr m c w).trans (((dat1 (E5 m) c).arrAt_in w hin _).trans (A_eq1 (E5 m) c w))

theorem W10_main_arg0 (c : Dev nD) : W10 m c (Proc.devRef .tc main_arg0) = m ((c : Thread nD τ).loc main_arg0) :=
  W10_of m c main_arg0 (by decide) (by decide) (by decide) (W4_in m c 2 rfl) (by decide)
    (W6_of_ne m c main_arg0 (by decide)) (by decide) (by decide) (by decide) (by decide)
theorem W10_main_arg1 (c : Dev nD) : W10 m c (Proc.devRef .tc main_arg1) = m ((c : Thread nD τ).loc main_arg1) :=
  W10_of m c main_arg1 (by decide) (by decide) (by decide) (W4_of_ne m c main_arg1 (by decide)) (by decide)
    (W6_in m c 0 rfl) (by decide) (by decide) (by decide) (by decide)
theorem W10_main_arg2 (c : Dev nD) : W10 m c (Proc.devRef .tc main_arg2) = m ((c : Thread nD τ).loc main_arg2) :=
  W10_of m c main_arg2 (by decide) (by decide) (by decide) (W4_in m c 3 rfl) (by decide)
    (W6_in m c 2 rfl) (by decide) (by decide) (by decide) (by decide)
theorem W10_main_arg3 (c : Dev nD) : W10 m c (Proc.devRef .tc main_arg3) = m ((c : Thread nD τ).loc main_arg3) :=
  W10_of m c main_arg3 (by decide) (by decide) (by decide) (W4_of_ne m c main_arg3 (by decide)) (by decide)
    (W6_of_ne m c main_arg3 (by decide)) (by decide) (by decide) (by decide) (by decide)
theorem W10_main_arg4 (c : Dev nD) : W10 m c (Proc.devRef .tc main_arg4) = m ((c : Thread nD τ).loc main_arg4) :=
  W10_of m c main_arg4 (by decide) (by decide) (by decide) (W4_of_ne m c main_arg4 (by decide)) (by decide)
    (W6_of_ne m c main_arg4 (by decide)) (by decide) (by decide) (by decide) (by decide)
theorem W10_main_arg5 (c : Dev nD) : W10 m c (Proc.devRef .tc main_arg5) = m ((c : Thread nD τ).loc main_arg5) :=
  W10_of m c main_arg5 (by decide) (by decide) (by decide) (W4_in m c 4 rfl) (by decide)
    (W6_of_ne m c main_arg5 (by decide)) (by decide) (by decide) (by decide) (by decide)
theorem W10_main_arg6 (c : Dev nD) : W10 m c (Proc.devRef .tc main_arg6) = m ((c : Thread nD τ).loc main_arg6) :=
  W10_of m c main_arg6 (by decide) (by decide) (by decide) (W4_of_ne m c main_arg6 (by decide)) (by decide)
    (W6_of_ne m c main_arg6 (by decide)) (by decide) (by decide) (by decide) (by decide)
theorem W10_main_arg7 (c : Dev nD) : W10 m c (Proc.devRef .tc main_arg7) = m ((c : Thread nD τ).loc main_arg7) :=
  W10_of m c main_arg7 (by decide) (by decide) (by decide) (W4_in m c 6 rfl) (by decide)
    (W6_of_ne m c main_arg7 (by decide)) (by decide) (by decide) (by decide) (by decide)
theorem W10_main_arg8 (c : Dev nD) : W10 m c (Proc.devRef .tc main_arg8) = m ((c : Thread nD τ).loc main_arg8) :=
  W10_of m c main_arg8 (by decide) (by decide) (by decide) (W4_of_ne m c main_arg8 (by decide)) (by decide)
    (W6_of_ne m c main_arg8 (by decide)) (by decide) (by decide) (by decide) (by decide)
theorem W10_main_arg9 (c : Dev nD) : W10 m c (Proc.devRef .tc main_arg9) = m ((c : Thread nD τ).loc main_arg9) :=
  W10_of m c main_arg9 (by decide) (by decide) (by decide) (W4_of_ne m c main_arg9 (by decide)) (by decide)
    (W6_in m c 3 rfl) (by decide) (by decide) (by decide) (by decide)
theorem W10_main_arg10 (c : Dev nD) : W10 m c (Proc.devRef .tc main_arg10) = m ((c : Thread nD τ).loc main_arg10) :=
  W10_of m c main_arg10 (by decide) (by decide) (by decide) (W4_of_ne m c main_arg10 (by decide)) (by decide)
    (W6_of_ne m c main_arg10 (by decide)) (by decide) (by decide) (by decide) (by decide)
theorem W10_main_arg11 (c : Dev nD) : W10 m c (Proc.devRef .tc main_arg11) = m ((c : Thread nD τ).loc main_arg11) :=
  W10_of m c main_arg11 (by decide) (by decide) (by decide) (W4_of_ne m c main_arg11 (by decide)) (by decide)
    (W6_in m c 5 rfl) (by decide) (by decide) (by decide) (by decide)
theorem W10_main_arg12 (c : Dev nD) : W10 m c (Proc.devRef .tc main_arg12) = m ((c : Thread nD τ).loc main_arg12) :=
  W10_of m c main_arg12 (by decide) (by decide) (by decide) (W4_of_ne m c main_arg12 (by decide)) (by decide)
    (W6_of_ne m c main_arg12 (by decide)) (by decide) (by decide) (by decide) (by decide)
theorem W10_main_arg13 (c : Dev nD) : W10 m c (Proc.devRef .tc main_arg13) = m ((c : Thread nD τ).loc main_arg13) :=
  W10_of m c main_arg13 (by decide) (by decide) (by decide) (W4_of_ne m c main_arg13 (by decide)) (by decide)
    (W6_of_ne m c main_arg13 (by decide)) (by decide) (by decide) (by decide) (by decide)
theorem W10_main_arg14 (c : Dev nD) : W10 m c (Proc.devRef .tc main_arg14) = m ((c : Thread nD τ).loc main_arg14) :=
  W10_of m c main_arg14 (by decide) (by decide) (by decide) (W4_of_ne m c main_arg14 (by decide)) (by decide)
    (W6_of_ne m c main_arg14 (by decide)) (by decide) (by decide) (by decide) (by decide)
theorem W10_main_arg15 (c : Dev nD) : W10 m c (Proc.devRef .tc main_arg15) = m ((c : Thread nD τ).loc main_arg15) :=
  W10_of m c main_arg15 (by decide) (by decide) (by decide) (W4_of_ne m c main_arg15 (by decide)) (by decide)
    (W6_of_ne m c main_arg15 (by decide)) (by decide) (by decide) (by decide) (by decide)
theorem W10_main_arg16 (c : Dev nD) : W10 m c (Proc.devRef .tc main_arg16) = m ((c : Thread nD τ).loc main_arg16) :=
  W10_of m c main_arg16 (by decide) (by decide) (by decide) (W4_of_ne m c main_arg16 (by decide)) (by decide)
    (W6_of_ne m c main_arg16 (by decide)) (by decide) (by decide) (by decide) (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E3 m) c
  | ⟨1, _⟩ => fun c => dat1 (E5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at
    nothing. -/
abbrev R (c : Dev nD) : sProp 𝕄 := iprop((∃ r, prngReg c r) ∗ ∃ W, owes (c : Thread nD τ) (0 : CellTallies nD τ sig Unit) W)
/-- A stretch of host operations as a segment: over the unscoped references from the contents `W`, `R` riding along;
    it is left with those references at the operations' result on `W c`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the fold's last valuation, the generator register
    at some state. -/
abbrev Tₙ (c : Dev nD) : sProp 𝕄 := iprop(StableHlo.held (c : Thread nD τ) (Pipeline.ucRefs τ sig) (W10 m c) ∗ ∃ r, prngReg c r)

/-! ## The regions as segments -/

-- a library lemma stated over the pinned configuration unifies with the printed one only when unification may
-- unfold plain definitions in a metavariable's type
set_option backward.isDefEq.respectTransparency.types false in
/-- Region 0 over the thread state: entered from every unscoped buffer at the fold's valuation before it, left at
    the one after it. Its windows' arrays are split out of the unscoped buffers and put back at what the write-backs
    fold to; the generator register goes into the pipeline's invariant and comes back; nothing is owed; the kernel has
    no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (E3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E3 m c) (E4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 1 over the thread state: entered from every unscoped buffer at the fold's valuation before it, left at
    the one after it. Its windows' arrays are split out of the unscoped buffers and put back at what the write-backs
    fold to; the generator register goes into the pipeline's invariant and comes back; nothing is owed; the kernel has
    no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (E5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E5 m c) (E6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- The last stretch leaves the last thread state beside the core owing nothing. -/
theorem Tₙ_of (c : Dev nD) : iprop(StableHlo.held (c : Thread nD τ) (Pipeline.ucRefs τ sig) (W10 m c) ∗ R c)
    ⊢ (iprop(Tₙ m c ∗ ∃ W, owes (c : Thread nD τ) (0 : CellTallies nD τ sig Unit) W) : sProp 𝕄) := by
  iintro ⟨Hh, Hr, HO⟩
  isplitl [Hh Hr]
  · isplitl [Hh] <;> iassumption
  iexact HO

/-- @main's ten items in order: a host segment per stretch from its boundary's contents, a region per custom call. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .host (hseg hostOps2 hostOps2_sub hostOps2_fresh (W6 m)),
    .host (hseg hostOps2_1 hostOps2_1_sub hostOps2_1_fresh (W7 m)),
    .host (hseg hostOps2_2 hostOps2_2_sub hostOps2_2_fresh (W8 m)),
    .host (hseg hostOps2_3 hostOps2_3_sub hostOps2_3_fresh (W9 m)) ]

/-- @main is the run of the segments: it is the chain of its items, and the segments' run is the chain of their
    fragments, which are those items. -/
theorem main_run (c : Dev nD) : main (F := F) c = Pipeline.Seg.run (segs m) := by
  rw [main_chain c, Pipeline.Seg.run_eq_chain]
  rfl

-- the launch theorem's implicit arguments are found by unifying its conclusion with this one, which takes unfolding
-- plain definitions in a metavariable's type
set_option backward.isDefEq.respectTransparency.types false in
/-- THE RUN. From any memory with zero counters, every weakly fair execution of @main on the TensorCores terminates,
    nothing faulting, and every final memory holds each unscoped buffer at the fold's last valuation: the three result
    buffers there, and each argument, which the fold leaves as launched. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v4) = W10 m c (Proc.devRef .tc main_v4)
      ∧ r.2.mem ((c.tc : Thread nD τ).loc main_v19) = W10 m c (Proc.devRef .tc main_v19)
      ∧ r.2.mem ((c.tc : Thread nD τ).loc main_v36) = W10 m c (Proc.devRef .tc main_v36)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun c => Tₙ_of m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h c =>
      ⟨h c _ (mem_uc main_v4 (by decide)),
       h c _ (mem_uc main_v19 (by decide)),
       h c _ (mem_uc main_v36 (by decide)),
       (h c _ (mem_uc main_arg0 (by decide))).trans (W10_main_arg0 m c),
       (h c _ (mem_uc main_arg1 (by decide))).trans (W10_main_arg1 m c),
       (h c _ (mem_uc main_arg2 (by decide))).trans (W10_main_arg2 m c),
       (h c _ (mem_uc main_arg3 (by decide))).trans (W10_main_arg3 m c),
       (h c _ (mem_uc main_arg4 (by decide))).trans (W10_main_arg4 m c),
       (h c _ (mem_uc main_arg5 (by decide))).trans (W10_main_arg5 m c),
       (h c _ (mem_uc main_arg6 (by decide))).trans (W10_main_arg6 m c),
       (h c _ (mem_uc main_arg7 (by decide))).trans (W10_main_arg7 m c),
       (h c _ (mem_uc main_arg8 (by decide))).trans (W10_main_arg8 m c),
       (h c _ (mem_uc main_arg9 (by decide))).trans (W10_main_arg9 m c),
       (h c _ (mem_uc main_arg10 (by decide))).trans (W10_main_arg10 m c),
       (h c _ (mem_uc main_arg11 (by decide))).trans (W10_main_arg11 m c),
       (h c _ (mem_uc main_arg12 (by decide))).trans (W10_main_arg12 m c),
       (h c _ (mem_uc main_arg13 (by decide))).trans (W10_main_arg13 m c),
       (h c _ (mem_uc main_arg14 (by decide))).trans (W10_main_arg14 m c),
       (h c _ (mem_uc main_arg15 (by decide))).trans (W10_main_arg15 m c),
       (h c _ (mem_uc main_arg16 (by decide))).trans (W10_main_arg16 m c)⟩)

end Cert.KernelIdeal.Hand

end
-- ==== Proof.RI.Writes.lean ====
/-
  Telling the buffers a piece of a straight line writes from the ones it leaves alone. Which reference is which is
  decidable; which device buffer is which is not until the topology is fixed. So the buffers a piece writes are listed
  as references, and an operation is placed inside the list one operation at a time: an operation whose written set is
  the single buffer of a reference found in the list writes inside the list.
-/
import Idealize.ShloMosaic.Lib.StableHlo.Run

namespace Cert.ReferenceIdeal.RunP

open Idealize.ShloMosaic Idealize.ShloMosaic.StableHlo

variable {τ : Topo} {sig : RefSig} {Val : EltTy → Type}

/-- An operation that writes the one buffer of a reference found in a list writes inside that list. -/
theorem writes_sub_of_mem {W : List (Ref sig .tc)} {op : HloOp τ sig Val} {y : Ref sig .tc}
    (hw : op.writes = {Proc.devRef .tc y}) (hy : y ∈ W) :
    op.writes ⊆ (W.map (Proc.devRef (τ := τ) .tc)).toFinset := by
  rw [hw, Finset.singleton_subset_iff, List.mem_toFinset]
  exact List.mem_map_of_mem hy

end Cert.ReferenceIdeal.RunP
-- ==== Proof.RI.Frames.lean ====
/- A table over the pieces `ops1` … `ops17` of RI/Ops.lean. Each operation writes one buffer; `wl<k>` lists, in order, the buffers piece k's
   operations write; `ops<k>_writes`: every operation of the piece writes inside that list (RI/Writes.lean, one entry per operation);
   `frame<k>`: after the piece, from any contents, a buffer outside the list holds what it held. -/
import proofs.«409539_j52209622450458_2_alg».proof.Proof.RI.Ops
import proofs.«409539_j52209622450458_2_alg».proof.Proof.RI.Writes
import Idealize.ShloMosaic.Lib.StableHlo.Run

noncomputable section

namespace Cert.ReferenceIdeal.RunP

open Cert.ReferenceIdeal Cert.ReferenceIdeal.Gen Idealize.ShloMosaic Idealize.ShloMosaic.TcCoe Idealize.SL.Sem Idealize.ShloMosaic.StableHlo

variable {F : FTy → Type} [FloatOps F]

/-- The buffers piece 1's operations write, in order. -/
abbrev wl1 : List (Ref sig .tc) := [main_v0, main_c, main_v1, main_v2, main_c_0, main_v3, main_v4, main_v5, main_v6, main_v7]
theorem ops1_writes : (ops1 (F := F)).Forall fun op => op.writes ⊆ (wl1.map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩
theorem frame1 (W : Valuation τ sig (Elt F)) {r : Ref sig .tc} (hr : r ∉ wl1) :
    after ops1 W (Proc.devRef .tc r) = W (Proc.devRef .tc r) := after_of_writes_sub ops1 W ops1_writes hr

/-- The buffers piece 2's operations write, in order. -/
abbrev wl2 : List (Ref sig .tc) := [main_c_1, main_v8, main_v9, main_c_2, main_v10, main_v11, main_v12, main_v13, main_v14, main_v15]
theorem ops2_writes : (ops2 (F := F)).Forall fun op => op.writes ⊆ (wl2.map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩
theorem frame2 (W : Valuation τ sig (Elt F)) {r : Ref sig .tc} (hr : r ∉ wl2) :
    after ops2 W (Proc.devRef .tc r) = W (Proc.devRef .tc r) := after_of_writes_sub ops2 W ops2_writes hr

/-- The buffers piece 3's operations write, in order. -/
abbrev wl3 : List (Ref sig .tc) := [main_v16, main_v17, main_v18, main_v19, main_v20]
theorem ops3_writes : (ops3 (F := F)).Forall fun op => op.writes ⊆ (wl3.map (Proc.devRef (τ := τ) .tc)).toFinset :=
  ⟨writes_sub_of_mem rfl (by decide), writes_sub_of_mem rfl (by decide), writes_sub_of_mem rfl (by decide), writes_sub_of_mem rfl (by decide), writes_sub_of_mem rfl (by decide)⟩
theorem frame3 (W : Valuation τ sig (Elt F)) {r : Ref sig .tc} (hr : r ∉ wl3) :
    after ops3 W (Proc.devRef .tc r) = W (Proc.devRef .tc r) := after_of_writes_sub ops3 W ops3_writes hr

/-- The buffers piece 4's operations write, in order. -/
abbrev wl4 : List (Ref sig .tc) := [main_call0_cst, main_call0_v0, main_call0_v1, main_call0_v2, main_call0_v3, main_call0_v4, main_call0_v5, main_call0_v6, main_call0_v7, main_call0_v8, main_call0_v9, main_call0_v10, main_call0_v11, main_v21]
theorem ops4_writes : (ops4 (F := F)).Forall fun op => op.writes ⊆ (wl4.map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩
theorem frame4 (W : Valuation τ sig (Elt F)) {r : Ref sig .tc} (hr : r ∉ wl4) :
    after ops4 W (Proc.devRef .tc r) = W (Proc.devRef .tc r) := after_of_writes_sub ops4 W ops4_writes hr

/-- The buffers piece 5's operations write, in order. -/
abbrev wl5 : List (Ref sig .tc) := [main_v22, main_v23, main_v24, main_v25]
theorem ops5_writes : (ops5 (F := F)).Forall fun op => op.writes ⊆ (wl5.map (Proc.devRef (τ := τ) .tc)).toFinset :=
  ⟨writes_sub_of_mem rfl (by decide), writes_sub_of_mem rfl (by decide), writes_sub_of_mem rfl (by decide), writes_sub_of_mem rfl (by decide)⟩
theorem frame5 (W : Valuation τ sig (Elt F)) {r : Ref sig .tc} (hr : r ∉ wl5) :
    after ops5 W (Proc.devRef .tc r) = W (Proc.devRef .tc r) := after_of_writes_sub ops5 W ops5_writes hr

/-- The buffers piece 6's operations write, in order. -/
abbrev wl6 : List (Ref sig .tc) := [main_call1_cst, main_call1_v0, main_call1_v1, main_call1_v2, main_call1_v3, main_call1_v4, main_call1_v5, main_call1_v6, main_call1_v7, main_call1_v8, main_call1_v9, main_call1_v10, main_call1_v11, main_v26]
theorem ops6_writes : (ops6 (F := F)).Forall fun op => op.writes ⊆ (wl6.map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩
theorem frame6 (W : Valuation τ sig (Elt F)) {r : Ref sig .tc} (hr : r ∉ wl6) :
    after ops6 W (Proc.devRef .tc r) = W (Proc.devRef .tc r) := after_of_writes_sub ops6 W ops6_writes hr

/-- The buffers piece 7's operations write, in order. -/
abbrev wl7 : List (Ref sig .tc) := [main_cst, main_v27, main_v28, main_v29, main_cst_3, main_v30, main_cst_4, main_v31, main_v32, main_v33]
theorem ops7_writes : (ops7 (F := F)).Forall fun op => op.writes ⊆ (wl7.map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩
theorem frame7 (W : Valuation τ sig (Elt F)) {r : Ref sig .tc} (hr : r ∉ wl7) :
    after ops7 W (Proc.devRef .tc r) = W (Proc.devRef .tc r) := after_of_writes_sub ops7 W ops7_writes hr

/-- The buffers piece 8's operations write, in order. -/
abbrev wl8 : List (Ref sig .tc) := [main_cst_5, main_v34, main_v35, main_v36, main_v37, main_v38, main_v39]
theorem ops8_writes : (ops8 (F := F)).Forall fun op => op.writes ⊆ (wl8.map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩
theorem frame8 (W : Valuation τ sig (Elt F)) {r : Ref sig .tc} (hr : r ∉ wl8) :
    after ops8 W (Proc.devRef .tc r) = W (Proc.devRef .tc r) := after_of_writes_sub ops8 W ops8_writes hr

/-- The buffers piece 9's operations write, in order. -/
abbrev wl9 : List (Ref sig .tc) := [main_v40, main_v41, main_v42, main_v43, main_v44]
theorem ops9_writes : (ops9 (F := F)).Forall fun op => op.writes ⊆ (wl9.map (Proc.devRef (τ := τ) .tc)).toFinset :=
  ⟨writes_sub_of_mem rfl (by decide), writes_sub_of_mem rfl (by decide), writes_sub_of_mem rfl (by decide), writes_sub_of_mem rfl (by decide), writes_sub_of_mem rfl (by decide)⟩
theorem frame9 (W : Valuation τ sig (Elt F)) {r : Ref sig .tc} (hr : r ∉ wl9) :
    after ops9 W (Proc.devRef .tc r) = W (Proc.devRef .tc r) := after_of_writes_sub ops9 W ops9_writes hr

/-- The buffers piece 10's operations write, in order. -/
abbrev wl10 : List (Ref sig .tc) := [main_call2_cst, main_call2_v0, main_call2_v1, main_call2_v2, main_call2_v3, main_call2_v4, main_call2_v5, main_call2_v6, main_call2_v7, main_call2_v8, main_call2_v9, main_call2_v10, main_call2_v11, main_v45]
theorem ops10_writes : (ops10 (F := F)).Forall fun op => op.writes ⊆ (wl10.map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩
theorem frame10 (W : Valuation τ sig (Elt F)) {r : Ref sig .tc} (hr : r ∉ wl10) :
    after ops10 W (Proc.devRef .tc r) = W (Proc.devRef .tc r) := after_of_writes_sub ops10 W ops10_writes hr

/-- The buffers piece 11's operations write, in order. -/
abbrev wl11 : List (Ref sig .tc) := [main_v46, main_v47, main_v48, main_v49]
theorem ops11_writes : (ops11 (F := F)).Forall fun op => op.writes ⊆ (wl11.map (Proc.devRef (τ := τ) .tc)).toFinset :=
  ⟨writes_sub_of_mem rfl (by decide), writes_sub_of_mem rfl (by decide), writes_sub_of_mem rfl (by decide), writes_sub_of_mem rfl (by decide)⟩
theorem frame11 (W : Valuation τ sig (Elt F)) {r : Ref sig .tc} (hr : r ∉ wl11) :
    after ops11 W (Proc.devRef .tc r) = W (Proc.devRef .tc r) := after_of_writes_sub ops11 W ops11_writes hr

/-- The buffers piece 12's operations write, in order. -/
abbrev wl12 : List (Ref sig .tc) := [main_call3_cst, main_call3_v0, main_call3_v1, main_call3_v2, main_call3_v3, main_call3_v4, main_call3_v5, main_call3_v6, main_call3_v7, main_call3_v8, main_call3_v9, main_call3_v10, main_call3_v11, main_v50]
theorem ops12_writes : (ops12 (F := F)).Forall fun op => op.writes ⊆ (wl12.map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩
theorem frame12 (W : Valuation τ sig (Elt F)) {r : Ref sig .tc} (hr : r ∉ wl12) :
    after ops12 W (Proc.devRef .tc r) = W (Proc.devRef .tc r) := after_of_writes_sub ops12 W ops12_writes hr

/-- The buffers piece 13's operations write, in order. -/
abbrev wl13 : List (Ref sig .tc) := [main_cst_6, main_v51, main_v52, main_cst_7, main_v53, main_v54, main_cst_8, main_v55, main_v56, main_cst_9, main_v57, main_v58]
theorem ops13_writes : (ops13 (F := F)).Forall fun op => op.writes ⊆ (wl13.map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩
theorem frame13 (W : Valuation τ sig (Elt F)) {r : Ref sig .tc} (hr : r ∉ wl13) :
    after ops13 W (Proc.devRef .tc r) = W (Proc.devRef .tc r) := after_of_writes_sub ops13 W ops13_writes hr

/-- The buffers piece 14's operations write, in order. -/
abbrev wl14 : List (Ref sig .tc) := [main_v59, main_v60, main_v61, main_v62]
theorem ops14_writes : (ops14 (F := F)).Forall fun op => op.writes ⊆ (wl14.map (Proc.devRef (τ := τ) .tc)).toFinset :=
  ⟨writes_sub_of_mem rfl (by decide), writes_sub_of_mem rfl (by decide), writes_sub_of_mem rfl (by decide), writes_sub_of_mem rfl (by decide)⟩
theorem frame14 (W : Valuation τ sig (Elt F)) {r : Ref sig .tc} (hr : r ∉ wl14) :
    after ops14 W (Proc.devRef .tc r) = W (Proc.devRef .tc r) := after_of_writes_sub ops14 W ops14_writes hr

/-- The buffers piece 15's operations write, in order. -/
abbrev wl15 : List (Ref sig .tc) := [main_call4_cst, main_call4_v0, main_call4_v1, main_call4_v2, main_call4_v3, main_call4_v4, main_call4_v5, main_call4_v6, main_call4_v7, main_call4_v8, main_call4_v9, main_call4_v10, main_call4_v11, main_v63]
theorem ops15_writes : (ops15 (F := F)).Forall fun op => op.writes ⊆ (wl15.map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩
theorem frame15 (W : Valuation τ sig (Elt F)) {r : Ref sig .tc} (hr : r ∉ wl15) :
    after ops15 W (Proc.devRef .tc r) = W (Proc.devRef .tc r) := after_of_writes_sub ops15 W ops15_writes hr

/-- The buffers piece 16's operations write, in order. -/
abbrev wl16 : List (Ref sig .tc) := [main_v64, main_v65, main_v66]
theorem ops16_writes : (ops16 (F := F)).Forall fun op => op.writes ⊆ (wl16.map (Proc.devRef (τ := τ) .tc)).toFinset :=
  ⟨writes_sub_of_mem rfl (by decide), writes_sub_of_mem rfl (by decide), writes_sub_of_mem rfl (by decide)⟩
theorem frame16 (W : Valuation τ sig (Elt F)) {r : Ref sig .tc} (hr : r ∉ wl16) :
    after ops16 W (Proc.devRef .tc r) = W (Proc.devRef .tc r) := after_of_writes_sub ops16 W ops16_writes hr

/-- The buffers piece 17's operations write, in order. -/
abbrev wl17 : List (Ref sig .tc) := [main_call5_cst, main_call5_v0, main_call5_v1, main_call5_v2, main_call5_v3, main_call5_v4, main_call5_v5, main_call5_v6, main_call5_v7, main_call5_v8, main_call5_v9, main_call5_v10, main_call5_v11, main_v67]
theorem ops17_writes : (ops17 (F := F)).Forall fun op => op.writes ⊆ (wl17.map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩
theorem frame17 (W : Valuation τ sig (Elt F)) {r : Ref sig .tc} (hr : r ∉ wl17) :
    after ops17 W (Proc.devRef .tc r) = W (Proc.devRef .tc r) := after_of_writes_sub ops17 W ops17_writes hr

end Cert.ReferenceIdeal.RunP

end
-- ==== Proof.LibNary3.lean ====
/-
  A host operation over a LITERAL family of three references (a concatenation of three operands): its result holds
  the operation's function applied to the three operands' contents, each read AT ITS OWN reference. Stated with the
  family spelt out as the three contents, each at its own literal reference (the general statement has them under a
  binder, indexed by position).
-/
import Idealize.ShloMosaic.Lib.StableHlo.Run

noncomputable section

namespace Idealize.ShloMosaic.StableHlo

open Idealize.ShloMosaic

variable {τ : Topo} {sig : RefSig} {Val : EltTy → Type} {x a b y : Ref sig .tc}

/-- The result of a three-operand operation at its result buffer: the function at the three operands' contents. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same with the result reference un-indexed. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Idealize.ShloMosaic.StableHlo

end
-- ==== Proof.RI.Run.lean ====
/-
  The reference program's run, over its stages.

  The reference @main is a pure host program of 158 operations (RI/Ops.lean: the list ops, in 17 consecutive pieces),
  each writing one buffer of its own from buffers written before it or from @main's arguments. Every weakly fair
  execution terminates with each buffer at the fold of the operations' results over the launch contents. Here that fold
  is evaluated at the three result buffers into the stage functions of the arguments (RI/Read.lean: one function
  val_<buffer> per operation, each defined one level over the stages before it).

  The fold is never expanded into one term of the arguments. For one piece and ANY contents W of the device's buffers:
  a buffer the piece does not write holds afterwards what W held (RI/Frames.lean); a buffer the piece writes holds its
  operations' term over W at the buffers the piece reads from outside itself, and when W holds those buffers' stages
  that term is the written buffer's stage, by unfolding the stages of this piece only. Only the few buffers a later
  piece still reads, or @main returns, are followed across a boundary between pieces. No operation writes an argument,
  so the seventeen arguments are carried as one record. The pieces are chained by
  after (l₁ ++ l₂) V = after l₂ (after l₁ V), and the run reads the chain against the launch contents.
-/
import proofs.«409539_j52209622450458_2_alg».proof.Proof.RI.Ops
import proofs.«409539_j52209622450458_2_alg».proof.Proof.RI.Frames
import proofs.«409539_j52209622450458_2_alg».proof.Proof.RI.Read
import proofs.«409539_j52209622450458_2_alg».proof.Proof.Gen.ReferenceIdeal
import proofs.«409539_j52209622450458_2_alg».proof.Proof.LibNary3
import Idealize.ShloMosaic.Lib.StableHlo.Run

noncomputable section

namespace Cert.ReferenceIdeal.RunP

open Cert.ReferenceIdeal Cert.ReferenceIdeal.Gen Idealize.ShloMosaic Idealize.ShloMosaic.TcCoe Idealize.SL.Sem Idealize.ShloMosaic.StableHlo

variable {F : FTy → Type} [FloatOps F]

-- The notations of this module that name its section variables (F, and below x0 … x16) are declared with their
-- identifiers read where the notation is used.

-- the contents of a buffer of shape s and element type e
set_option hygiene false in
local notation "𝕋[" s ", " e "]" => BufTy.Contents (Elt F) (BufTy.mk s e)
-- a TensorCore reference as the device's buffer
local notation:max "↟" r:max => Proc.devRef (τ := τ) Proc.tc r

/-! ## The arguments

No operation writes one of @main's seventeen argument buffers, so what a valuation holds there is kept by every piece. -/

/-- The valuation holds the given contents at the seventeen argument buffers. -/
structure Args (W : Valuation τ sig (Elt F))
    (x0 : 𝕋[S1600000x32, .f32]) (x1 : 𝕋[S50000x32, .f32]) (x2 : 𝕋[S1x32, .f32]) (x3 x4 : 𝕋[S1600000, .i32])
    (x5 : 𝕋[S128x64, .f32]) (x6 : 𝕋[S64, .f32]) (x7 : 𝕋[S64x64, .f32]) (x8 : 𝕋[S64, .f32])
    (x9 : 𝕋[S128x64, .f32]) (x10 : 𝕋[S64, .f32]) (x11 : 𝕋[S64x64, .f32]) (x12 : 𝕋[S64, .f32])
    (x13 : 𝕋[S160x64, .f32]) (x14 : 𝕋[S64, .f32]) (x15 : 𝕋[S64x64, .f32]) (x16 : 𝕋[S64, .f32]) : Prop where
  a0 : W ↟main_arg0 = x0
  a1 : W ↟main_arg1 = x1
  a2 : W ↟main_arg2 = x2
  a3 : W ↟main_arg3 = x3
  a4 : W ↟main_arg4 = x4
  a5 : W ↟main_arg5 = x5
  a6 : W ↟main_arg6 = x6
  a7 : W ↟main_arg7 = x7
  a8 : W ↟main_arg8 = x8
  a9 : W ↟main_arg9 = x9
  a10 : W ↟main_arg10 = x10
  a11 : W ↟main_arg11 = x11
  a12 : W ↟main_arg12 = x12
  a13 : W ↟main_arg13 = x13
  a14 : W ↟main_arg14 = x14
  a15 : W ↟main_arg15 = x15
  a16 : W ↟main_arg16 = x16

variable {x0 : 𝕋[S1600000x32, .f32]} {x1 : 𝕋[S50000x32, .f32]} {x2 : 𝕋[S1x32, .f32]} {x3 x4 : 𝕋[S1600000, .i32]}
  {x5 : 𝕋[S128x64, .f32]} {x6 : 𝕋[S64, .f32]} {x7 : 𝕋[S64x64, .f32]} {x8 : 𝕋[S64, .f32]}
  {x9 : 𝕋[S128x64, .f32]} {x10 : 𝕋[S64, .f32]} {x11 : 𝕋[S64x64, .f32]} {x12 : 𝕋[S64, .f32]}
  {x13 : 𝕋[S160x64, .f32]} {x14 : 𝕋[S64, .f32]} {x15 : 𝕋[S64x64, .f32]} {x16 : 𝕋[S64, .f32]}

-- the valuation holds the arguments x0 … x16
set_option hygiene false in
local notation:max "𝐀 " W:max => Args W x0 x1 x2 x3 x4 x5 x6 x7 x8 x9 x10 x11 x12 x13 x14 x15 x16

/-- The argument buffers. -/
abbrev argRefs : List (Ref sig .tc) :=
  [main_arg0, main_arg1, main_arg2, main_arg3, main_arg4, main_arg5, main_arg6, main_arg7, main_arg8, main_arg9,
   main_arg10, main_arg11, main_arg12, main_arg13, main_arg14, main_arg15, main_arg16]

/-- A valuation that agrees with W off a list of references naming no argument holds the same arguments. -/
theorem Args.frame {W W' : Valuation τ sig (Elt F)} (hA : 𝐀 W) (wl : List (Ref sig .tc))
    (h : ∀ {r : Ref sig .tc}, r ∉ wl → W' ↟r = W ↟r) (hd : ∀ r ∈ argRefs, r ∉ wl) : 𝐀 W' :=
  ⟨(h (hd main_arg0 (by decide))).trans hA.a0, (h (hd main_arg1 (by decide))).trans hA.a1,
   (h (hd main_arg2 (by decide))).trans hA.a2, (h (hd main_arg3 (by decide))).trans hA.a3,
   (h (hd main_arg4 (by decide))).trans hA.a4, (h (hd main_arg5 (by decide))).trans hA.a5,
   (h (hd main_arg6 (by decide))).trans hA.a6, (h (hd main_arg7 (by decide))).trans hA.a7,
   (h (hd main_arg8 (by decide))).trans hA.a8, (h (hd main_arg9 (by decide))).trans hA.a9,
   (h (hd main_arg10 (by decide))).trans hA.a10, (h (hd main_arg11 (by decide))).trans hA.a11,
   (h (hd main_arg12 (by decide))).trans hA.a12, (h (hd main_arg13 (by decide))).trans hA.a13,
   (h (hd main_arg14 (by decide))).trans hA.a14, (h (hd main_arg15 (by decide))).trans hA.a15,
   (h (hd main_arg16 (by decide))).trans hA.a16⟩

/-! ## The stages, piece by piece

The buffers followed across a boundary, each with its stage of the arguments. -/

set_option hygiene false

local notation "𝐬v0" => ReadP.val_main_v0 (F := F) x2
local notation "𝐬v7" => ReadP.val_main_v7 (F := F) x1 x3
local notation "𝐬v14" => ReadP.val_main_v14 (F := F) x1 x4
local notation "𝐬v15" => ReadP.val_main_v15 (F := F) x2
local notation "𝐬v20" => ReadP.val_main_v20 (F := F) x0 x1 x2 x3 x4 x5 x6
local notation "𝐬v21" => ReadP.val_main_v21 (F := F) x0 x1 x2 x3 x4 x5 x6
local notation "𝐬v25" => ReadP.val_main_v25 (F := F) x0 x1 x2 x3 x4 x5 x6 x7 x8
local notation "𝐬v26" => ReadP.val_main_v26 (F := F) x0 x1 x2 x3 x4 x5 x6 x7 x8
local notation "𝐬v29" => ReadP.val_main_v29 (F := F) x0 x1 x2 x3 x4 x5 x6 x7 x8
local notation "𝐬v33" => ReadP.val_main_v33 (F := F) x4
local notation "𝐬v38" => ReadP.val_main_v38 (F := F) x0 x1 x2 x3 x4 x5 x6 x7 x8
local notation "𝐬v39" => ReadP.val_main_v39 (F := F) x2
local notation "𝐬v44" => ReadP.val_main_v44 (F := F) x0 x1 x2 x3 x4 x5 x6 x7 x8 x9 x10
local notation "𝐬v45" => ReadP.val_main_v45 (F := F) x0 x1 x2 x3 x4 x5 x6 x7 x8 x9 x10
local notation "𝐬v49" => ReadP.val_main_v49 (F := F) x0 x1 x2 x3 x4 x5 x6 x7 x8 x9 x10 x11 x12
local notation "𝐬v50" => ReadP.val_main_v50 (F := F) x0 x1 x2 x3 x4 x5 x6 x7 x8 x9 x10 x11 x12
local notation "𝐬v54" => ReadP.val_main_v54 (F := F) x0 x1 x2 x3 x4 x5 x6 x7 x8
local notation "𝐬v58" => ReadP.val_main_v58 (F := F) x0 x1 x2 x3 x4 x5 x6 x7 x8 x9 x10 x11 x12
local notation "𝐬v62" => ReadP.val_main_v62 (F := F) x0 x1 x2 x3 x4 x5 x6 x7 x8 x9 x10 x11 x12 x13 x14
local notation "𝐬v63" => ReadP.val_main_v63 (F := F) x0 x1 x2 x3 x4 x5 x6 x7 x8 x9 x10 x11 x12 x13 x14
local notation "𝐬v66" => ReadP.val_main_v66 (F := F) x0 x1 x2 x3 x4 x5 x6 x7 x8 x9 x10 x11 x12 x13 x14 x15 x16
local notation "𝐬v67" => ReadP.val_main_v67 (F := F) x0 x1 x2 x3 x4 x5 x6 x7 x8 x9 x10 x11 x12 x13 x14 x15 x16

set_option hygiene true

/-- The fold over a literal piece, at one buffer: each operation's result at its own buffer is its function of its
    operands' contents (a three-operand operation read at its three references), and at another buffer what was
    there. What is left is the piece's term over the contents before the piece. -/
macro "piece_results" : tactic =>
  `(tactic| (simp only [after_cons, after_nil]
             repeat (first
               | rw [nullary_result] | rw [unary_result] | rw [binary_result] | rw [ternary_result]
               | rw [reshape_result] | rw [nary4_result] | rw [nary3_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide)
               | (rw [nary_result_ne]; rotate_left; decide))))

/-- Operations 1 … 10: the one-row argument reshaped, and the first gather (the table's rows at the first index list, a
    negative index wrapped). -/
theorem stage1 (W : Valuation τ sig (Elt F)) (hA : 𝐀 W) :
    𝐀 (after ops1 W) ∧ after ops1 W ↟main_v0 = 𝐬v0 ∧ after ops1 W ↟main_v7 = 𝐬v7 :=
  ⟨hA.frame wl1 (fun hr => frame1 W hr) (by decide),
   by
    piece_results
    rw [hA.a2]
    rfl,
   by
    piece_results
    rw [hA.a1, hA.a3]
    rfl⟩

/-- Operations 11 … 20: the second gather (at the second index list), and the reshaped row broadcast over 1600000 rows. -/
theorem stage2 (W : Valuation τ sig (Elt F)) (hA : 𝐀 W) (h0 : W ↟main_v0 = 𝐬v0) (h7 : W ↟main_v7 = 𝐬v7) :
    𝐀 (after ops2 W) ∧ after ops2 W ↟main_v0 = 𝐬v0 ∧ after ops2 W ↟main_v7 = 𝐬v7
    ∧ after ops2 W ↟main_v14 = 𝐬v14 ∧ after ops2 W ↟main_v15 = 𝐬v15 :=
  ⟨hA.frame wl2 (fun hr => frame2 W hr) (by decide),
   (frame2 W (by decide)).trans h0,
   (frame2 W (by decide)).trans h7,
   by
    piece_results
    rw [hA.a1, hA.a4]
    rfl,
   by
    piece_results
    rw [h0]
    rfl⟩

/-- Operations 21 … 25: the four-piece concatenation, its product with a weight and the bias added. -/
theorem stage3 (W : Valuation τ sig (Elt F)) (hA : 𝐀 W) (h0 : W ↟main_v0 = 𝐬v0) (h7 : W ↟main_v7 = 𝐬v7)
    (h14 : W ↟main_v14 = 𝐬v14) (h15 : W ↟main_v15 = 𝐬v15) :
    𝐀 (after ops3 W) ∧ after ops3 W ↟main_v0 = 𝐬v0 ∧ after ops3 W ↟main_v20 = 𝐬v20 :=
  ⟨hA.frame wl3 (fun hr => frame3 W hr) (by decide),
   (frame3 W (by decide)).trans h0,
   by
    piece_results
    rw [h7, h14, hA.a0, h15, hA.a5, hA.a6]
    rfl⟩

set_option maxHeartbeats 1000000 in -- fourteen operations, each result read through the ones after it
/-- Operations 26 … 39: the first softplus, inlined. -/
theorem stage4 (W : Valuation τ sig (Elt F)) (hA : 𝐀 W) (h0 : W ↟main_v0 = 𝐬v0) (h20 : W ↟main_v20 = 𝐬v20) :
    𝐀 (after ops4 W) ∧ after ops4 W ↟main_v0 = 𝐬v0 ∧ after ops4 W ↟main_v21 = 𝐬v21 :=
  ⟨hA.frame wl4 (fun hr => frame4 W hr) (by decide),
   (frame4 W (by decide)).trans h0,
   by
    piece_results
    try simp only [TRef.ofBuf, TRef.toBuf, cast_eq]
    rw [h20]
    rfl⟩

/-- Operations 40 … 43: the product with the next weight and the bias added. -/
theorem stage5 (W : Valuation τ sig (Elt F)) (hA : 𝐀 W) (h0 : W ↟main_v0 = 𝐬v0) (h21 : W ↟main_v21 = 𝐬v21) :
    𝐀 (after ops5 W) ∧ after ops5 W ↟main_v0 = 𝐬v0 ∧ after ops5 W ↟main_v25 = 𝐬v25 :=
  ⟨hA.frame wl5 (fun hr => frame5 W hr) (by decide),
   (frame5 W (by decide)).trans h0,
   by
    piece_results
    rw [h21, hA.a7, hA.a8]
    rfl⟩

set_option maxHeartbeats 1000000 in -- fourteen operations, each result read through the ones after it
/-- Operations 44 … 57: the second softplus, inlined; its value is @main's first result. -/
theorem stage6 (W : Valuation τ sig (Elt F)) (hA : 𝐀 W) (h0 : W ↟main_v0 = 𝐬v0) (h25 : W ↟main_v25 = 𝐬v25) :
    𝐀 (after ops6 W) ∧ after ops6 W ↟main_v0 = 𝐬v0 ∧ after ops6 W ↟main_v26 = 𝐬v26 :=
  ⟨hA.frame wl6 (fun hr => frame6 W hr) (by decide),
   (frame6 W (by decide)).trans h0,
   by
    piece_results
    try simp only [TRef.ofBuf, TRef.toBuf, cast_eq]
    rw [h25]
    rfl⟩

/-- Operations 58 … 67: the two scattered sums at the second index list (of the first result's rows, and of ones: how many
    rows go to each target). -/
theorem stage7 (W : Valuation τ sig (Elt F)) (hA : 𝐀 W) (h0 : W ↟main_v0 = 𝐬v0) (h26 : W ↟main_v26 = 𝐬v26) :
    𝐀 (after ops7 W) ∧ after ops7 W ↟main_v0 = 𝐬v0 ∧ after ops7 W ↟main_v26 = 𝐬v26
    ∧ after ops7 W ↟main_v29 = 𝐬v29 ∧ after ops7 W ↟main_v33 = 𝐬v33 :=
  ⟨hA.frame wl7 (fun hr => frame7 W hr) (by decide),
   (frame7 W (by decide)).trans h0,
   (frame7 W (by decide)).trans h26,
   by
    piece_results
    rw [hA.a4, h26]
    rfl,
   by
    piece_results
    rw [hA.a4]
    rfl⟩

/-- Operations 68 … 74: the scattered sum divided by the count (taken at least one), and the reshaped row broadcast over
    50000 rows. -/
theorem stage8 (W : Valuation τ sig (Elt F)) (hA : 𝐀 W) (h0 : W ↟main_v0 = 𝐬v0) (h26 : W ↟main_v26 = 𝐬v26)
    (h29 : W ↟main_v29 = 𝐬v29) (h33 : W ↟main_v33 = 𝐬v33) :
    𝐀 (after ops8 W) ∧ after ops8 W ↟main_v26 = 𝐬v26 ∧ after ops8 W ↟main_v38 = 𝐬v38
    ∧ after ops8 W ↟main_v39 = 𝐬v39 :=
  ⟨hA.frame wl8 (fun hr => frame8 W hr) (by decide),
   (frame8 W (by decide)).trans h26,
   by
    piece_results
    rw [h29, h33]
    rfl,
   by
    piece_results
    rw [h0]
    rfl⟩

/-- Operations 75 … 79: the three-piece concatenation, its product with a weight and the bias added. -/
theorem stage9 (W : Valuation τ sig (Elt F)) (hA : 𝐀 W) (h26 : W ↟main_v26 = 𝐬v26) (h38 : W ↟main_v38 = 𝐬v38)
    (h39 : W ↟main_v39 = 𝐬v39) :
    𝐀 (after ops9 W) ∧ after ops9 W ↟main_v26 = 𝐬v26 ∧ after ops9 W ↟main_v44 = 𝐬v44 :=
  ⟨hA.frame wl9 (fun hr => frame9 W hr) (by decide),
   (frame9 W (by decide)).trans h26,
   by
    piece_results
    rw [hA.a1, h38, h39, hA.a9, hA.a10]
    rfl⟩

set_option maxHeartbeats 1000000 in -- fourteen operations, each result read through the ones after it
/-- Operations 80 … 93: the third softplus, inlined. -/
theorem stage10 (W : Valuation τ sig (Elt F)) (hA : 𝐀 W) (h26 : W ↟main_v26 = 𝐬v26) (h44 : W ↟main_v44 = 𝐬v44) :
    𝐀 (after ops10 W) ∧ after ops10 W ↟main_v26 = 𝐬v26 ∧ after ops10 W ↟main_v45 = 𝐬v45 :=
  ⟨hA.frame wl10 (fun hr => frame10 W hr) (by decide),
   (frame10 W (by decide)).trans h26,
   by
    piece_results
    try simp only [TRef.ofBuf, TRef.toBuf, cast_eq]
    rw [h44]
    rfl⟩

/-- Operations 94 … 97: the product with the next weight and the bias added. -/
theorem stage11 (W : Valuation τ sig (Elt F)) (hA : 𝐀 W) (h26 : W ↟main_v26 = 𝐬v26) (h45 : W ↟main_v45 = 𝐬v45) :
    𝐀 (after ops11 W) ∧ after ops11 W ↟main_v26 = 𝐬v26 ∧ after ops11 W ↟main_v49 = 𝐬v49 :=
  ⟨hA.frame wl11 (fun hr => frame11 W hr) (by decide),
   (frame11 W (by decide)).trans h26,
   by
    piece_results
    rw [h45, hA.a11, hA.a12]
    rfl⟩

set_option maxHeartbeats 1000000 in -- fourteen operations, each result read through the ones after it
/-- Operations 98 … 111: the fourth softplus, inlined; its value is @main's second result. -/
theorem stage12 (W : Valuation τ sig (Elt F)) (hA : 𝐀 W) (h26 : W ↟main_v26 = 𝐬v26) (h49 : W ↟main_v49 = 𝐬v49) :
    𝐀 (after ops12 W) ∧ after ops12 W ↟main_v26 = 𝐬v26 ∧ after ops12 W ↟main_v50 = 𝐬v50 :=
  ⟨hA.frame wl12 (fun hr => frame12 W hr) (by decide),
   (frame12 W (by decide)).trans h26,
   by
    piece_results
    try simp only [TRef.ofBuf, TRef.toBuf, cast_eq]
    rw [h49]
    rfl⟩

/-- Operations 112 … 123: the two column sums (of the first and of the second result), each divided by its number of rows. -/
theorem stage13 (W : Valuation τ sig (Elt F)) (hA : 𝐀 W) (h26 : W ↟main_v26 = 𝐬v26) (h50 : W ↟main_v50 = 𝐬v50) :
    𝐀 (after ops13 W) ∧ after ops13 W ↟main_v26 = 𝐬v26 ∧ after ops13 W ↟main_v50 = 𝐬v50
    ∧ after ops13 W ↟main_v54 = 𝐬v54 ∧ after ops13 W ↟main_v58 = 𝐬v58 :=
  ⟨hA.frame wl13 (fun hr => frame13 W hr) (by decide),
   (frame13 W (by decide)).trans h26,
   (frame13 W (by decide)).trans h50,
   by
    piece_results
    rw [h26]
    rfl,
   by
    piece_results
    rw [h50]
    rfl⟩

/-- Operations 124 … 127: the three-piece concatenation, its product with a weight and the bias added. -/
theorem stage14 (W : Valuation τ sig (Elt F)) (hA : 𝐀 W) (h26 : W ↟main_v26 = 𝐬v26) (h50 : W ↟main_v50 = 𝐬v50)
    (h54 : W ↟main_v54 = 𝐬v54) (h58 : W ↟main_v58 = 𝐬v58) :
    𝐀 (after ops14 W) ∧ after ops14 W ↟main_v26 = 𝐬v26 ∧ after ops14 W ↟main_v50 = 𝐬v50
    ∧ after ops14 W ↟main_v62 = 𝐬v62 :=
  ⟨hA.frame wl14 (fun hr => frame14 W hr) (by decide),
   (frame14 W (by decide)).trans h26,
   (frame14 W (by decide)).trans h50,
   by
    piece_results
    rw [hA.a2, h54, h58, hA.a13, hA.a14]
    rfl⟩

set_option maxHeartbeats 1000000 in -- fourteen operations, each result read through the ones after it
/-- Operations 128 … 141: the fifth softplus, inlined. -/
theorem stage15 (W : Valuation τ sig (Elt F)) (hA : 𝐀 W) (h26 : W ↟main_v26 = 𝐬v26) (h50 : W ↟main_v50 = 𝐬v50)
    (h62 : W ↟main_v62 = 𝐬v62) :
    𝐀 (after ops15 W) ∧ after ops15 W ↟main_v26 = 𝐬v26 ∧ after ops15 W ↟main_v50 = 𝐬v50
    ∧ after ops15 W ↟main_v63 = 𝐬v63 :=
  ⟨hA.frame wl15 (fun hr => frame15 W hr) (by decide),
   (frame15 W (by decide)).trans h26,
   (frame15 W (by decide)).trans h50,
   by
    piece_results
    try simp only [TRef.ofBuf, TRef.toBuf, cast_eq]
    rw [h62]
    rfl⟩

/-- Operations 142 … 144: the product with the next weight and the bias added. -/
theorem stage16 (W : Valuation τ sig (Elt F)) (hA : 𝐀 W) (h26 : W ↟main_v26 = 𝐬v26) (h50 : W ↟main_v50 = 𝐬v50)
    (h63 : W ↟main_v63 = 𝐬v63) :
    𝐀 (after ops16 W) ∧ after ops16 W ↟main_v26 = 𝐬v26 ∧ after ops16 W ↟main_v50 = 𝐬v50
    ∧ after ops16 W ↟main_v66 = 𝐬v66 :=
  ⟨hA.frame wl16 (fun hr => frame16 W hr) (by decide),
   (frame16 W (by decide)).trans h26,
   (frame16 W (by decide)).trans h50,
   by
    piece_results
    rw [h63, hA.a15, hA.a16]
    rfl⟩

set_option maxHeartbeats 1000000 in -- fourteen operations, each result read through the ones after it
/-- Operations 145 … 158: the sixth softplus, inlined; its value is @main's third result. -/
theorem stage17 (W : Valuation τ sig (Elt F)) (hA : 𝐀 W) (h26 : W ↟main_v26 = 𝐬v26) (h50 : W ↟main_v50 = 𝐬v50)
    (h66 : W ↟main_v66 = 𝐬v66) :
    𝐀 (after ops17 W) ∧ after ops17 W ↟main_v26 = 𝐬v26 ∧ after ops17 W ↟main_v50 = 𝐬v50
    ∧ after ops17 W ↟main_v67 = 𝐬v67 :=
  ⟨hA.frame wl17 (fun hr => frame17 W hr) (by decide),
   (frame17 W (by decide)).trans h26,
   (frame17 W (by decide)).trans h50,
   by
    piece_results
    try simp only [TRef.ofBuf, TRef.toBuf, cast_eq]
    rw [h66]
    rfl⟩

/-! ## The whole list -/

/-- After all 158 operations, from contents holding the arguments: the arguments still, and each of @main's three
    results at its stage of the arguments. -/
theorem results (V : Valuation τ sig (Elt F)) (hA : 𝐀 V) :
    𝐀 (after ops V) ∧ after ops V ↟main_v26 = 𝐬v26 ∧ after ops V ↟main_v50 = 𝐬v50
    ∧ after ops V ↟main_v67 = 𝐬v67 := by
  obtain ⟨A1, a0, a7⟩ := stage1 V hA
  obtain ⟨A2, b0, b7, b14, b15⟩ := stage2 _ A1 a0 a7
  obtain ⟨A3, c0, c20⟩ := stage3 _ A2 b0 b7 b14 b15
  obtain ⟨A4, d0, d21⟩ := stage4 _ A3 c0 c20
  obtain ⟨A5, e0, e25⟩ := stage5 _ A4 d0 d21
  obtain ⟨A6, f0, f26⟩ := stage6 _ A5 e0 e25
  obtain ⟨A7, g0, g26, g29, g33⟩ := stage7 _ A6 f0 f26
  obtain ⟨A8, i26, i38, i39⟩ := stage8 _ A7 g0 g26 g29 g33
  obtain ⟨A9, j26, j44⟩ := stage9 _ A8 i26 i38 i39
  obtain ⟨A10, k26, k45⟩ := stage10 _ A9 j26 j44
  obtain ⟨A11, l26, l49⟩ := stage11 _ A10 k26 k45
  obtain ⟨A12, n26, n50⟩ := stage12 _ A11 l26 l49
  obtain ⟨A13, o26, o50, o54, o58⟩ := stage13 _ A12 n26 n50
  obtain ⟨A14, p26, p50, p62⟩ := stage14 _ A13 o26 o50 o54 o58
  obtain ⟨A15, q26, q50, q63⟩ := stage15 _ A14 p26 p50 p62
  obtain ⟨A16, s26, s50, s66⟩ := stage16 _ A15 q26 q50 q63
  obtain ⟨A17, t26, t50, t67⟩ := stage17 _ A16 s26 s50 s66
  simp only [ops, after_append]
  exact ⟨A17, t26, t50, t67⟩

/-- On every device, for any float values, from any memory with zero counters: every weakly fair execution of
    @main terminates with each result at its stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v26) = ReadP.val_main_v26 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v50) = ReadP.val_main_v50 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v67) = ReadP.val_main_v67 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => by
      obtain ⟨A, r26, r50, r67⟩ := results (F := F) (launchContents m c)
        (x0 := m ((c.tc : Thread nD τ).loc main_arg0)) (x1 := m ((c.tc : Thread nD τ).loc main_arg1))
        (x2 := m ((c.tc : Thread nD τ).loc main_arg2)) (x3 := m ((c.tc : Thread nD τ).loc main_arg3))
        (x4 := m ((c.tc : Thread nD τ).loc main_arg4)) (x5 := m ((c.tc : Thread nD τ).loc main_arg5))
        (x6 := m ((c.tc : Thread nD τ).loc main_arg6)) (x7 := m ((c.tc : Thread nD τ).loc main_arg7))
        (x8 := m ((c.tc : Thread nD τ).loc main_arg8)) (x9 := m ((c.tc : Thread nD τ).loc main_arg9))
        (x10 := m ((c.tc : Thread nD τ).loc main_arg10)) (x11 := m ((c.tc : Thread nD τ).loc main_arg11))
        (x12 := m ((c.tc : Thread nD τ).loc main_arg12)) (x13 := m ((c.tc : Thread nD τ).loc main_arg13))
        (x14 := m ((c.tc : Thread nD τ).loc main_arg14)) (x15 := m ((c.tc : Thread nD τ).loc main_arg15))
        (x16 := m ((c.tc : Thread nD τ).loc main_arg16))
        ⟨rfl, rfl, rfl, rfl, rfl, rfl, rfl, rfl, rfl, rfl, rfl, rfl, rfl, rfl, rfl, rfl, rfl⟩
      exact ⟨(h c main_v26).trans r26, (h c main_v50).trans r50, (h c main_v67).trans r67,
        (h c main_arg0).trans A.a0, (h c main_arg1).trans A.a1, (h c main_arg2).trans A.a2,
        (h c main_arg3).trans A.a3, (h c main_arg4).trans A.a4, (h c main_arg5).trans A.a5,
        (h c main_arg6).trans A.a6, (h c main_arg7).trans A.a7, (h c main_arg8).trans A.a8,
        (h c main_arg9).trans A.a9, (h c main_arg10).trans A.a10, (h c main_arg11).trans A.a11,
        (h c main_arg12).trans A.a12, (h c main_arg13).trans A.a13, (h c main_arg14).trans A.a14,
        (h c main_arg15).trans A.a15, (h c main_arg16).trans A.a16⟩)
    (run_seq scopedRefs_eq scopedSems_eq defs main (fun _ => ops) main_eq (fun _ => ops_sub) m ρ (fun _ => ops_fresh))

end Cert.ReferenceIdeal.RunP

end
-- ==== Proof.Spec.lean ====
/-
  The common mathematical form of both programs' results.

  A two-layer perceptron with softplus after each layer acts on every row separately: for a row
  `x : Fin 128 → EReal`, `mlpRow x W1 b1 W2 b2 j = sp (∑ k, sp (∑ i, x i * W1 i k + b1 k) * W2 k j + b2 j)`,
  where `sp x = max x 0 + log1p (exp (-|x|))` is softplus in the overflow-free spelling both programs use.
  The edge update feeds it the row `[v_src | v_dst | e | u]` (four pieces of width 32), the node update the row
  `[v | mean of incoming messages | u]` (widths 32, 64, 32).
-/
import Idealize.ShloMosaic.PureOps.Ideal
import Idealize.ShloMosaic.Lib.ValueIdx

noncomputable section

namespace Cert.Spec

open Idealize.ShloMosaic

/-- Softplus on the extended reals, in the spelling `max x 0 + log1p (exp (-|x|))`. -/
def sp (x : EReal) : EReal :=
  max x 0 + Ideal.log1p (Ideal.exp (-(FloatOps.absf (F := Ideal) (φ := .f32) x)))

/-- One dense layer followed by softplus, on a row. -/
def dense {n k : ℕ} (x : Fin n → EReal) (W : Fin n → Fin k → EReal) (b : Fin k → EReal) (j : Fin k) : EReal :=
  sp (∑ i, x i * W i j + b j)

/-- The two-layer perceptron on a row of width 128. -/
def mlpRow (x : Fin 128 → EReal) (W1 : Fin 128 → Fin 64 → EReal) (b1 : Fin 64 → EReal)
    (W2 : Fin 64 → Fin 64 → EReal) (b2 : Fin 64 → EReal) (j : Fin 64) : EReal :=
  dense (dense x W1 b1) W2 b2 j

/-- Four rows of width 32 side by side. -/
def cat4 (a b c d : Fin 32 → EReal) (k : Fin 128) : EReal :=
  if h0 : k.val < 32 then a ⟨k.val, h0⟩
  else if h1 : k.val < 64 then b ⟨k.val - 32, by omega⟩
  else if h2 : k.val < 96 then c ⟨k.val - 64, by omega⟩
  else d ⟨k.val - 96, by omega⟩

/-- Rows of widths 32, 64, 32 side by side. -/
def cat3 (a : Fin 32 → EReal) (b : Fin 64 → EReal) (c : Fin 32 → EReal) (k : Fin 128) : EReal :=
  if h0 : k.val < 32 then a ⟨k.val, h0⟩
  else if h1 : k.val < 96 then b ⟨k.val - 32, by omega⟩
  else c ⟨k.val - 96, by omega⟩

/-- The edge update: row `r` of the result from row `r` of the gathered source and destination node features and
    of the edge features, the graph attribute, and the perceptron's parameters. -/
def Ge (vi vj ef : Fin 1600000 → Fin 32 → EReal) (u : Fin 32 → EReal)
    (W1 : Fin 128 → Fin 64 → EReal) (b1 : Fin 64 → EReal) (W2 : Fin 64 → Fin 64 → EReal) (b2 : Fin 64 → EReal)
    (r : Fin 1600000) (j : Fin 64) : EReal :=
  mlpRow (cat4 (vi r) (vj r) (ef r) u) W1 b1 W2 b2 j

/-- The node update: row `r` of the result from row `r` of the node features and of the mean incoming message. -/
def Gv (nf : Fin 50000 → Fin 32 → EReal) (ve : Fin 50000 → Fin 64 → EReal) (u : Fin 32 → EReal)
    (W1 : Fin 128 → Fin 64 → EReal) (b1 : Fin 64 → EReal) (W2 : Fin 64 → Fin 64 → EReal) (b2 : Fin 64 → EReal)
    (r : Fin 50000) (j : Fin 64) : EReal :=
  mlpRow (cat3 (nf r) (ve r) u) W1 b1 W2 b2 j

/-- A matrix read by row and column. -/
def rows {a b : ℕ} (x : (⟨2, ![a, b]⟩ : Shape).Idx → EReal) : Fin a → Fin b → EReal := fun r k => x (ValueIdx.ix2 r k)

/-- The one row of a 1 × b matrix. -/
def row0 {b : ℕ} (x : (⟨2, ![1, b]⟩ : Shape).Idx → EReal) : Fin b → EReal := fun k => x (ValueIdx.ix2 0 k)

/-- A vector read by position. -/
def vec {b : ℕ} (x : (⟨1, ![b]⟩ : Shape).Idx → EReal) : Fin b → EReal := fun k => x (ValueIdx.ix1 k)

/-- The edge update as a whole array: entry (r, j) from row r of the three edge-indexed inputs. -/
def eNew (vi vj ef : (⟨2, ![1600000, 32]⟩ : Shape).Idx → EReal) (u : Fin 32 → EReal)
    (W1 : (⟨2, ![128, 64]⟩ : Shape).Idx → EReal) (b1 : Fin 64 → EReal) (W2 : (⟨2, ![64, 64]⟩ : Shape).Idx → EReal) (b2 : Fin 64 → EReal) :
    (⟨2, ![1600000, 64]⟩ : Shape).Idx → EReal :=
  fun i => Ge (rows vi) (rows vj) (rows ef) u (rows W1) b1 (rows W2) b2 (i 0) (i 1)

/-- The node update as a whole array: entry (r, j) from row r of the node features and of the mean incoming message. -/
def vNew (nf : (⟨2, ![50000, 32]⟩ : Shape).Idx → EReal) (ve : (⟨2, ![50000, 64]⟩ : Shape).Idx → EReal) (u : Fin 32 → EReal)
    (W1 : (⟨2, ![128, 64]⟩ : Shape).Idx → EReal) (b1 : Fin 64 → EReal) (W2 : (⟨2, ![64, 64]⟩ : Shape).Idx → EReal) (b2 : Fin 64 → EReal) :
    (⟨2, ![50000, 64]⟩ : Shape).Idx → EReal :=
  fun i => Gv (rows nf) (rows ve) u (rows W1) b1 (rows W2) b2 (i 0) (i 1)

/-- Every entry of an index array, read as a signed word, is a row number of the node table. -/
def InRange (idx : (⟨1, ![1600000]⟩ : Shape).Idx → BitVec 32) : Prop :=
  ∀ i, 0 ≤ (idx i).toInt ∧ (idx i).toInt < 50000

end Cert.Spec

end
-- ==== Proof.KI.Payload1.lean ====
/-
  The value region 1 stores, read at row p and column q: the two-layer softplus perceptron of the concatenated row p.

  The body lays the node features, the mean incoming message and the graph attribute (broadcast down the rows) side by
  side, multiplies by the first weight matrix into a zero accumulator, adds the first bias row, takes softplus, and
  repeats with the second weights and bias. At the extended reals the narrowing to the 16-bit format is the identity,
  the accumulator is 0, and the ordered-not-equal compare of a value with itself is false, so that the select of the
  softplus spelling takes max x 0 + log1p (exp (-|x|)).
-/
import proofs.«409539_j52209622450458_2_alg».proof.Proof.KI.Region1
import proofs.«409539_j52209622450458_2_alg».proof.Proof.Spec
import Idealize.ShloMosaic.Lib.Pipeline.Value
import Idealize.ShloMosaic.Lib.ValueLayout
import Idealize.ShloMosaic.Lib.ValueIdx
import Idealize.ShloMosaic.Lib.StackMember
import Idealize.ShloMosaic.Lib.KernelVsHost
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx
open scoped BigOperators

/-! ## Softplus at one entry -/

/-- The select of the softplus spelling, at one extended real: x - 0 = x, 0 - y = -y, and x is never
    ordered-not-equal to itself, so the select takes its last operand. -/
theorem softplus_entry (x : EReal) :
    Scalar.select (FloatOps.cmpf (F := Ideal) (φ := .f32) .one (x - Ideal.ofBits .f32 0x00000000#32) (x - Ideal.ofBits .f32 0x00000000#32))
      (x + Ideal.ofBits .f32 0x00000000#32)
      (max x (Ideal.ofBits .f32 0x00000000#32)
        + Ideal.log1p (Ideal.exp (Ideal.ofBits .f32 0x00000000#32 - FloatOps.absf (F := Ideal) (φ := .f32) (x - Ideal.ofBits .f32 0x00000000#32))))
    = Cert.Spec.sp x := by
  rw [Ideal.ofBits_zero_f32, sub_zero, zero_sub]
  have hc : FloatOps.cmpf (F := Ideal) (φ := .f32) .one x x = 0#1 := by
    rw [Ideal.cmpf_def]; simp [Ideal.cmp]
  rw [hc]
  rfl

/-! ## A dense layer at an index -/

/-- A product of an m×k by a k×n matrix (both narrowed, which changes nothing) into the zero accumulator, plus a bias
    row broadcast down the rows, at (p, q): the sum over the contracted coordinate, plus the bias at q. -/
theorem dense_read {m k n : Nat} (d : DotDims (⟨2, ![m, k]⟩ : Shape) ⟨2, ![k, n]⟩ ⟨2, ![m, n]⟩) (hd : d = DotDims.plain m k n)
    (A : FVec Ideal (⟨2, ![m, k]⟩ : Shape) .f32) (B : FVec Ideal (⟨2, ![k, n]⟩ : Shape) .f32)
    (r : FVec Ideal (⟨2, ![1, n]⟩ : Shape) .f32)
    (h1 : FTy.bits .bf16 < FTy.bits .f32)
    (hs : (⟨2, ![1, n]⟩ : Shape).ShapeCasts ⟨2, ![1, n]⟩) (hb : (⟨2, ![1, n]⟩ : Shape).Broadcasts ⟨2, ![m, n]⟩)
    (p : Fin m) (q : Fin n) :
    addf (matmul d none (truncf .bf16 A h1) (truncf .bf16 B h1) (constant (F := Ideal) (⟨2, ![m, n]⟩ : Shape) .f32 0x00000000#32))
        (broadcastTo (⟨2, ![m, n]⟩ : Shape) (shapeCast (⟨2, ![1, n]⟩ : Shape) r hs) hb) (ix2 p q)
      = (∑ c : Fin k, A (ix2 p c) * B (ix2 c q)) + r (ix2 (0 : Fin 1) q) := by
  subst hd
  rw [addf_apply, shapeCast_self, broadcastTo_1b_ab_apply]
  refine congrArg (· + r (ix2 (0 : Fin 1) q)) ?_
  exact (congrFun (matmul_zero_eq_dotGeneral (DotDims.plain m k n) none (truncf .bf16 A h1) (truncf .bf16 B h1)) (ix2 p q)).trans
    (StackMember.dotGeneral_plain_apply none (truncf .bf16 A h1) (truncf .bf16 B h1) p q)

/-! ## The concatenated row -/

/-- The three pieces side by side, read at (p, i): the spec's concatenated row p at i. -/
theorem cat_read (v0 : FVec Ideal S2000x32 .f32) (v1 : FVec Ideal S2000x64 .f32) (v3 : FVec Ideal S1x32 .f32) (p : Fin 2000) (i : Fin 128) :
    concatenate S2000x128 1 [⟨S2000x32, v0⟩, ⟨S2000x64, shapeCast S2000x64 v1 shapeCasts_S2000x64_S2000x64⟩,
        ⟨S2000x32, broadcastTo S2000x32 (shapeCast S1x32 v3 shapeCasts_S1x32_S1x32) broadcasts_S1x32_S2000x32⟩]
        concatenates_S2000x32_S2000x64_S2000x32_S2000x128_d1 (ix2 p i)
      = Cert.Spec.cat3 (fun k => v0 (ix2 p k)) (fun k => v1 (ix2 p k)) (fun k => v3 (ix2 (0 : Fin 1) k)) i := by
  unfold Cert.Spec.cat3
  have side : ∀ {n0 : Nat} (c : Fin n0) (b : Fin (⟨2, ![2000, n0]⟩ : Shape).rank)
      (hr : (⟨2, ![2000, n0]⟩ : Shape).rank = S2000x128.rank), b.cast hr ≠ (1 : Fin S2000x128.rank) →
      ((ix2 p c) b).val = ((ix2 p i) (b.cast hr)).val := by
    intro n0 c b hr hb
    match b, hb with
    | ⟨0, _⟩, _ => rfl
    | ⟨1, _⟩, hb => exact absurd rfl hb
  by_cases h0 : i.val < 32
  · rw [dif_pos h0]
    refine concatenate_apply_piece (1 : Fin S2000x128.rank) _ _ (ix2 p i) 0 (by show 0 < 3; omega) S2000x32 v0 rfl rfl 0 rfl
      (ix2 p (⟨i.val, h0⟩ : Fin 32)) (fun b hb => side _ b rfl hb) ?_
    show 0 + i.val = i.val
    omega
  · rw [dif_neg h0]
    by_cases h1 : i.val < 96
    · rw [dif_pos h1]
      refine (concatenate_apply_piece (1 : Fin S2000x128.rank) _ _ (ix2 p i) 1 (by show 1 < 3; omega) S2000x64 _ rfl rfl 32 rfl
        (ix2 p (⟨i.val - 32, by omega⟩ : Fin 64)) (fun b hb => side _ b rfl hb) ?_).trans ?_
      · show 32 + (i.val - 32) = i.val
        omega
      · rw [shapeCast_self]
    · rw [dif_neg h1]
      refine (concatenate_apply_piece (1 : Fin S2000x128.rank) _ _ (ix2 p i) 2 (by show 2 < 3; omega) S2000x32 _ rfl rfl 96 rfl
        (ix2 p (⟨i.val - 96, by have := i.isLt; omega⟩ : Fin 32)) (fun b hb => side _ b rfl hb) ?_).trans ?_
      · show 96 + (i.val - 96) = i.val
        omega
      · rw [broadcastTo_1b_ab_apply, shapeCast_self]

/-! ## The stored value at an index -/

/-- The value region 1's body stores, at row p and column q, is the perceptron of the concatenated row p. -/
theorem val1_apply (x0 : Vec Ideal S2000x32 .f32) (x1 : Vec Ideal S2000x64 .f32) (x2 : Vec Ideal S1x32 .f32) (x3 : Vec Ideal S128x64 .f32) (x4 : Vec Ideal S1x64 .f32) (x5 : Vec Ideal S64x64 .f32) (x6 : Vec Ideal S1x64 .f32) (p : Fin 2000) (q : Fin 64) :
    val1 (F := Ideal) x0 x1 x2 x3 x4 x5 x6 (ValueIdx.ix2 p q) = Cert.Spec.mlpRow (Cert.Spec.cat3 (fun k => x0 (ValueIdx.ix2 p k)) (fun k => x1 (ValueIdx.ix2 p k)) (fun k => x2 (ValueIdx.ix2 0 k))) (fun i j => x3 (ValueIdx.ix2 i j)) (fun j => x4 (ValueIdx.ix2 0 j)) (fun i j => x5 (ValueIdx.ix2 i j)) (fun j => x6 (ValueIdx.ix2 0 j)) q := by
  have hz : (![0, 0] : Fin 2 → Nat) = fun _ => 0 := by
    funext a; match a with | ⟨0, _⟩ => rfl | ⟨1, _⟩ => rfl
  unfold val1
  rw [View.ld_unit_zero (S := S2000x32) hz, View.ld_unit_zero (S := S2000x64) hz, View.ld_unit_zero (S := S1x32) hz,
    View.ld_unit_zero (S := S128x64) hz, View.ld_unit_zero (S := S1x64) hz, View.ld_unit_zero (S := S64x64) hz,
    View.ld_unit_zero (S := S1x64) hz]
  unfold k1_pay1 k1_pay3 k1_pay4
  refine (softplus_entry _).trans ?_
  unfold Cert.Spec.mlpRow Cert.Spec.dense
  refine congrArg Cert.Spec.sp ?_
  unfold k1_pay2
  refine (dense_read dot_S2000x64_S64x64_S2000x64_1_0_0_1_n_n rfl _ x5 x6 _ _ _ p q).trans ?_
  refine congrArg (fun t => t + x6 (ix2 (0 : Fin 1) q)) (Finset.sum_congr rfl fun c _ => congrArg (fun t => t * x5 (ix2 c q)) ?_)
  refine (softplus_entry _).trans (congrArg Cert.Spec.sp ?_)
  refine (dense_read dot_S2000x128_S128x64_S2000x64_1_0_0_1_n_n rfl _ x3 x4 _ _ _ p c).trans ?_
  refine congrArg (fun t => t + x4 (ix2 (0 : Fin 1) c)) (Finset.sum_congr rfl fun k _ => congrArg (fun t => t * x3 (ix2 k c)) ?_)
  exact cat_read x0 x1 x2 p k

end Cert.KernelIdeal.Hand

end
-- ==== Proof.KI.Blocks1.lean ====
/-
  Region 1, from blocks to the array. Grid point t of the node perceptron handles nodes 2000·t … 2000·t + 1999: its
  blocks of the node features, of the mean incoming message and of the output are rows 2000·t … of their arrays, and the
  five parameter windows are their whole arrays at every point. So what point t writes back is block t of ONE function of
  the arrays the region found, the node update `Cert.Spec.vNew`; the 25 blocks tile the 50000 rows (row r is in block
  r / 2000), so after the last point the output array is that function.
-/
import proofs.«409539_j52209622450458_2_alg».proof.Proof.KI.Region1
import proofs.«409539_j52209622450458_2_alg».proof.Proof.Spec
import proofs.«409539_j52209622450458_2_alg».proof.Proof.KI.Payload1
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window)

variable (V : (c : Dev nD) → (b : Ref sig .tc) → Buf (Elt Ideal) ((c : Thread nD τ).loc b))

theorem hz1 : (![0, 0] : Fin 2 → Nat) = fun _ => 0 := funext fun a => by fin_cases a <;> rfl

/-- The arrays the region finds, each by its literal type. -/
abbrev nf1 (c : Dev nD) : S50000x32.Idx → EReal := V c (Pipeline.arrRef spec1 0)
abbrev ve1 (c : Dev nD) : S50000x64.Idx → EReal := V c (Pipeline.arrRef spec1 1)
abbrev u1 (c : Dev nD) : S1x32.Idx → EReal := V c (Pipeline.arrRef spec1 2)
abbrev w11 (c : Dev nD) : S128x64.Idx → EReal := V c (Pipeline.arrRef spec1 3)
abbrev b11 (c : Dev nD) : S1x64.Idx → EReal := V c (Pipeline.arrRef spec1 4)
abbrev w21 (c : Dev nD) : S64x64.Idx → EReal := V c (Pipeline.arrRef spec1 5)
abbrev b21 (c : Dev nD) : S1x64.Idx → EReal := V c (Pipeline.arrRef spec1 6)

/-- The node update of the arrays the region finds. -/
abbrev G1 (c : Dev nD) : S50000x64.Idx → EReal :=
  Cert.Spec.vNew (nf1 V c) (ve1 V c) (Cert.Spec.row0 (u1 V c)) (w11 V c) (Cert.Spec.row0 (b11 V c)) (w21 V c) (Cert.Spec.row0 (b21 V c))

/-- The block index maps over the grid: the three node-indexed windows are at block (t, 0), the five parameter windows at
    block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-! ## Each input block, read off its array -/

/-- Block t of the node features is rows 2000·t … of the array. -/
theorem iblk1_0_apply (c : Dev nD) (t : Fin cfg1.N) (p : Fin 2000) (k : Fin 32) (r : Fin 50000) (hr : r.val = 2000 * t.val + p.val) :
    (iblk1 V c 0 t : Vec Ideal S2000x32 .f32) (ValueIdx.ix2 p k) = nf1 V c (ValueIdx.ix2 r k) := by
  obtain ⟨e00, e01, -⟩ := idx_facts1 t
  unfold iblk1
  rw [View.read_apply]
  show V c (Pipeline.arrRef spec1 0) _ = V c (Pipeline.arrRef spec1 0) _
  congr 1
  funext a
  apply Fin.ext
  match a with
  | ⟨0, _⟩ => show win1_0.index t (0 : Fin 2) * 2000 + 1 * p.val = r.val; rw [e00, hr]; omega
  | ⟨1, _⟩ => show win1_0.index t (1 : Fin 2) * 32 + 1 * k.val = k.val; rw [e01]; omega

/-- Block t of the mean incoming message is rows 2000·t … of the array. -/
theorem iblk1_1_apply (c : Dev nD) (t : Fin cfg1.N) (p : Fin 2000) (k : Fin 64) (r : Fin 50000) (hr : r.val = 2000 * t.val + p.val) :
    (iblk1 V c 1 t : Vec Ideal S2000x64 .f32) (ValueIdx.ix2 p k) = ve1 V c (ValueIdx.ix2 r k) := by
  obtain ⟨-, -, e10, e11, -⟩ := idx_facts1 t
  unfold iblk1
  rw [View.read_apply]
  show V c (Pipeline.arrRef spec1 1) _ = V c (Pipeline.arrRef spec1 1) _
  congr 1
  funext a
  apply Fin.ext
  match a with
  | ⟨0, _⟩ => show win1_1.index t (0 : Fin 2) * 2000 + 1 * p.val = r.val; rw [e10, hr]; omega
  | ⟨1, _⟩ => show win1_1.index t (1 : Fin 2) * 64 + 1 * k.val = k.val; rw [e11]; omega

/-- The graph attribute's block at every point is the array. -/
theorem iblk1_2_apply (c : Dev nD) (t : Fin cfg1.N) (i : Fin 1) (k : Fin 32) :
    (iblk1 V c 2 t : Vec Ideal S1x32 .f32) (ValueIdx.ix2 i k) = u1 V c (ValueIdx.ix2 i k) := by
  obtain ⟨-, -, -, -, e20, e21, -⟩ := idx_facts1 t
  unfold iblk1
  rw [View.read_apply]
  show V c (Pipeline.arrRef spec1 2) _ = V c (Pipeline.arrRef spec1 2) _
  congr 1
  funext a
  apply Fin.ext
  match a with
  | ⟨0, _⟩ => show win1_2.index t (0 : Fin 2) * 1 + 1 * i.val = i.val; rw [e20]; omega
  | ⟨1, _⟩ => show win1_2.index t (1 : Fin 2) * 32 + 1 * k.val = k.val; rw [e21]; omega

/-- The first layer's block at every point is the array. -/
theorem iblk1_3_apply (c : Dev nD) (t : Fin cfg1.N) (i : Fin 128) (k : Fin 64) :
    (iblk1 V c 3 t : Vec Ideal S128x64 .f32) (ValueIdx.ix2 i k) = w11 V c (ValueIdx.ix2 i k) := by
  obtain ⟨-, -, -, -, -, -, e30, e31, -⟩ := idx_facts1 t
  unfold iblk1
  rw [View.read_apply]
  show V c (Pipeline.arrRef spec1 3) _ = V c (Pipeline.arrRef spec1 3) _
  congr 1
  funext a
  apply Fin.ext
  match a with
  | ⟨0, _⟩ => show win1_3.index t (0 : Fin 2) * 128 + 1 * i.val = i.val; rw [e30]; omega
  | ⟨1, _⟩ => show win1_3.index t (1 : Fin 2) * 64 + 1 * k.val = k.val; rw [e31]; omega

/-- The first bias's block at every point is the array. -/
theorem iblk1_4_apply (c : Dev nD) (t : Fin cfg1.N) (i : Fin 1) (k : Fin 64) :
    (iblk1 V c 4 t : Vec Ideal S1x64 .f32) (ValueIdx.ix2 i k) = b11 V c (ValueIdx.ix2 i k) := by
  obtain ⟨-, -, -, -, -, -, -, -, e40, e41, -⟩ := idx_facts1 t
  unfold iblk1
  rw [View.read_apply]
  show V c (Pipeline.arrRef spec1 4) _ = V c (Pipeline.arrRef spec1 4) _
  congr 1
  funext a
  apply Fin.ext
  match a with
  | ⟨0, _⟩ => show win1_4.index t (0 : Fin 2) * 1 + 1 * i.val = i.val; rw [e40]; omega
  | ⟨1, _⟩ => show win1_4.index t (1 : Fin 2) * 64 + 1 * k.val = k.val; rw [e41]; omega

/-- The second layer's block at every point is the array. -/
theorem iblk1_5_apply (c : Dev nD) (t : Fin cfg1.N) (i : Fin 64) (k : Fin 64) :
    (iblk1 V c 5 t : Vec Ideal S64x64 .f32) (ValueIdx.ix2 i k) = w21 V c (ValueIdx.ix2 i k) := by
  obtain ⟨-, -, -, -, -, -, -, -, -, -, e50, e51, -⟩ := idx_facts1 t
  unfold iblk1
  rw [View.read_apply]
  show V c (Pipeline.arrRef spec1 5) _ = V c (Pipeline.arrRef spec1 5) _
  congr 1
  funext a
  apply Fin.ext
  match a with
  | ⟨0, _⟩ => show win1_5.index t (0 : Fin 2) * 64 + 1 * i.val = i.val; rw [e50]; omega
  | ⟨1, _⟩ => show win1_5.index t (1 : Fin 2) * 64 + 1 * k.val = k.val; rw [e51]; omega

/-- The second bias's block at every point is the array. -/
theorem iblk1_6_apply (c : Dev nD) (t : Fin cfg1.N) (i : Fin 1) (k : Fin 64) :
    (iblk1 V c 6 t : Vec Ideal S1x64 .f32) (ValueIdx.ix2 i k) = b21 V c (ValueIdx.ix2 i k) := by
  obtain ⟨-, -, -, -, -, -, -, -, -, -, -, -, e60, e61, -⟩ := idx_facts1 t
  unfold iblk1
  rw [View.read_apply]
  show V c (Pipeline.arrRef spec1 6) _ = V c (Pipeline.arrRef spec1 6) _
  congr 1
  funext a
  apply Fin.ext
  match a with
  | ⟨0, _⟩ => show win1_6.index t (0 : Fin 2) * 1 + 1 * i.val = i.val; rw [e60]; omega
  | ⟨1, _⟩ => show win1_6.index t (1 : Fin 2) * 64 + 1 * k.val = k.val; rw [e61]; omega

/-! ## What a point writes back -/

/-- An element of the output's block at point t sits in the array at row 2000·t + its row, at its own column. -/
theorem oblk1_emb (t : Fin cfg1.N) (p : Fin 2000) (q : Fin 64) (r : Fin 50000) (hr : r.val = 2000 * t.val + p.val) :
    ((cfg1.win 7).blk t).view.emb (ValueIdx.ix2 p q : S2000x64.Idx) = (ValueIdx.ix2 r q : S50000x64.Idx) := by
  obtain ⟨-, -, -, -, -, -, -, -, -, -, -, -, -, -, e70, e71⟩ := idx_facts1 t
  funext a
  apply Fin.ext
  match a with
  | ⟨0, _⟩ => show win1_7.index t (0 : Fin 2) * 2000 + 1 * p.val = r.val; rw [e70, hr]; omega
  | ⟨1, _⟩ => show win1_7.index t (1 : Fin 2) * 64 + 1 * q.val = q.val; rw [e71]; omega

/-- WHAT POINT t WRITES BACK is block t of the node update of the arrays the region found. -/
theorem flushed1_eq (c : Dev nD) (t : Fin cfg1.N) :
    (dat1 (F := Ideal) V c).flushed 7 t = ((cfg1.win 7).blk t).view.read (Elt Ideal) (G1 V c) := by
  show (cfg1.win 7).cut (grid1.coords t) ((dat1 V c).after 7 t) = _
  rw [after1_7]
  unfold out1_7
  rw [View.canon_unit_zero hz1]
  refine funext fun (j : S2000x64.Idx) => ?_
  obtain ⟨p, q, rfl⟩ : ∃ (p : Fin 2000) (q : Fin 64), j = ValueIdx.ix2 p q := ⟨j 0, j 1, ValueIdx.eq_ix2 j⟩
  have ht : t.val < 25 := Nat.lt_of_lt_of_eq t.isLt N_1
  obtain ⟨r, hr⟩ : ∃ r : Fin 50000, r.val = 2000 * t.val + p.val := ⟨⟨2000 * t.val + p.val, by have := p.isLt; omega⟩, rfl⟩
  show val1 (iblk1 V c 0 t) (iblk1 V c 1 t) (iblk1 V c 2 t) (iblk1 V c 3 t) (iblk1 V c 4 t) (iblk1 V c 5 t) (iblk1 V c 6 t) (ValueIdx.ix2 p q)
    = G1 V c (((cfg1.win 7).blk t).view.emb (ValueIdx.ix2 p q : S2000x64.Idx))
  rw [oblk1_emb t p q r hr, val1_apply]
  show _ = Cert.Spec.mlpRow (Cert.Spec.cat3 (fun k => nf1 V c (ValueIdx.ix2 r k)) (fun k => ve1 V c (ValueIdx.ix2 r k)) (fun k => u1 V c (ValueIdx.ix2 0 k)))
    (fun i j => w11 V c (ValueIdx.ix2 i j)) (fun j => b11 V c (ValueIdx.ix2 0 j)) (fun i j => w21 V c (ValueIdx.ix2 i j)) (fun j => b21 V c (ValueIdx.ix2 0 j)) q
  simp only [iblk1_0_apply V c t p _ r hr, iblk1_1_apply V c t p _ r hr, iblk1_2_apply V c t, iblk1_3_apply V c t, iblk1_4_apply V c t,
    iblk1_5_apply V c t, iblk1_6_apply V c t]

/-! ## The cover, and the array -/

/-- An index of the output array is in point t's block iff each coordinate is in the block's range on its axis. -/
theorem mem_blk1 (t : Fin cfg1.N) (i : S50000x64.Idx) :
    i ∈ ((cfg1.win 7).blk t).view.set ↔ ∀ a : Fin 2, win1_7.index t a * S2000x64.size a ≤ (i a).val ∧ (i a).val < win1_7.index t a * S2000x64.size a + S2000x64.size a := by
  show i ∈ ((View.whole main_v19).slice (win1_7.rect t)).set ↔ _
  rw [View.set_slice_whole, Rect.mem_set_unit]
  exact Iff.rfl

/-- Row r of the output array is in the block of point r / 2000. -/
theorem cover1 (i : S50000x64.Idx) : ∃ t : Fin cfg1.N, (cfg1.win 7).flush t = true ∧ i ∈ ((cfg1.win 7).blk t).view.set := by
  have hi0 : (i 0).val < 50000 := (i 0).isLt
  have hi1 : (i 1).val < 64 := (i 1).isLt
  have hN : cfg1.N = 25 := N_1
  have hlt : (i 0).val / 2000 < cfg1.N := by rw [hN]; omega
  refine ⟨⟨(i 0).val / 2000, hlt⟩, flush1_7 _, ?_⟩
  obtain ⟨-, -, -, -, -, -, -, -, -, -, -, -, -, -, e70, e71⟩ := idx_facts1 ⟨(i 0).val / 2000, hlt⟩
  have q0 : win1_7.index ⟨(i 0).val / 2000, hlt⟩ (0 : Fin 2) = (i 0).val / 2000 := e70
  rw [mem_blk1]
  intro a
  match a with
  | ⟨0, _⟩ => show win1_7.index ⟨(i 0).val / 2000, hlt⟩ (0 : Fin 2) * 2000 ≤ (i 0).val ∧ (i 0).val < win1_7.index ⟨(i 0).val / 2000, hlt⟩ (0 : Fin 2) * 2000 + 2000; rw [q0]; omega
  | ⟨1, _⟩ => show win1_7.index ⟨(i 0).val / 2000, hlt⟩ (1 : Fin 2) * 64 ≤ (i 1).val ∧ (i 1).val < win1_7.index ⟨(i 0).val / 2000, hlt⟩ (1 : Fin 2) * 64 + 64; rw [e71]; omega

/-- THE OUTPUT ARRAY after the region's 25 points: the node update of the arrays the region found. -/
theorem arr1_eq (V : (c : Dev nD) → (b : Ref sig .tc) → Buf (Elt Ideal) ((c : Thread nD τ).loc b)) (c : Dev nD) :
    (dat1 (F := Ideal) V c).arrAt 7 cfg1.N = Cert.Spec.vNew (V c (Pipeline.arrRef spec1 0)) (V c (Pipeline.arrRef spec1 1)) (Cert.Spec.row0 (V c (Pipeline.arrRef spec1 2))) (V c (Pipeline.arrRef spec1 3)) (Cert.Spec.row0 (V c (Pipeline.arrRef spec1 4))) (V c (Pipeline.arrRef spec1 5)) (Cert.Spec.row0 (V c (Pipeline.arrRef spec1 6))) :=
  (dat1 (F := Ideal) V c).arrAt_eq_of_cover 7 (G1 V c) (fun t _ => flushed1_eq V c t) cover1

end Cert.KernelIdeal.Hand

end
-- ==== Proof.RI.Rows.lean ====
/-
  The reference's two perceptron updates, entry by entry.

  Its softplus is select (z ≠ z, unordered too) (x + 0) (max x 0 + log1p (exp (-|x - 0|))) with z = x - 0: on the extended
  reals z ≠ z never holds, so it is max x 0 + log1p (exp (-|x|)).  A matrix product reads, at (r, j), the sum over k of
  the left factor at (r, k) times the right at (k, j); a bias broadcast along the rows reads at (r, j) the bias at j;
  matrices of one height laid side by side read, at (r, k), the piece whose span of columns holds k, at the column less
  the widths before it.  Hence the edge update is the two-layer perceptron of the row [v_src | v_dst | e | u] and the
  node update that of [v | mean message | u], the gathered rows and the mean message kept as they are.
-/
import proofs.«409539_j52209622450458_2_alg».proof.Proof.RI.Read
import proofs.«409539_j52209622450458_2_alg».proof.Proof.Spec
import Idealize.ShloMosaic.Lib.Pipeline.Value
import Idealize.ShloMosaic.Lib.ValueIdx
import Idealize.ShloMosaic.PureOps.Ideal.Laws

noncomputable section

namespace Cert.ReferenceIdeal.Rows

open Cert.ReferenceIdeal Cert.ReferenceIdeal.Gen Idealize.ShloMosaic Idealize.ShloMosaic.ValueIdx
open Cert.ReferenceIdeal.ReadP

/-! ## Softplus at one entry -/

/-- The zero word. -/
abbrev Z : Ideal .f32 := FloatOps.ofBits (F := Ideal) .f32 0x00000000#32

/-- The reference's softplus at one entry, as its operations spell it. -/
def spHost (x : Ideal .f32) : Ideal .f32 :=
  Scalar.select (FloatOps.cmpf .une (FloatOps.subf x Z) (FloatOps.subf x Z)) (FloatOps.addf x Z)
    (FloatOps.addf (FloatOps.maximumf x Z)
      (FloatOps.hostUnary .log1p (FloatOps.hostUnary .exp (FloatOps.hostNegf (FloatOps.hostAbsf (FloatOps.subf x Z))))))

/-- No extended real differs from itself, so the select takes its second branch; x - 0 = x. -/
theorem spHost_eq (x : Ideal .f32) : spHost x = Cert.Spec.sp x := by
  have hc : Ideal.cmp .une x x = 0#1 := by simp [Ideal.cmp]
  unfold spHost Cert.Spec.sp
  simp only [Ideal.ofBits_def, Ideal.ofBits_zero_f32, Ideal.subf_def, Ideal.addf_def, Ideal.maximumf_def,
    Ideal.hostUnary_log1p_def, Ideal.hostUnary_exp_def, Ideal.hostNegf_def, Ideal.negf_def, Ideal.hostAbsf_def,
    Ideal.cmpf_def, sub_zero, hc, select_zero]

/-! ## Matrices of one height laid side by side, read at an entry -/

section Cat4
variable {α : Type} {r n1 n2 n3 n4 n : Nat}
  (y1 : (⟨2, ![r, n1]⟩ : Shape).Idx → α) (y2 : (⟨2, ![r, n2]⟩ : Shape).Idx → α)
  (y3 : (⟨2, ![r, n3]⟩ : Shape).Idx → α) (y4 : (⟨2, ![r, n4]⟩ : Shape).Idx → α)
  (h : Shape.Concatenates [(⟨2, ![r, n1]⟩ : Shape), ⟨2, ![r, n2]⟩, ⟨2, ![r, n3]⟩, ⟨2, ![r, n4]⟩] ⟨2, ![r, n]⟩ 1)

theorem hcat4_1 (p : Fin r) (k : Fin n) (i : Fin n1) (hk : k.val = i.val) :
    concatenate ⟨2, ![r, n]⟩ 1 [⟨⟨2, ![r, n1]⟩, y1⟩, ⟨⟨2, ![r, n2]⟩, y2⟩, ⟨⟨2, ![r, n3]⟩, y3⟩, ⟨⟨2, ![r, n4]⟩, y4⟩] h (ix2 p k) = y1 (ix2 p i) :=
  concatenate_apply_piece (t := ⟨2, ![r, n]⟩) (1 : Fin 2) [⟨⟨2, ![r, n1]⟩, y1⟩, ⟨⟨2, ![r, n2]⟩, y2⟩, ⟨⟨2, ![r, n3]⟩, y3⟩, ⟨⟨2, ![r, n4]⟩, y4⟩] h (ix2 p k)
    0 (by simp) ⟨2, ![r, n1]⟩ y1 rfl rfl 0 rfl (ix2 p i)
    (fun b hb => by
      match b, hb with
      | ⟨0, _⟩, _ => rfl
      | ⟨1, _⟩, hb => exact absurd rfl hb)
    (by show 0 + i.val = k.val; omega)

theorem hcat4_2 (p : Fin r) (k : Fin n) (i : Fin n2) (hk : k.val = n1 + i.val) :
    concatenate ⟨2, ![r, n]⟩ 1 [⟨⟨2, ![r, n1]⟩, y1⟩, ⟨⟨2, ![r, n2]⟩, y2⟩, ⟨⟨2, ![r, n3]⟩, y3⟩, ⟨⟨2, ![r, n4]⟩, y4⟩] h (ix2 p k) = y2 (ix2 p i) :=
  concatenate_apply_piece (t := ⟨2, ![r, n]⟩) (1 : Fin 2) [⟨⟨2, ![r, n1]⟩, y1⟩, ⟨⟨2, ![r, n2]⟩, y2⟩, ⟨⟨2, ![r, n3]⟩, y3⟩, ⟨⟨2, ![r, n4]⟩, y4⟩] h (ix2 p k)
    1 (by simp) ⟨2, ![r, n2]⟩ y2 rfl rfl n1 (by simp) (ix2 p i)
    (fun b hb => by
      match b, hb with
      | ⟨0, _⟩, _ => rfl
      | ⟨1, _⟩, hb => exact absurd rfl hb)
    (by show n1 + i.val = k.val; omega)

theorem hcat4_3 (p : Fin r) (k : Fin n) (i : Fin n3) (hk : k.val = n1 + n2 + i.val) :
    concatenate ⟨2, ![r, n]⟩ 1 [⟨⟨2, ![r, n1]⟩, y1⟩, ⟨⟨2, ![r, n2]⟩, y2⟩, ⟨⟨2, ![r, n3]⟩, y3⟩, ⟨⟨2, ![r, n4]⟩, y4⟩] h (ix2 p k) = y3 (ix2 p i) :=
  concatenate_apply_piece (t := ⟨2, ![r, n]⟩) (1 : Fin 2) [⟨⟨2, ![r, n1]⟩, y1⟩, ⟨⟨2, ![r, n2]⟩, y2⟩, ⟨⟨2, ![r, n3]⟩, y3⟩, ⟨⟨2, ![r, n4]⟩, y4⟩] h (ix2 p k)
    2 (by simp) ⟨2, ![r, n3]⟩ y3 rfl rfl (n1 + n2) (by simp) (ix2 p i)
    (fun b hb => by
      match b, hb with
      | ⟨0, _⟩, _ => rfl
      | ⟨1, _⟩, hb => exact absurd rfl hb)
    (by show n1 + n2 + i.val = k.val; omega)

theorem hcat4_4 (p : Fin r) (k : Fin n) (i : Fin n4) (hk : k.val = n1 + n2 + n3 + i.val) :
    concatenate ⟨2, ![r, n]⟩ 1 [⟨⟨2, ![r, n1]⟩, y1⟩, ⟨⟨2, ![r, n2]⟩, y2⟩, ⟨⟨2, ![r, n3]⟩, y3⟩, ⟨⟨2, ![r, n4]⟩, y4⟩] h (ix2 p k) = y4 (ix2 p i) :=
  concatenate_apply_piece (t := ⟨2, ![r, n]⟩) (1 : Fin 2) [⟨⟨2, ![r, n1]⟩, y1⟩, ⟨⟨2, ![r, n2]⟩, y2⟩, ⟨⟨2, ![r, n3]⟩, y3⟩, ⟨⟨2, ![r, n4]⟩, y4⟩] h (ix2 p k)
    3 (by simp) ⟨2, ![r, n4]⟩ y4 rfl rfl (n1 + n2 + n3) (by simp [Nat.add_assoc]) (ix2 p i)
    (fun b hb => by
      match b, hb with
      | ⟨0, _⟩, _ => rfl
      | ⟨1, _⟩, hb => exact absurd rfl hb)
    (by show n1 + n2 + n3 + i.val = k.val; omega)

end Cat4

section Cat3
variable {α : Type} {r n1 n2 n3 n : Nat}
  (y1 : (⟨2, ![r, n1]⟩ : Shape).Idx → α) (y2 : (⟨2, ![r, n2]⟩ : Shape).Idx → α) (y3 : (⟨2, ![r, n3]⟩ : Shape).Idx → α)
  (h : Shape.Concatenates [(⟨2, ![r, n1]⟩ : Shape), ⟨2, ![r, n2]⟩, ⟨2, ![r, n3]⟩] ⟨2, ![r, n]⟩ 1)

theorem hcat3_1 (p : Fin r) (k : Fin n) (i : Fin n1) (hk : k.val = i.val) :
    concatenate ⟨2, ![r, n]⟩ 1 [⟨⟨2, ![r, n1]⟩, y1⟩, ⟨⟨2, ![r, n2]⟩, y2⟩, ⟨⟨2, ![r, n3]⟩, y3⟩] h (ix2 p k) = y1 (ix2 p i) :=
  concatenate_apply_piece (t := ⟨2, ![r, n]⟩) (1 : Fin 2) [⟨⟨2, ![r, n1]⟩, y1⟩, ⟨⟨2, ![r, n2]⟩, y2⟩, ⟨⟨2, ![r, n3]⟩, y3⟩] h (ix2 p k)
    0 (by simp) ⟨2, ![r, n1]⟩ y1 rfl rfl 0 rfl (ix2 p i)
    (fun b hb => by
      match b, hb with
      | ⟨0, _⟩, _ => rfl
      | ⟨1, _⟩, hb => exact absurd rfl hb)
    (by show 0 + i.val = k.val; omega)

theorem hcat3_2 (p : Fin r) (k : Fin n) (i : Fin n2) (hk : k.val = n1 + i.val) :
    concatenate ⟨2, ![r, n]⟩ 1 [⟨⟨2, ![r, n1]⟩, y1⟩, ⟨⟨2, ![r, n2]⟩, y2⟩, ⟨⟨2, ![r, n3]⟩, y3⟩] h (ix2 p k) = y2 (ix2 p i) :=
  concatenate_apply_piece (t := ⟨2, ![r, n]⟩) (1 : Fin 2) [⟨⟨2, ![r, n1]⟩, y1⟩, ⟨⟨2, ![r, n2]⟩, y2⟩, ⟨⟨2, ![r, n3]⟩, y3⟩] h (ix2 p k)
    1 (by simp) ⟨2, ![r, n2]⟩ y2 rfl rfl n1 (by simp) (ix2 p i)
    (fun b hb => by
      match b, hb with
      | ⟨0, _⟩, _ => rfl
      | ⟨1, _⟩, hb => exact absurd rfl hb)
    (by show n1 + i.val = k.val; omega)

theorem hcat3_3 (p : Fin r) (k : Fin n) (i : Fin n3) (hk : k.val = n1 + n2 + i.val) :
    concatenate ⟨2, ![r, n]⟩ 1 [⟨⟨2, ![r, n1]⟩, y1⟩, ⟨⟨2, ![r, n2]⟩, y2⟩, ⟨⟨2, ![r, n3]⟩, y3⟩] h (ix2 p k) = y3 (ix2 p i) :=
  concatenate_apply_piece (t := ⟨2, ![r, n]⟩) (1 : Fin 2) [⟨⟨2, ![r, n1]⟩, y1⟩, ⟨⟨2, ![r, n2]⟩, y2⟩, ⟨⟨2, ![r, n3]⟩, y3⟩] h (ix2 p k)
    2 (by simp) ⟨2, ![r, n3]⟩ y3 rfl rfl (n1 + n2) (by simp) (ix2 p i)
    (fun b hb => by
      match b, hb with
      | ⟨0, _⟩, _ => rfl
      | ⟨1, _⟩, hb => exact absurd rfl hb)
    (by show n1 + n2 + i.val = k.val; omega)

end Cat3

/-! ## Index functions given coordinate by coordinate -/

theorem ix2_ext {n0 n1 : Nat} (f : (⟨2, ![n0, n1]⟩ : Shape).Idx) (a : Fin n0) (b : Fin n1) (h0 : f 0 = a) (h1 : f 1 = b) :
    f = ix2 a b := by
  funext d
  match d with
  | ⟨0, _⟩ => exact h0
  | ⟨1, _⟩ => exact h1

theorem ix1_ext {n : Nat} (f : (⟨1, ![n]⟩ : Shape).Idx) (a : Fin n) (h0 : f 0 = a) : f = ix1 a := by
  funext d
  match d with
  | ⟨0, _⟩ => exact h0

/-! ## The arguments of @main -/

variable (x0 : (⟨S1600000x32, .f32⟩ : BufTy).Contents (Elt Ideal)) (x1 : (⟨S50000x32, .f32⟩ : BufTy).Contents (Elt Ideal)) (x2 : (⟨S1x32, .f32⟩ : BufTy).Contents (Elt Ideal))
  (x3 x4 : (⟨S1600000, .i32⟩ : BufTy).Contents (Elt Ideal)) (x5 : (⟨S128x64, .f32⟩ : BufTy).Contents (Elt Ideal)) (x6 : (⟨S64, .f32⟩ : BufTy).Contents (Elt Ideal))
  (x7 : (⟨S64x64, .f32⟩ : BufTy).Contents (Elt Ideal)) (x8 : (⟨S64, .f32⟩ : BufTy).Contents (Elt Ideal)) (x9 : (⟨S128x64, .f32⟩ : BufTy).Contents (Elt Ideal))
  (x10 : (⟨S64, .f32⟩ : BufTy).Contents (Elt Ideal)) (x11 : (⟨S64x64, .f32⟩ : BufTy).Contents (Elt Ideal)) (x12 : (⟨S64, .f32⟩ : BufTy).Contents (Elt Ideal))

/-! ## The four softplus calls -/

/-- Stage main_v21 is softplus of stage main_v20, entry by entry. -/
theorem v21_sp (i : S1600000x64.Idx) :
    val_main_v21 (F := Ideal) x0 x1 x2 x3 x4 x5 x6 i = Cert.Spec.sp (val_main_v20 (F := Ideal) x0 x1 x2 x3 x4 x5 x6 i) := by
  rw [val_main_v21_apply, val_main_call0_v4_apply, val_main_call0_v6_apply, val_main_call0_v11_apply, val_main_call0_v1_apply, val_main_call0_v10_apply,
    val_main_call0_v9_apply, val_main_call0_v8_apply, val_main_call0_v7_apply, val_main_call0_v3_apply, val_main_call0_v0_apply, val_main_call0_v2_apply,
    val_main_call0_v5_apply, val_main_call0_cst_apply]
  exact spHost_eq _

/-- Stage main_v26 is softplus of stage main_v25, entry by entry. -/
theorem v26_sp (i : S1600000x64.Idx) :
    val_main_v26 (F := Ideal) x0 x1 x2 x3 x4 x5 x6 x7 x8 i = Cert.Spec.sp (val_main_v25 (F := Ideal) x0 x1 x2 x3 x4 x5 x6 x7 x8 i) := by
  rw [val_main_v26_apply, val_main_call1_v4_apply, val_main_call1_v6_apply, val_main_call1_v11_apply, val_main_call1_v1_apply, val_main_call1_v10_apply,
    val_main_call1_v9_apply, val_main_call1_v8_apply, val_main_call1_v7_apply, val_main_call1_v3_apply, val_main_call1_v0_apply, val_main_call1_v2_apply,
    val_main_call1_v5_apply, val_main_call1_cst_apply]
  exact spHost_eq _

/-- Stage main_v45 is softplus of stage main_v44, entry by entry. -/
theorem v45_sp (i : S50000x64.Idx) :
    val_main_v45 (F := Ideal) x0 x1 x2 x3 x4 x5 x6 x7 x8 x9 x10 i = Cert.Spec.sp (val_main_v44 (F := Ideal) x0 x1 x2 x3 x4 x5 x6 x7 x8 x9 x10 i) := by
  rw [val_main_v45_apply, val_main_call2_v4_apply, val_main_call2_v6_apply, val_main_call2_v11_apply, val_main_call2_v1_apply, val_main_call2_v10_apply,
    val_main_call2_v9_apply, val_main_call2_v8_apply, val_main_call2_v7_apply, val_main_call2_v3_apply, val_main_call2_v0_apply, val_main_call2_v2_apply,
    val_main_call2_v5_apply, val_main_call2_cst_apply]
  exact spHost_eq _

/-- Stage main_v50 is softplus of stage main_v49, entry by entry. -/
theorem v50_sp (i : S50000x64.Idx) :
    val_main_v50 (F := Ideal) x0 x1 x2 x3 x4 x5 x6 x7 x8 x9 x10 x11 x12 i = Cert.Spec.sp (val_main_v49 (F := Ideal) x0 x1 x2 x3 x4 x5 x6 x7 x8 x9 x10 x11 x12 i) := by
  rw [val_main_v50_apply, val_main_call3_v4_apply, val_main_call3_v6_apply, val_main_call3_v11_apply, val_main_call3_v1_apply, val_main_call3_v10_apply,
    val_main_call3_v9_apply, val_main_call3_v8_apply, val_main_call3_v7_apply, val_main_call3_v3_apply, val_main_call3_v0_apply, val_main_call3_v2_apply,
    val_main_call3_v5_apply, val_main_call3_cst_apply]
  exact spHost_eq _

/-! ## The edge update -/

/-- Row r of the edge perceptron's input: [v_src | v_dst | e | u]. -/
abbrev erow (r : Fin 1600000) : Fin 128 → EReal :=
  Cert.Spec.cat4 (Cert.Spec.rows (val_main_v7 (F := Ideal) x1 x3) r) (Cert.Spec.rows (val_main_v14 (F := Ideal) x1 x4) r) (Cert.Spec.rows x0 r) (Cert.Spec.row0 x2)

/-- The four pieces side by side, at (r, m); the graph attribute's row is the same for every r. -/
theorem v16_at (r : Fin 1600000) (m : Fin 128) :
    val_main_v16 (F := Ideal) x0 x1 x2 x3 x4 (ix2 r m) = erow x0 x1 x2 x3 x4 r m := by
  unfold val_main_v16 erow Cert.Spec.cat4
  split_ifs with h0 h1 h2
  · exact hcat4_1 _ _ _ _ _ r m ⟨m.val, h0⟩ rfl
  · exact hcat4_2 _ _ _ _ _ r m ⟨m.val - 32, by omega⟩ (by show m.val = 32 + (m.val - 32); omega)
  · exact hcat4_3 _ _ _ _ _ r m ⟨m.val - 64, by omega⟩ (by show m.val = 32 + 32 + (m.val - 64); omega)
  · rw [hcat4_4 _ _ _ _ _ r m ⟨m.val - 96, by omega⟩ (by show m.val = 32 + 32 + 32 + (m.val - 96); omega),
      val_main_v15_apply, val_main_v0_apply]
    exact congrArg x2 (funext fun a => by
      match a with
      | ⟨0, _⟩ => rfl
      | ⟨1, _⟩ => exact Fin.ext (Nat.mod_eq_of_lt (by show m.val - 96 < 32; omega)))

/-- The first layer before its softplus, at (r, k). -/
theorem v20_at (r : Fin 1600000) (k : Fin 64) :
    val_main_v20 (F := Ideal) x0 x1 x2 x3 x4 x5 x6 (ix2 r k)
      = (∑ m : Fin 128, erow x0 x1 x2 x3 x4 r m * Cert.Spec.rows x5 m k) + Cert.Spec.vec x6 k := by
  have e1 : ∀ m : Fin 128, val_main_v16 (F := Ideal) x0 x1 x2 x3 x4 (lidx_main_v17 (ix2 r k) m) * x5 (ridx_main_v17 (ix2 r k) m)
      = erow x0 x1 x2 x3 x4 r m * Cert.Spec.rows x5 m k := fun m => by
    rw [show lidx_main_v17 (ix2 r k) m = ix2 r m from ix2_ext _ _ _ rfl rfl,
      show ridx_main_v17 (ix2 r k) m = ix2 m k from ix2_ext _ _ _ rfl rfl, v16_at]
    rfl
  rw [val_main_v20_apply, val_main_v17_apply, val_main_v19_apply, val_main_v18_apply, Ideal.addf_def]
  simp only [e1]
  rw [show idx_main_v18 (idx_main_v19 (ix2 r k)) = ix1 k from ix1_ext _ _ rfl]
  rfl

/-- The first layer, at (r, k). -/
theorem v21_at (r : Fin 1600000) (k : Fin 64) :
    val_main_v21 (F := Ideal) x0 x1 x2 x3 x4 x5 x6 (ix2 r k)
      = Cert.Spec.dense (erow x0 x1 x2 x3 x4 r) (Cert.Spec.rows x5) (Cert.Spec.vec x6) k := by
  rw [v21_sp, v20_at]
  rfl

/-- The second layer before its softplus, at (r, j). -/
theorem v25_at (r : Fin 1600000) (j : Fin 64) :
    val_main_v25 (F := Ideal) x0 x1 x2 x3 x4 x5 x6 x7 x8 (ix2 r j)
      = (∑ k : Fin 64, Cert.Spec.dense (erow x0 x1 x2 x3 x4 r) (Cert.Spec.rows x5) (Cert.Spec.vec x6) k * Cert.Spec.rows x7 k j)
        + Cert.Spec.vec x8 j := by
  have e1 : ∀ k : Fin 64, val_main_v21 (F := Ideal) x0 x1 x2 x3 x4 x5 x6 (lidx_main_v22 (ix2 r j) k) * x7 (ridx_main_v22 (ix2 r j) k)
      = Cert.Spec.dense (erow x0 x1 x2 x3 x4 r) (Cert.Spec.rows x5) (Cert.Spec.vec x6) k * Cert.Spec.rows x7 k j := fun k => by
    rw [show lidx_main_v22 (ix2 r j) k = ix2 r k from ix2_ext _ _ _ rfl rfl,
      show ridx_main_v22 (ix2 r j) k = ix2 k j from ix2_ext _ _ _ rfl rfl, v21_at]
    rfl
  rw [val_main_v25_apply, val_main_v22_apply, val_main_v24_apply, val_main_v23_apply, Ideal.addf_def]
  simp only [e1]
  rw [show idx_main_v23 (idx_main_v24 (ix2 r j)) = ix1 j from ix1_ext _ _ rfl]
  rfl

/-- The edge update is the perceptron of the row [v_src | v_dst | e | u], entry by entry. -/
theorem v26_rows :
    val_main_v26 (F := Ideal) x0 x1 x2 x3 x4 x5 x6 x7 x8
      = Cert.Spec.eNew (val_main_v7 (F := Ideal) x1 x3) (val_main_v14 (F := Ideal) x1 x4) x0 (Cert.Spec.row0 x2) x5 (Cert.Spec.vec x6) x7 (Cert.Spec.vec x8) := by
  funext i
  obtain ⟨r, j, rfl⟩ : ∃ (r : Fin 1600000) (j : Fin 64), i = ix2 r j := ⟨i 0, i 1, eq_ix2 i⟩
  rw [v26_sp, v25_at]
  rfl

/-! ## The node update -/

/-- Row r of the node perceptron's input: [v | mean message | u]. -/
abbrev nrow (r : Fin 50000) : Fin 128 → EReal :=
  Cert.Spec.cat3 (Cert.Spec.rows x1 r) (Cert.Spec.rows (val_main_v38 (F := Ideal) x0 x1 x2 x3 x4 x5 x6 x7 x8) r) (Cert.Spec.row0 x2)

/-- The three pieces side by side, at (r, m). -/
theorem v40_at (r : Fin 50000) (m : Fin 128) :
    val_main_v40 (F := Ideal) x0 x1 x2 x3 x4 x5 x6 x7 x8 (ix2 r m) = nrow x0 x1 x2 x3 x4 x5 x6 x7 x8 r m := by
  unfold val_main_v40 nrow Cert.Spec.cat3
  split_ifs with h0 h1
  · exact hcat3_1 _ _ _ _ r m ⟨m.val, h0⟩ rfl
  · exact hcat3_2 _ _ _ _ r m ⟨m.val - 32, by omega⟩ (by show m.val = 32 + (m.val - 32); omega)
  · rw [hcat3_3 _ _ _ _ r m ⟨m.val - 96, by omega⟩ (by show m.val = 32 + 64 + (m.val - 96); omega),
      val_main_v39_apply, val_main_v0_apply]
    exact congrArg x2 (funext fun a => by
      match a with
      | ⟨0, _⟩ => rfl
      | ⟨1, _⟩ => exact Fin.ext (Nat.mod_eq_of_lt (by show m.val - 96 < 32; omega)))

/-- The first layer before its softplus, at (r, k). -/
theorem v44_at (r : Fin 50000) (k : Fin 64) :
    val_main_v44 (F := Ideal) x0 x1 x2 x3 x4 x5 x6 x7 x8 x9 x10 (ix2 r k)
      = (∑ m : Fin 128, nrow x0 x1 x2 x3 x4 x5 x6 x7 x8 r m * Cert.Spec.rows x9 m k) + Cert.Spec.vec x10 k := by
  have e1 : ∀ m : Fin 128, val_main_v40 (F := Ideal) x0 x1 x2 x3 x4 x5 x6 x7 x8 (lidx_main_v41 (ix2 r k) m) * x9 (ridx_main_v41 (ix2 r k) m)
      = nrow x0 x1 x2 x3 x4 x5 x6 x7 x8 r m * Cert.Spec.rows x9 m k := fun m => by
    rw [show lidx_main_v41 (ix2 r k) m = ix2 r m from ix2_ext _ _ _ rfl rfl,
      show ridx_main_v41 (ix2 r k) m = ix2 m k from ix2_ext _ _ _ rfl rfl, v40_at]
    rfl
  rw [val_main_v44_apply, val_main_v41_apply, val_main_v43_apply, val_main_v42_apply, Ideal.addf_def]
  simp only [e1]
  rw [show idx_main_v42 (idx_main_v43 (ix2 r k)) = ix1 k from ix1_ext _ _ rfl]
  rfl

/-- The first layer, at (r, k). -/
theorem v45_at (r : Fin 50000) (k : Fin 64) :
    val_main_v45 (F := Ideal) x0 x1 x2 x3 x4 x5 x6 x7 x8 x9 x10 (ix2 r k)
      = Cert.Spec.dense (nrow x0 x1 x2 x3 x4 x5 x6 x7 x8 r) (Cert.Spec.rows x9) (Cert.Spec.vec x10) k := by
  rw [v45_sp, v44_at]
  rfl

/-- The second layer before its softplus, at (r, j). -/
theorem v49_at (r : Fin 50000) (j : Fin 64) :
    val_main_v49 (F := Ideal) x0 x1 x2 x3 x4 x5 x6 x7 x8 x9 x10 x11 x12 (ix2 r j)
      = (∑ k : Fin 64, Cert.Spec.dense (nrow x0 x1 x2 x3 x4 x5 x6 x7 x8 r) (Cert.Spec.rows x9) (Cert.Spec.vec x10) k * Cert.Spec.rows x11 k j)
        + Cert.Spec.vec x12 j := by
  have e1 : ∀ k : Fin 64, val_main_v45 (F := Ideal) x0 x1 x2 x3 x4 x5 x6 x7 x8 x9 x10 (lidx_main_v46 (ix2 r j) k) * x11 (ridx_main_v46 (ix2 r j) k)
      = Cert.Spec.dense (nrow x0 x1 x2 x3 x4 x5 x6 x7 x8 r) (Cert.Spec.rows x9) (Cert.Spec.vec x10) k * Cert.Spec.rows x11 k j := fun k => by
    rw [show lidx_main_v46 (ix2 r j) k = ix2 r k from ix2_ext _ _ _ rfl rfl,
      show ridx_main_v46 (ix2 r j) k = ix2 k j from ix2_ext _ _ _ rfl rfl, v45_at]
    rfl
  rw [val_main_v49_apply, val_main_v46_apply, val_main_v48_apply, val_main_v47_apply, Ideal.addf_def]
  simp only [e1]
  rw [show idx_main_v47 (idx_main_v48 (ix2 r j)) = ix1 j from ix1_ext _ _ rfl]
  rfl

/-- The node update is the perceptron of the row [v | mean message | u], entry by entry. -/
theorem v50_rows :
    val_main_v50 (F := Ideal) x0 x1 x2 x3 x4 x5 x6 x7 x8 x9 x10 x11 x12
      = Cert.Spec.vNew x1 (val_main_v38 (F := Ideal) x0 x1 x2 x3 x4 x5 x6 x7 x8) (Cert.Spec.row0 x2) x9 (Cert.Spec.vec x10) x11 (Cert.Spec.vec x12) := by
  funext i
  obtain ⟨r, j, rfl⟩ : ∃ (r : Fin 50000) (j : Fin 64), i = ix2 r j := ⟨i 0, i 1, eq_ix2 i⟩
  rw [v50_sp, v49_at]
  rfl

end Cert.ReferenceIdeal.Rows

end
-- ==== Proof.KI.HostMean.lean ====
/-
  The segment mean between the kernel program's two regions: the stretch of host operations that scatter-adds the edge
  messages by destination into zeros, counts the edges of each destination by a scatter-add of ones, takes the maximum
  of the count with one, and divides. It is carried as ONE function `segMean` of the messages and the destinations;
  region 1's entry windows are read off the fold, and the reference's own stages are the same function of its own
  messages.
-/
import proofs.«409539_j52209622450458_2_alg».proof.Proof.KI.Fold
import proofs.«409539_j52209622450458_2_alg».proof.Proof.RI.Read
import proofs.«409539_j52209622450458_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]

/-- The mean of the rows of `e` over the edges of each destination: the rows scatter-added by `dst` into zeros, divided
    by the number of edges of the destination (a scatter-add of ones), that number taken at least one. -/
def segMean (e : (⟨S1600000x64, .f32⟩ : BufTy).Contents (Elt F)) (dst : (⟨S1600000, .i32⟩ : BufTy).Contents (Elt F)) :
    (⟨S50000x64, .f32⟩ : BufTy).Contents (Elt F) :=
  Host.divf
    (Host.scatterAdd scatter_S50000x64_S1600000x1_S1600000x64_1_0_0_1
      (broadcastInDim S50000x64 ![] bcast_S_S50000x64 (constant S_ .f32 0x00000000#32))
      (broadcastInDim S1600000x1 ![0] bcast_S1600000_S1600000x1_0 dst)
      e)
    (broadcastInDim S50000x64 ![0, 1] bcast_S50000x1_S50000x64_0_1
      (broadcastInDim S50000x1 ![0] bcast_S50000_S50000x1_0
        (maximumf
          (Host.scatterAdd scatter_S50000_S1600000x1_S1600000_n_0_0_1
            (broadcastInDim S50000 ![] bcast_S_S50000 (constant S_ .f32 0x00000000#32))
            (broadcastInDim S1600000x1 ![0] bcast_S1600000_S1600000x1_0 dst)
            (broadcastInDim S1600000 ![] bcast_S_S1600000 (constant S_ .f32 0x3F800000#32)))
          (broadcastInDim S50000 ![] bcast_S_S50000 (constant S_ .f32 0x3F800000#32)))))

variable (m : (ℓ : Loc nD τ sig) → Buf (Elt F) ℓ)

namespace Mean

/-- The stretch between the regions leaves `main_v16` at the segment mean of what it finds in `main_v4` and `main_arg4`. -/
theorem after_hostOps1_v16 (V : Valuation τ sig (Elt F)) :
    StableHlo.after hostOps1 V (Proc.devRef .tc main_v16)
      = segMean (F := F) (V (Proc.devRef .tc main_v4)) (V (Proc.devRef .tc main_arg4)) := by
  unfold segMean
  after_results

/-- It leaves `main_v17` at the first bias as one row. -/
theorem after_hostOps1_v17 (V : Valuation τ sig (Elt F)) :
    StableHlo.after hostOps1 V (Proc.devRef .tc main_v17)
      = (shapeCast S1x64 (V (Proc.devRef .tc main_arg10)) shapeCasts_S64_S1x64 : (⟨S1x64, .f32⟩ : BufTy).Contents (Elt F)) := by
  after_results
  rfl

/-- It leaves `main_v18` at the second bias as one row. -/
theorem after_hostOps1_v18 (V : Valuation τ sig (Elt F)) :
    StableHlo.after hostOps1 V (Proc.devRef .tc main_v18)
      = (shapeCast S1x64 (V (Proc.devRef .tc main_arg12)) shapeCasts_S64_S1x64 : (⟨S1x64, .f32⟩ : BufTy).Contents (Elt F)) := by
  after_results
  rfl

/-- A reference none of the three stretches before region 0 writes is at its launch contents when region 0 is entered. -/
theorem W3_of_not_mem (c : Dev nD) (r : Ref sig .tc) (h0 : r ∉ hostOps0_W) (h1 : r ∉ hostOps0_1_W) (h2 : r ∉ hostOps0_2_W) :
    W3 m c (Proc.devRef .tc r) = m ((c.tc : Thread nD τ).loc r) :=
  (StableHlo.after_of_writes_sub hostOps0_2 _ hostOps0_2_writes h2).trans <|
    (StableHlo.after_of_writes_sub hostOps0_1 _ hostOps0_1_writes h1).trans <|
      (StableHlo.after_of_writes_sub hostOps0 _ hostOps0_writes h0).trans rfl

/-- If moreover it is no array of region 0, it is at its launch contents at region 0's exit. -/
theorem W4_of_not_mem (c : Dev nD) (r : Ref sig .tc) (hw : ∀ w, Pipeline.arrRef spec0 w ≠ r)
    (h0 : r ∉ hostOps0_W) (h1 : r ∉ hostOps0_1_W) (h2 : r ∉ hostOps0_2_W) :
    W4 m c (Proc.devRef .tc r) = m ((c.tc : Thread nD τ).loc r) :=
  (W4_of_ne m c r hw).trans (W3_of_not_mem m c r h0 h1 h2)

/-- `main_arg2` is an input window's array of region 0, which is never written back: it leaves the region at its launch
    contents. -/
theorem W4_main_arg2 (c : Dev nD) : W4 m c (Proc.devRef .tc main_arg2) = m ((c.tc : Thread nD τ).loc main_arg2) :=
  (W4_arr m c 3).trans <| ((dat0 (E3 m) c).arrAt_in 3 rfl _).trans <| (A_eq0 (E3 m) c 3).trans <|
    W3_of_not_mem m c main_arg2 (by decide) (by decide) (by decide)

/-- The stretch between the regions writes no argument. -/
theorem W5_of_not_mem (c : Dev nD) (r : Ref sig .tc) (h : r ∉ hostOps1_W) :
    W5 m c (Proc.devRef .tc r) = W4 m c (Proc.devRef .tc r) :=
  StableHlo.after_of_writes_sub hostOps1 _ hostOps1_writes h

end Mean

open Mean

/-! ## Region 1's entry windows -/

/-- Window 0: `main_arg1`, as launched. -/
theorem E5_w0 (c : Dev nD) : E5 m c (Pipeline.arrRef spec1 0) = m ((c.tc : Thread nD τ).loc main_arg1) :=
  (W5_of_not_mem m c main_arg1 (by decide)).trans (W4_of_not_mem m c main_arg1 (by decide) (by decide) (by decide) (by decide))

/-- Window 1: the segment mean of region 0's output by the destinations. -/
theorem E5_w1 (c : Dev nD) : E5 m c (Pipeline.arrRef spec1 1)
    = segMean (W4 m c (Proc.devRef .tc main_v4)) (m ((c.tc : Thread nD τ).loc main_arg4)) := by
  rw [← W4_of_not_mem m c main_arg4 (by decide) (by decide) (by decide) (by decide)]
  exact after_hostOps1_v16 (W4 m c)

/-- Window 2: `main_arg2`, as launched. -/
theorem E5_w2 (c : Dev nD) : E5 m c (Pipeline.arrRef spec1 2) = m ((c.tc : Thread nD τ).loc main_arg2) :=
  (W5_of_not_mem m c main_arg2 (by decide)).trans (W4_main_arg2 m c)

/-- Window 3: `main_arg9`, as launched. -/
theorem E5_w3 (c : Dev nD) : E5 m c (Pipeline.arrRef spec1 3) = m ((c.tc : Thread nD τ).loc main_arg9) :=
  (W5_of_not_mem m c main_arg9 (by decide)).trans (W4_of_not_mem m c main_arg9 (by decide) (by decide) (by decide) (by decide))

/-- Window 4: `main_arg10` as one row. -/
theorem E5_w4 (c : Dev nD) : E5 m c (Pipeline.arrRef spec1 4)
    = shapeCast S1x64 (m ((c.tc : Thread nD τ).loc main_arg10)) shapeCasts_S64_S1x64 := by
  rw [← W4_of_not_mem m c main_arg10 (by decide) (by decide) (by decide) (by decide)]
  exact after_hostOps1_v17 (W4 m c)

/-- Window 5: `main_arg11`, as launched. -/
theorem E5_w5 (c : Dev nD) : E5 m c (Pipeline.arrRef spec1 5) = m ((c.tc : Thread nD τ).loc main_arg11) :=
  (W5_of_not_mem m c main_arg11 (by decide)).trans (W4_of_not_mem m c main_arg11 (by decide) (by decide) (by decide) (by decide))

/-- Window 6: `main_arg12` as one row. -/
theorem E5_w6 (c : Dev nD) : E5 m c (Pipeline.arrRef spec1 6)
    = shapeCast S1x64 (m ((c.tc : Thread nD τ).loc main_arg12)) shapeCasts_S64_S1x64 := by
  rw [← W4_of_not_mem m c main_arg12 (by decide) (by decide) (by decide) (by decide)]
  exact after_hostOps1_v18 (W4 m c)

/-! ## The reference's stages -/

/-- The reference's segment mean is the same function of its own messages. -/
theorem segMean_ref (x0 : (⟨Cert.ReferenceIdeal.S1600000x32, .f32⟩ : BufTy).Contents (Elt F))
    (x1 : (⟨Cert.ReferenceIdeal.S50000x32, .f32⟩ : BufTy).Contents (Elt F))
    (x2 : (⟨Cert.ReferenceIdeal.S1x32, .f32⟩ : BufTy).Contents (Elt F))
    (x3 x4 : (⟨Cert.ReferenceIdeal.S1600000, .i32⟩ : BufTy).Contents (Elt F))
    (x5 : (⟨Cert.ReferenceIdeal.S128x64, .f32⟩ : BufTy).Contents (Elt F))
    (x6 : (⟨Cert.ReferenceIdeal.S64, .f32⟩ : BufTy).Contents (Elt F))
    (x7 : (⟨Cert.ReferenceIdeal.S64x64, .f32⟩ : BufTy).Contents (Elt F))
    (x8 : (⟨Cert.ReferenceIdeal.S64, .f32⟩ : BufTy).Contents (Elt F)) :
    Cert.ReferenceIdeal.ReadP.val_main_v38 (F := F) x0 x1 x2 x3 x4 x5 x6 x7 x8
      = segMean (Cert.ReferenceIdeal.ReadP.val_main_v26 (F := F) x0 x1 x2 x3 x4 x5 x6 x7 x8) x4 := by
  unfold Cert.ReferenceIdeal.ReadP.val_main_v38 Cert.ReferenceIdeal.ReadP.val_main_v29
  generalize Cert.ReferenceIdeal.ReadP.val_main_v26 (F := F) x0 x1 x2 x3 x4 x5 x6 x7 x8 = e
  unfold Cert.ReferenceIdeal.ReadP.val_main_v37 Cert.ReferenceIdeal.ReadP.val_main_v36 Cert.ReferenceIdeal.ReadP.val_main_v35
    Cert.ReferenceIdeal.ReadP.val_main_v33 Cert.ReferenceIdeal.ReadP.val_main_v34 Cert.ReferenceIdeal.ReadP.val_main_v32
    Cert.ReferenceIdeal.ReadP.val_main_v31 Cert.ReferenceIdeal.ReadP.val_main_v30 Cert.ReferenceIdeal.ReadP.val_main_v28
    Cert.ReferenceIdeal.ReadP.val_main_v27 Cert.ReferenceIdeal.ReadP.val_main_cst Cert.ReferenceIdeal.ReadP.val_main_cst_3
    Cert.ReferenceIdeal.ReadP.val_main_cst_4 Cert.ReferenceIdeal.ReadP.val_main_cst_5
  unfold segMean
  rfl

end Cert.KernelIdeal.Hand

end
-- ==== Proof.KI.Payload0.lean ====
/-
  The value region 0 stores, read at row p and column q: the two-layer softplus perceptron of the concatenated row p.

  The body lays the source node features, the destination node features, the edge features and the graph attribute
  (broadcast down the rows) side by side, multiplies by the first weight matrix into a zero accumulator, adds the first
  bias row, takes softplus, and repeats with the second weights and bias. At the extended reals the narrowing to the
  16-bit format is the identity, the accumulator is 0, and the ordered-not-equal compare of a value with itself is
  false, so that the select of the softplus spelling takes max x 0 + log1p (exp (-|x|)).
-/
import proofs.«409539_j52209622450458_2_alg».proof.Proof.KI.Region0
import proofs.«409539_j52209622450458_2_alg».proof.Proof.Spec
import proofs.«409539_j52209622450458_2_alg».proof.Proof.KI.Payload1
import Idealize.ShloMosaic.Lib.Pipeline.Value
import Idealize.ShloMosaic.Lib.ValueLayout
import Idealize.ShloMosaic.Lib.ValueIdx
import Idealize.ShloMosaic.Lib.StackMember
import Idealize.ShloMosaic.Lib.KernelVsHost
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx
open scoped BigOperators

namespace Pay0

/-! ## The concatenated row -/

/-- The four pieces of width 32 side by side, read at (p, i): the spec's concatenated row p at i. The last piece is
    the one-row graph attribute broadcast down the rows, so that its row p is its row 0. -/
theorem cat_read0 (v0 v2 v4 : FVec Ideal S3200x32 .f32) (v5 : FVec Ideal S1x32 .f32) (p : Fin 3200) (i : Fin 128) :
    concatenate S3200x128 1 [⟨S3200x32, shapeCast S3200x32 v0 shapeCasts_S3200x32_S3200x32⟩,
        ⟨S3200x32, shapeCast S3200x32 v2 shapeCasts_S3200x32_S3200x32⟩, ⟨S3200x32, v4⟩,
        ⟨S3200x32, broadcastTo S3200x32 (shapeCast S1x32 v5 shapeCasts_S1x32_S1x32) broadcasts_S1x32_S3200x32⟩]
        concatenates_S3200x32_S3200x32_S3200x32_S3200x32_S3200x128_d1 (ix2 p i)
      = Cert.Spec.cat4 (fun k => v0 (ix2 p k)) (fun k => v2 (ix2 p k)) (fun k => v4 (ix2 p k))
          (fun k => v5 (ix2 (0 : Fin 1) k)) i := by
  unfold Cert.Spec.cat4
  have side : ∀ (c : Fin 32) (b : Fin S3200x32.rank) (hr : S3200x32.rank = S3200x128.rank),
      b.cast hr ≠ (1 : Fin S3200x128.rank) → ((ix2 p c) b).val = ((ix2 p i) (b.cast hr)).val := by
    intro c b hr hb
    match b, hb with
    | ⟨0, _⟩, _ => rfl
    | ⟨1, _⟩, hb => exact absurd rfl hb
  by_cases h0 : i.val < 32
  · rw [dif_pos h0]
    refine (concatenate_apply_piece (1 : Fin S3200x128.rank) _ _ (ix2 p i) 0 (by show 0 < 4; omega) S3200x32 _ rfl rfl 0 rfl
      (ix2 p (⟨i.val, h0⟩ : Fin 32)) (fun b hb => side _ b rfl hb) ?_).trans ?_
    · show 0 + i.val = i.val
      omega
    · rw [shapeCast_self]
  · rw [dif_neg h0]
    by_cases h1 : i.val < 64
    · rw [dif_pos h1]
      refine (concatenate_apply_piece (1 : Fin S3200x128.rank) _ _ (ix2 p i) 1 (by show 1 < 4; omega) S3200x32 _ rfl rfl 32 rfl
        (ix2 p (⟨i.val - 32, by omega⟩ : Fin 32)) (fun b hb => side _ b rfl hb) ?_).trans ?_
      · show 32 + (i.val - 32) = i.val
        omega
      · rw [shapeCast_self]
    · rw [dif_neg h1]
      by_cases h2 : i.val < 96
      · rw [dif_pos h2]
        refine concatenate_apply_piece (1 : Fin S3200x128.rank) _ _ (ix2 p i) 2 (by show 2 < 4; omega) S3200x32 v4 rfl rfl 64 rfl
          (ix2 p (⟨i.val - 64, by omega⟩ : Fin 32)) (fun b hb => side _ b rfl hb) ?_
        show 64 + (i.val - 64) = i.val
        omega
      · rw [dif_neg h2]
        refine (concatenate_apply_piece (1 : Fin S3200x128.rank) _ _ (ix2 p i) 3 (by show 3 < 4; omega) S3200x32 _ rfl rfl 96 rfl
          (ix2 p (⟨i.val - 96, by have := i.isLt; omega⟩ : Fin 32)) (fun b hb => side _ b rfl hb) ?_).trans ?_
        · show 96 + (i.val - 96) = i.val
          omega
        · rw [broadcastTo_1b_ab_apply, shapeCast_self]

end Pay0

open Pay0

/-! ## The stored value at an index -/

/-- The value region 0's body stores, at row p and column q, is the perceptron of the concatenated row p. -/
theorem val0_apply (x0 x1 x2 : Vec Ideal S3200x32 .f32) (x3 : Vec Ideal S1x32 .f32) (x4 : Vec Ideal S128x64 .f32) (x5 : Vec Ideal S1x64 .f32) (x6 : Vec Ideal S64x64 .f32) (x7 : Vec Ideal S1x64 .f32) (p : Fin 3200) (q : Fin 64) :
    val0 (F := Ideal) x0 x1 x2 x3 x4 x5 x6 x7 (ValueIdx.ix2 p q) = Cert.Spec.mlpRow (Cert.Spec.cat4 (fun k => x0 (ValueIdx.ix2 p k)) (fun k => x1 (ValueIdx.ix2 p k)) (fun k => x2 (ValueIdx.ix2 p k)) (fun k => x3 (ValueIdx.ix2 0 k))) (fun i j => x4 (ValueIdx.ix2 i j)) (fun j => x5 (ValueIdx.ix2 0 j)) (fun i j => x6 (ValueIdx.ix2 i j)) (fun j => x7 (ValueIdx.ix2 0 j)) q := by
  have hz : (![0, 0] : Fin 2 → Nat) = fun _ => 0 := by
    funext a; match a with | ⟨0, _⟩ => rfl | ⟨1, _⟩ => rfl
  unfold val0
  rw [View.ld_unit_zero (S := S3200x32) hz, View.ld_unit_zero (S := S3200x32) hz, View.ld_unit_zero (S := S3200x32) hz,
    View.ld_unit_zero (S := S1x32) hz, View.ld_unit_zero (S := S128x64) hz, View.ld_unit_zero (S := S1x64) hz,
    View.ld_unit_zero (S := S64x64) hz, View.ld_unit_zero (S := S1x64) hz]
  unfold k0_pay1
  refine (softplus_entry _).trans ?_
  unfold Cert.Spec.mlpRow Cert.Spec.dense
  refine congrArg Cert.Spec.sp ?_
  unfold k0_pay2
  refine (dense_read dot_S3200x64_S64x64_S3200x64_1_0_0_1_n_n rfl _ x6 x7 _ _ _ p q).trans ?_
  refine congrArg (fun t => t + x7 (ix2 (0 : Fin 1) q)) (Finset.sum_congr rfl fun c _ => congrArg (fun t => t * x6 (ix2 c q)) ?_)
  refine (softplus_entry _).trans (congrArg Cert.Spec.sp ?_)
  refine (dense_read dot_S3200x128_S128x64_S3200x64_1_0_0_1_n_n rfl _ x4 x5 _ _ _ p c).trans ?_
  refine congrArg (fun t => t + x5 (ix2 (0 : Fin 1) c)) (Finset.sum_congr rfl fun k _ => congrArg (fun t => t * x4 (ix2 k c)) ?_)
  exact cat_read0 x0 x1 x2 x3 p k

end Cert.KernelIdeal.Hand

end
-- ==== Proof.KI.Blocks0.lean ====
/-
  Region 0 from blocks to the array. Grid point `t` of the 500 writes rows `3200·t … 3200·t + 3199` of the output; what it
  writes is the two-layer perceptron of the same rows of the three edge-indexed inputs, of the one row of the graph
  attribute and of the whole parameter arrays. Those blocks are restrictions of ONE function of the arrays the region
  finds, `Cert.Spec.eNew`, and the 500 blocks tile the 1600000 rows (row `r` lies in block `r / 3200`), so after the last
  point the output array is that function.
-/
import proofs.«409539_j52209622450458_2_alg».proof.Proof.KI.Region0
import proofs.«409539_j52209622450458_2_alg».proof.Proof.Spec
import proofs.«409539_j52209622450458_2_alg».proof.Proof.KI.Payload0
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat)

variable (V : (c : Dev nD) → (b : Ref sig .tc) → Buf (Elt Ideal) ((c : Thread nD τ).loc b))

/-- The zero offsets of a whole-buffer rectangle are the constant zero function. -/
theorem zero_off0 : (![0, 0] : Fin 2 → Nat) = fun _ => 0 := funext fun a => by fin_cases a <;> rfl

/-! ## Where each window's block sits

The three edge-indexed inputs and the output are at block `(t, 0)` at point `t`; the graph attribute and the four
parameter arrays are at block `(0, 0)` at every point. -/

theorem index0_0 : ∀ t : Fin cfg0.N, win0_0.index t (0 : Fin 2) = t.val ∧ win0_0.index t (1 : Fin 2) = 0 :=
  (by decide +kernel : ∀ t : Fin grid0.N, _)
theorem index0_1 : ∀ t : Fin cfg0.N, win0_1.index t (0 : Fin 2) = t.val ∧ win0_1.index t (1 : Fin 2) = 0 :=
  (by decide +kernel : ∀ t : Fin grid0.N, _)
theorem index0_2 : ∀ t : Fin cfg0.N, win0_2.index t (0 : Fin 2) = t.val ∧ win0_2.index t (1 : Fin 2) = 0 :=
  (by decide +kernel : ∀ t : Fin grid0.N, _)
theorem index0_3 : ∀ t : Fin cfg0.N, win0_3.index t (0 : Fin 2) = 0 ∧ win0_3.index t (1 : Fin 2) = 0 :=
  (by decide +kernel : ∀ t : Fin grid0.N, _)
theorem index0_4 : ∀ t : Fin cfg0.N, win0_4.index t (0 : Fin 2) = 0 ∧ win0_4.index t (1 : Fin 2) = 0 :=
  (by decide +kernel : ∀ t : Fin grid0.N, _)
theorem index0_5 : ∀ t : Fin cfg0.N, win0_5.index t (0 : Fin 2) = 0 ∧ win0_5.index t (1 : Fin 2) = 0 :=
  (by decide +kernel : ∀ t : Fin grid0.N, _)
theorem index0_6 : ∀ t : Fin cfg0.N, win0_6.index t (0 : Fin 2) = 0 ∧ win0_6.index t (1 : Fin 2) = 0 :=
  (by decide +kernel : ∀ t : Fin grid0.N, _)
theorem index0_7 : ∀ t : Fin cfg0.N, win0_7.index t (0 : Fin 2) = 0 ∧ win0_7.index t (1 : Fin 2) = 0 :=
  (by decide +kernel : ∀ t : Fin grid0.N, _)
theorem index0_8 : ∀ t : Fin cfg0.N, win0_8.index t (0 : Fin 2) = t.val ∧ win0_8.index t (1 : Fin 2) = 0 :=
  (by decide +kernel : ∀ t : Fin grid0.N, _)

/-! ## Each input block, read off its array -/

/-- Row `p` of the gathered source rows' block at point `t` is row `3200·t + p` of that array. -/
theorem iblk0_0_apply (c : Dev nD) (t : Fin cfg0.N) (p : Fin 3200) (k : Fin 32) (r : Fin 1600000)
    (hr : r.val = 3200 * t.val + p.val) :
    (iblk0 V c 0 t : Vec Ideal S3200x32 .f32) (ValueIdx.ix2 p k)
      = (V c (Pipeline.arrRef spec0 0) : S1600000x32.Idx → EReal) (ValueIdx.ix2 r k) := by
  obtain ⟨e0, e1⟩ := index0_0 t
  unfold iblk0
  rw [View.read_apply]
  show V c (Pipeline.arrRef spec0 0) _ = V c (Pipeline.arrRef spec0 0) _
  congr 1
  funext a
  apply Fin.ext
  match a with
  | ⟨0, _⟩ => show win0_0.index t (0 : Fin 2) * 3200 + 1 * p.val = r.val; rw [e0, hr]; omega
  | ⟨1, _⟩ => show win0_0.index t (1 : Fin 2) * 32 + 1 * k.val = k.val; rw [e1]; omega

/-- Row `p` of the gathered destination rows' block at point `t` is row `3200·t + p` of that array. -/
theorem iblk0_1_apply (c : Dev nD) (t : Fin cfg0.N) (p : Fin 3200) (k : Fin 32) (r : Fin 1600000)
    (hr : r.val = 3200 * t.val + p.val) :
    (iblk0 V c 1 t : Vec Ideal S3200x32 .f32) (ValueIdx.ix2 p k)
      = (V c (Pipeline.arrRef spec0 1) : S1600000x32.Idx → EReal) (ValueIdx.ix2 r k) := by
  obtain ⟨e0, e1⟩ := index0_1 t
  unfold iblk0
  rw [View.read_apply]
  show V c (Pipeline.arrRef spec0 1) _ = V c (Pipeline.arrRef spec0 1) _
  congr 1
  funext a
  apply Fin.ext
  match a with
  | ⟨0, _⟩ => show win0_1.index t (0 : Fin 2) * 3200 + 1 * p.val = r.val; rw [e0, hr]; omega
  | ⟨1, _⟩ => show win0_1.index t (1 : Fin 2) * 32 + 1 * k.val = k.val; rw [e1]; omega

/-- Row `p` of the edge features' block at point `t` is row `3200·t + p` of that array. -/
theorem iblk0_2_apply (c : Dev nD) (t : Fin cfg0.N) (p : Fin 3200) (k : Fin 32) (r : Fin 1600000)
    (hr : r.val = 3200 * t.val + p.val) :
    (iblk0 V c 2 t : Vec Ideal S3200x32 .f32) (ValueIdx.ix2 p k)
      = (V c (Pipeline.arrRef spec0 2) : S1600000x32.Idx → EReal) (ValueIdx.ix2 r k) := by
  obtain ⟨e0, e1⟩ := index0_2 t
  unfold iblk0
  rw [View.read_apply]
  show V c (Pipeline.arrRef spec0 2) _ = V c (Pipeline.arrRef spec0 2) _
  congr 1
  funext a
  apply Fin.ext
  match a with
  | ⟨0, _⟩ => show win0_2.index t (0 : Fin 2) * 3200 + 1 * p.val = r.val; rw [e0, hr]; omega
  | ⟨1, _⟩ => show win0_2.index t (1 : Fin 2) * 32 + 1 * k.val = k.val; rw [e1]; omega

/-- The graph attribute's block is the whole array at every point. -/
theorem iblk0_3_eq (c : Dev nD) (t : Fin cfg0.N) :
    (iblk0 V c 3 t : Vec Ideal S1x32 .f32) = (V c (Pipeline.arrRef spec0 3) : S1x32.Idx → EReal) := by
  obtain ⟨e0, e1⟩ := index0_3 t
  funext x
  unfold iblk0
  rw [View.read_apply]
  show V c (Pipeline.arrRef spec0 3) _ = V c (Pipeline.arrRef spec0 3) x
  congr 1
  funext a
  apply Fin.ext
  match a with
  | ⟨0, _⟩ => show win0_3.index t (0 : Fin 2) * 1 + 1 * (x 0).val = (x 0).val; rw [e0]; omega
  | ⟨1, _⟩ => show win0_3.index t (1 : Fin 2) * 32 + 1 * (x 1).val = (x 1).val; rw [e1]; omega

/-- The first layer's block is the whole array at every point. -/
theorem iblk0_4_eq (c : Dev nD) (t : Fin cfg0.N) :
    (iblk0 V c 4 t : Vec Ideal S128x64 .f32) = (V c (Pipeline.arrRef spec0 4) : S128x64.Idx → EReal) := by
  obtain ⟨e0, e1⟩ := index0_4 t
  funext x
  unfold iblk0
  rw [View.read_apply]
  show V c (Pipeline.arrRef spec0 4) _ = V c (Pipeline.arrRef spec0 4) x
  congr 1
  funext a
  apply Fin.ext
  match a with
  | ⟨0, _⟩ => show win0_4.index t (0 : Fin 2) * 128 + 1 * (x 0).val = (x 0).val; rw [e0]; omega
  | ⟨1, _⟩ => show win0_4.index t (1 : Fin 2) * 64 + 1 * (x 1).val = (x 1).val; rw [e1]; omega

/-- The first bias's block is the whole array at every point. -/
theorem iblk0_5_eq (c : Dev nD) (t : Fin cfg0.N) :
    (iblk0 V c 5 t : Vec Ideal S1x64 .f32) = (V c (Pipeline.arrRef spec0 5) : S1x64.Idx → EReal) := by
  obtain ⟨e0, e1⟩ := index0_5 t
  funext x
  unfold iblk0
  rw [View.read_apply]
  show V c (Pipeline.arrRef spec0 5) _ = V c (Pipeline.arrRef spec0 5) x
  congr 1
  funext a
  apply Fin.ext
  match a with
  | ⟨0, _⟩ => show win0_5.index t (0 : Fin 2) * 1 + 1 * (x 0).val = (x 0).val; rw [e0]; omega
  | ⟨1, _⟩ => show win0_5.index t (1 : Fin 2) * 64 + 1 * (x 1).val = (x 1).val; rw [e1]; omega

/-- The second layer's block is the whole array at every point. -/
theorem iblk0_6_eq (c : Dev nD) (t : Fin cfg0.N) :
    (iblk0 V c 6 t : Vec Ideal S64x64 .f32) = (V c (Pipeline.arrRef spec0 6) : S64x64.Idx → EReal) := by
  obtain ⟨e0, e1⟩ := index0_6 t
  funext x
  unfold iblk0
  rw [View.read_apply]
  show V c (Pipeline.arrRef spec0 6) _ = V c (Pipeline.arrRef spec0 6) x
  congr 1
  funext a
  apply Fin.ext
  match a with
  | ⟨0, _⟩ => show win0_6.index t (0 : Fin 2) * 64 + 1 * (x 0).val = (x 0).val; rw [e0]; omega
  | ⟨1, _⟩ => show win0_6.index t (1 : Fin 2) * 64 + 1 * (x 1).val = (x 1).val; rw [e1]; omega

/-- The second bias's block is the whole array at every point. -/
theorem iblk0_7_eq (c : Dev nD) (t : Fin cfg0.N) :
    (iblk0 V c 7 t : Vec Ideal S1x64 .f32) = (V c (Pipeline.arrRef spec0 7) : S1x64.Idx → EReal) := by
  obtain ⟨e0, e1⟩ := index0_7 t
  funext x
  unfold iblk0
  rw [View.read_apply]
  show V c (Pipeline.arrRef spec0 7) _ = V c (Pipeline.arrRef spec0 7) x
  congr 1
  funext a
  apply Fin.ext
  match a with
  | ⟨0, _⟩ => show win0_7.index t (0 : Fin 2) * 1 + 1 * (x 0).val = (x 0).val; rw [e0]; omega
  | ⟨1, _⟩ => show win0_7.index t (1 : Fin 2) * 64 + 1 * (x 1).val = (x 1).val; rw [e1]; omega

/-! ## One block of the output -/

/-- The edge update of the arrays the region finds. -/
abbrev G0 (c : Dev nD) : S1600000x64.Idx → EReal :=
  Cert.Spec.eNew (V c (Pipeline.arrRef spec0 0)) (V c (Pipeline.arrRef spec0 1)) (V c (Pipeline.arrRef spec0 2))
    (Cert.Spec.row0 (V c (Pipeline.arrRef spec0 3))) (V c (Pipeline.arrRef spec0 4)) (Cert.Spec.row0 (V c (Pipeline.arrRef spec0 5)))
    (V c (Pipeline.arrRef spec0 6)) (Cert.Spec.row0 (V c (Pipeline.arrRef spec0 7)))

/-- Entry `(p, q)` of the body's value is entry `(r, q)` of the edge update, when row `p` of each edge-indexed block is row
    `r` of its array and the other blocks are their whole arrays: the perceptron acts on every row separately. -/
theorem val0_eq_eNew (A0 A1 A2 : S1600000x32.Idx → EReal) (A3 : S1x32.Idx → EReal) (A4 : S128x64.Idx → EReal)
    (A5 : S1x64.Idx → EReal) (A6 : S64x64.Idx → EReal) (A7 : S1x64.Idx → EReal)
    (x0 x1 x2 : Vec Ideal S3200x32 .f32) (x3 : Vec Ideal S1x32 .f32) (x4 : Vec Ideal S128x64 .f32) (x5 : Vec Ideal S1x64 .f32)
    (x6 : Vec Ideal S64x64 .f32) (x7 : Vec Ideal S1x64 .f32) (p : Fin 3200) (q : Fin 64) (r : Fin 1600000)
    (h0 : ∀ k : Fin 32, x0 (ValueIdx.ix2 p k) = A0 (ValueIdx.ix2 r k))
    (h1 : ∀ k : Fin 32, x1 (ValueIdx.ix2 p k) = A1 (ValueIdx.ix2 r k))
    (h2 : ∀ k : Fin 32, x2 (ValueIdx.ix2 p k) = A2 (ValueIdx.ix2 r k))
    (h3 : x3 = A3) (h4 : x4 = A4) (h5 : x5 = A5) (h6 : x6 = A6) (h7 : x7 = A7) :
    val0 (F := Ideal) x0 x1 x2 x3 x4 x5 x6 x7 (ValueIdx.ix2 p q)
      = Cert.Spec.eNew A0 A1 A2 (Cert.Spec.row0 A3) A4 (Cert.Spec.row0 A5) A6 (Cert.Spec.row0 A7) (ValueIdx.ix2 r q) := by
  subst h3 h4 h5 h6 h7
  refine (val0_apply x0 x1 x2 x3 x4 x5 x6 x7 p q).trans ?_
  have e0 : (fun k : Fin 32 => x0 (ValueIdx.ix2 p k)) = fun k => A0 (ValueIdx.ix2 r k) := funext h0
  have e1 : (fun k : Fin 32 => x1 (ValueIdx.ix2 p k)) = fun k => A1 (ValueIdx.ix2 r k) := funext h1
  have e2 : (fun k : Fin 32 => x2 (ValueIdx.ix2 p k)) = fun k => A2 (ValueIdx.ix2 r k) := funext h2
  rw [e0, e1, e2]
  rfl

/-- What point `t` writes back is block `t` of the edge update of the arrays the region finds. -/
theorem flushed0_eq (c : Dev nD) (t : Fin cfg0.N) :
    (dat0 (F := Ideal) V c).flushed 8 t = ((cfg0.win 8).blk t).view.read (Elt Ideal) (G0 V c) := by
  show (cfg0.win 8).cut (grid0.coords t) ((dat0 (F := Ideal) V c).after 8 t) = _
  rw [after0_8]
  unfold out0_8
  rw [View.canon_unit_zero zero_off0]
  obtain ⟨e0, e1⟩ := index0_8 t
  have hN : cfg0.N = 500 := N_0
  have ht : t.val < 500 := hN ▸ t.isLt
  refine funext fun (j : S3200x64.Idx) => ?_
  obtain ⟨p, q, rfl⟩ : ∃ (p : Fin 3200) (q : Fin 64), j = ValueIdx.ix2 p q := ⟨j 0, j 1, ValueIdx.eq_ix2 j⟩
  have hp : p.val < 3200 := p.isLt
  have hemb : ((cfg0.win 8).blk t).view.emb (ValueIdx.ix2 p q)
      = (ValueIdx.ix2 (⟨3200 * t.val + p.val, by omega⟩ : Fin 1600000) q : S1600000x64.Idx) := by
    funext a
    apply Fin.ext
    match a with
    | ⟨0, _⟩ => show win0_8.index t (0 : Fin 2) * 3200 + 1 * p.val = 3200 * t.val + p.val; rw [e0]; omega
    | ⟨1, _⟩ => show win0_8.index t (1 : Fin 2) * 64 + 1 * q.val = q.val; rw [e1]; omega
  show val0 (F := Ideal) (iblk0 V c 0 t) (iblk0 V c 1 t) (iblk0 V c 2 t) (iblk0 V c 3 t) (iblk0 V c 4 t) (iblk0 V c 5 t)
      (iblk0 V c 6 t) (iblk0 V c 7 t) (ValueIdx.ix2 p q) = G0 V c (((cfg0.win 8).blk t).view.emb (ValueIdx.ix2 p q))
  refine Eq.trans ?_ (congrArg (G0 V c) hemb).symm
  exact val0_eq_eNew (V c (Pipeline.arrRef spec0 0)) (V c (Pipeline.arrRef spec0 1)) (V c (Pipeline.arrRef spec0 2))
    (V c (Pipeline.arrRef spec0 3)) (V c (Pipeline.arrRef spec0 4)) (V c (Pipeline.arrRef spec0 5)) (V c (Pipeline.arrRef spec0 6))
    (V c (Pipeline.arrRef spec0 7))
    (iblk0 V c 0 t) (iblk0 V c 1 t) (iblk0 V c 2 t) (iblk0 V c 3 t) (iblk0 V c 4 t) (iblk0 V c 5 t) (iblk0 V c 6 t) (iblk0 V c 7 t)
    p q ⟨3200 * t.val + p.val, by omega⟩
    (fun k => iblk0_0_apply V c t p k _ rfl) (fun k => iblk0_1_apply V c t p k _ rfl) (fun k => iblk0_2_apply V c t p k _ rfl)
    (iblk0_3_eq V c t) (iblk0_4_eq V c t) (iblk0_5_eq V c t) (iblk0_6_eq V c t) (iblk0_7_eq V c t)

/-! ## The blocks tile the rows -/

/-- An index of the output array is in point `t`'s block iff on each axis it lies in the block's range. -/
theorem mem_blk0 (t : Fin cfg0.N) (i : S1600000x64.Idx) :
    i ∈ ((cfg0.win 8).blk t).view.set ↔ ∀ a : Fin 2, win0_8.index t a * S3200x64.size a ≤ (i a).val
      ∧ (i a).val < win0_8.index t a * S3200x64.size a + S3200x64.size a := by
  show i ∈ ((View.whole main_v4).slice (win0_8.rect t)).set ↔ _
  rw [View.set_slice_whole, Rect.mem_set_unit]
  exact Iff.rfl

/-- Row `r` of the output lies in the block of point `r / 3200`, which writes it back. -/
theorem cover0 (i : S1600000x64.Idx) :
    ∃ t : Fin cfg0.N, (cfg0.win 8).flush t = true ∧ i ∈ ((cfg0.win 8).blk t).view.set := by
  have hi0 : (i 0).val < 1600000 := (i 0).isLt
  have hi1 : (i 1).val < 64 := (i 1).isLt
  have hN : cfg0.N = 500 := N_0
  obtain ⟨t, ht⟩ : ∃ t : Fin cfg0.N, t.val = (i 0).val / 3200 := ⟨⟨(i 0).val / 3200, by rw [hN]; omega⟩, rfl⟩
  obtain ⟨e0, e1⟩ := index0_8 t
  refine ⟨t, flush0_8 t, ?_⟩
  rw [mem_blk0]
  intro a
  match a with
  | ⟨0, _⟩ =>
    show win0_8.index t (0 : Fin 2) * 3200 ≤ (i 0).val ∧ (i 0).val < win0_8.index t (0 : Fin 2) * 3200 + 3200
    rw [e0, ht]; omega
  | ⟨1, _⟩ =>
    show win0_8.index t (1 : Fin 2) * 64 ≤ (i 1).val ∧ (i 1).val < win0_8.index t (1 : Fin 2) * 64 + 64
    rw [e1]; omega

/-! ## The array after the last point -/

/-- Region 0's output array after all 500 points is the edge update of the arrays the region found. -/
theorem arr0_eq (V : (c : Dev nD) → (b : Ref sig .tc) → Buf (Elt Ideal) ((c : Thread nD τ).loc b)) (c : Dev nD) :
    (dat0 (F := Ideal) V c).arrAt 8 cfg0.N = Cert.Spec.eNew (V c (Pipeline.arrRef spec0 0)) (V c (Pipeline.arrRef spec0 1)) (V c (Pipeline.arrRef spec0 2)) (Cert.Spec.row0 (V c (Pipeline.arrRef spec0 3))) (V c (Pipeline.arrRef spec0 4)) (Cert.Spec.row0 (V c (Pipeline.arrRef spec0 5))) (V c (Pipeline.arrRef spec0 6)) (Cert.Spec.row0 (V c (Pipeline.arrRef spec0 7))) :=
  (dat0 (F := Ideal) V c).arrAt_eq_of_cover 8 (G0 V c) (fun t _ => flushed0_eq V c t) cover0

end Cert.KernelIdeal.Hand

end
-- ==== Proof.KI.HostReadout.lean ====
/-
  The graph readout on the host. After region 1 the kernel program takes the column means of the edge rows and of the
  node rows, joins them to the global row as one 1×160 row, and applies two dense layers, each followed by softplus;
  the reference applies the same operations to its own edge and node rows. The chain is carried as ONE function
  `readout` of the two row arrays, the global row and the four weight arrays: the kernel program's third result is
  `readout` of the buffers as region 1 leaves them, the reference's is `readout` of its own stages, and neither
  statement opens the chain. Beside it: the edge rows and the node rows reach the end of the program as the regions
  wrote them, and the arguments the readout reads reach it as launched.
-/
import proofs.«409539_j52209622450458_2_alg».proof.Proof.KI.Fold
import proofs.«409539_j52209622450458_2_alg».proof.Proof.RI.Read
import proofs.«409539_j52209622450458_2_alg».proof.Proof.Gen.KernelIdeal.Regions
import proofs.«409539_j52209622450458_2_alg».proof.Proof.LibNary3

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]

namespace Readout

/-- The scalar zero spread over a 1×64 row. -/
def zeroRow : (⟨S1x64, .f32⟩ : BufTy).Contents (Elt F) :=
  broadcastInDim S1x64 ![] bcast_S_S1x64 (constant S_ .f32 0x00000000#32)

/-- Softplus of a 1×64 row as the host spells it: with `d = x - 0`, the row `x + 0` where `d ≠ d` and
    `max x 0 + log1p (exp (-|d|))` elsewhere. -/
def softplusRow (x : (⟨S1x64, .f32⟩ : BufTy).Contents (Elt F)) : (⟨S1x64, .f32⟩ : BufTy).Contents (Elt F) :=
  select (cmpf .une (subf x zeroRow) (subf x zeroRow)) (addf x zeroRow)
    (addf (maximumf x zeroRow) (Host.log1p (Host.exp (Host.negf (Host.absf (subf x zeroRow))))))

/-- The column mean of the 1600000 edge rows, as a 1×64 row: the column sums over 1600000. -/
def edgeMean (e : (⟨S1600000x64, .f32⟩ : BufTy).Contents (Elt F)) : (⟨S1x64, .f32⟩ : BufTy).Contents (Elt F) :=
  Host.divf (broadcastInDim S1x64 ![1] bcast_S64_S1x64_1 (Host.reduceAdd e (constant S_ .f32 0x00000000#32) reducesTo_S1600000x64_S64_d0 h_S_))
    (broadcastInDim S1x64 ![] bcast_S_S1x64 (constant S_ .f32 0x49C35000#32))

/-- The column mean of the 50000 node rows, as a 1×64 row: the column sums over 50000. -/
def nodeMean (v : (⟨S50000x64, .f32⟩ : BufTy).Contents (Elt F)) : (⟨S1x64, .f32⟩ : BufTy).Contents (Elt F) :=
  Host.divf (broadcastInDim S1x64 ![1] bcast_S64_S1x64_1 (Host.reduceAdd v (constant S_ .f32 0x00000000#32) reducesTo_S50000x64_S64_d0 h_S_))
    (broadcastInDim S1x64 ![] bcast_S_S1x64 (constant S_ .f32 0x47435000#32))

/-- The readout's first layer before its softplus: the row `[u | mean of e | mean of v]` (1×160) times `aW1`, plus `ab1`. -/
def layer1 (e : (⟨S1600000x64, .f32⟩ : BufTy).Contents (Elt F)) (v : (⟨S50000x64, .f32⟩ : BufTy).Contents (Elt F))
    (u : (⟨S1x32, .f32⟩ : BufTy).Contents (Elt F)) (aW1 : (⟨S160x64, .f32⟩ : BufTy).Contents (Elt F))
    (ab1 : (⟨S64, .f32⟩ : BufTy).Contents (Elt F)) : (⟨S1x64, .f32⟩ : BufTy).Contents (Elt F) :=
  addf (Host.dotGeneral dot_S1x160_S160x64_S1x64_1_0_0_1_n_n none
      (concatenate S1x160 1 [⟨S1x32, u⟩, ⟨S1x64, edgeMean e⟩, ⟨S1x64, nodeMean v⟩] concatenates_S1x32_S1x64_S1x64_S1x160_d1) aW1)
    (broadcastInDim S1x64 ![1] bcast_S64_S1x64_1 ab1)

/-- The readout's second layer before its softplus: the row `h` times `aW2`, plus `ab2`. -/
def layer2 (h : (⟨S1x64, .f32⟩ : BufTy).Contents (Elt F)) (aW2 : (⟨S64x64, .f32⟩ : BufTy).Contents (Elt F))
    (ab2 : (⟨S64, .f32⟩ : BufTy).Contents (Elt F)) : (⟨S1x64, .f32⟩ : BufTy).Contents (Elt F) :=
  addf (Host.dotGeneral dot_S1x64_S64x64_S1x64_1_0_0_1_n_n none h aW2) (broadcastInDim S1x64 ![1] bcast_S64_S1x64_1 ab2)

end Readout

open Readout
/-- The graph readout: two dense layers with softplus over the row `[u | mean of the edge rows | mean of the node rows]`. -/
def readout (e : (⟨S1600000x64, .f32⟩ : BufTy).Contents (Elt F)) (v : (⟨S50000x64, .f32⟩ : BufTy).Contents (Elt F))
    (u : (⟨S1x32, .f32⟩ : BufTy).Contents (Elt F)) (aW1 : (⟨S160x64, .f32⟩ : BufTy).Contents (Elt F))
    (ab1 : (⟨S64, .f32⟩ : BufTy).Contents (Elt F)) (aW2 : (⟨S64x64, .f32⟩ : BufTy).Contents (Elt F))
    (ab2 : (⟨S64, .f32⟩ : BufTy).Contents (Elt F)) : (⟨S1x64, .f32⟩ : BufTy).Contents (Elt F) :=
  softplusRow (layer2 (softplusRow (layer1 e v u aW1 ab1)) aW2 ab2)

namespace Readout

/-! ## The four host stretches, each at an arbitrary incoming valuation -/

theorem after2_v31 (V : Valuation τ sig (Elt F)) :
    StableHlo.after hostOps2 V (Proc.devRef .tc main_v31)
      = layer1 (V (Proc.devRef .tc main_v4)) (V (Proc.devRef .tc main_v19)) (V (Proc.devRef .tc main_arg2))
          (V (Proc.devRef .tc main_arg13)) (V (Proc.devRef .tc main_arg14)) := by
  simp (disch := decide) only [StableHlo.after_cons, StableHlo.after_nil, StableHlo.nary3_result',
    StableHlo.nullary_result', StableHlo.unary_result', StableHlo.binary_result',
    StableHlo.nullary_result_ne', StableHlo.unary_result_ne', StableHlo.binary_result_ne', StableHlo.nary_result_ne']
  rfl

theorem after2_1_v32 (V : Valuation τ sig (Elt F)) :
    StableHlo.after hostOps2_1 V (Proc.devRef .tc main_v32) = softplusRow (V (Proc.devRef .tc main_v31)) := by
  after_results_simp
  simp only [StableHlo.TRef.ofBuf, StableHlo.TRef.toBuf, cast_eq]
  rfl

theorem after2_2_v35 (V : Valuation τ sig (Elt F)) :
    StableHlo.after hostOps2_2 V (Proc.devRef .tc main_v35)
      = layer2 (V (Proc.devRef .tc main_v32)) (V (Proc.devRef .tc main_arg15)) (V (Proc.devRef .tc main_arg16)) := by
  after_results; rfl

theorem after2_3_v36 (V : Valuation τ sig (Elt F)) :
    StableHlo.after hostOps2_3 V (Proc.devRef .tc main_v36) = softplusRow (V (Proc.devRef .tc main_v35)) := by
  after_results_simp
  simp only [StableHlo.TRef.ofBuf, StableHlo.TRef.toBuf, cast_eq]
  rfl

/-! ## What each host stretch leaves unchanged -/

variable (m : (ℓ : Loc nD τ sig) → Buf (Elt F) ℓ)

theorem W1_of (c : Dev nD) (r : Ref sig .tc) (h : r ∉ hostOps0_W) :
    W1 m c (Proc.devRef .tc r) = W0 m c (Proc.devRef .tc r) :=
  StableHlo.after_of_writes_sub hostOps0 _ hostOps0_writes h
theorem W2_of (c : Dev nD) (r : Ref sig .tc) (h : r ∉ hostOps0_1_W) :
    W2 m c (Proc.devRef .tc r) = W1 m c (Proc.devRef .tc r) :=
  StableHlo.after_of_writes_sub hostOps0_1 _ hostOps0_1_writes h
theorem W3_of (c : Dev nD) (r : Ref sig .tc) (h : r ∉ hostOps0_2_W) :
    W3 m c (Proc.devRef .tc r) = W2 m c (Proc.devRef .tc r) :=
  StableHlo.after_of_writes_sub hostOps0_2 _ hostOps0_2_writes h
theorem W5_of (c : Dev nD) (r : Ref sig .tc) (h : r ∉ hostOps1_W) :
    W5 m c (Proc.devRef .tc r) = W4 m c (Proc.devRef .tc r) :=
  StableHlo.after_of_writes_sub hostOps1 _ hostOps1_writes h
theorem W7_of (c : Dev nD) (r : Ref sig .tc) (h : r ∉ hostOps2_W) :
    W7 m c (Proc.devRef .tc r) = W6 m c (Proc.devRef .tc r) :=
  StableHlo.after_of_writes_sub hostOps2 _ hostOps2_writes h
theorem W8_of (c : Dev nD) (r : Ref sig .tc) (h : r ∉ hostOps2_1_W) :
    W8 m c (Proc.devRef .tc r) = W7 m c (Proc.devRef .tc r) :=
  StableHlo.after_of_writes_sub hostOps2_1 _ hostOps2_1_writes h
theorem W9_of (c : Dev nD) (r : Ref sig .tc) (h : r ∉ hostOps2_2_W) :
    W9 m c (Proc.devRef .tc r) = W8 m c (Proc.devRef .tc r) :=
  StableHlo.after_of_writes_sub hostOps2_2 _ hostOps2_2_writes h
theorem W10_of (c : Dev nD) (r : Ref sig .tc) (h : r ∉ hostOps2_3_W) :
    W10 m c (Proc.devRef .tc r) = W9 m c (Proc.devRef .tc r) :=
  StableHlo.after_of_writes_sub hostOps2_3 _ hostOps2_3_writes h

/-- A buffer that no stretch before region 0 writes enters region 0 as launched. -/
theorem W3_launch (c : Dev nD) (r : Ref sig .tc) (h0 : r ∉ hostOps0_W) (h1 : r ∉ hostOps0_1_W) (h2 : r ∉ hostOps0_2_W) :
    W3 m c (Proc.devRef .tc r) = m ((c : Thread nD τ).loc r) :=
  (W3_of m c r h2).trans <| (W2_of m c r h1).trans <| (W1_of m c r h0).trans rfl

/-- A buffer that is no array of either region and that no stretch up to region 1 writes leaves region 1 as launched. -/
theorem W6_launch (c : Dev nD) (r : Ref sig .tc) (hr0 : ∀ w, Pipeline.arrRef spec0 w ≠ r) (hr1 : ∀ w, Pipeline.arrRef spec1 w ≠ r)
    (h0 : r ∉ hostOps0_W) (h1 : r ∉ hostOps0_1_W) (h2 : r ∉ hostOps0_2_W) (h4 : r ∉ hostOps1_W) :
    W6 m c (Proc.devRef .tc r) = m ((c : Thread nD τ).loc r) :=
  (W6_of_ne m c r hr1).trans <| (W5_of m c r h4).trans <| (W4_of_ne m c r hr0).trans <| W3_launch m c r h0 h1 h2

theorem W6_main_arg13 (c : Dev nD) : W6 m c (Proc.devRef .tc main_arg13) = m ((c : Thread nD τ).loc main_arg13) :=
  W6_launch m c main_arg13 (by decide) (by decide) (by decide) (by decide) (by decide) (by decide)
theorem W6_main_arg14 (c : Dev nD) : W6 m c (Proc.devRef .tc main_arg14) = m ((c : Thread nD τ).loc main_arg14) :=
  W6_launch m c main_arg14 (by decide) (by decide) (by decide) (by decide) (by decide) (by decide)
theorem W6_main_arg15 (c : Dev nD) : W6 m c (Proc.devRef .tc main_arg15) = m ((c : Thread nD τ).loc main_arg15) :=
  W6_launch m c main_arg15 (by decide) (by decide) (by decide) (by decide) (by decide) (by decide)
theorem W6_main_arg16 (c : Dev nD) : W6 m c (Proc.devRef .tc main_arg16) = m ((c : Thread nD τ).loc main_arg16) :=
  W6_launch m c main_arg16 (by decide) (by decide) (by decide) (by decide) (by decide) (by decide)

/-- `main_arg2` is an input window's array in both regions: a region hands an input window's array back as it found
    it, and no host stretch writes it. -/
theorem W6_main_arg2 (c : Dev nD) : W6 m c (Proc.devRef .tc main_arg2) = m ((c : Thread nD τ).loc main_arg2) :=
  calc W6 m c (Proc.devRef .tc main_arg2)
    _ = W5 m c (Proc.devRef .tc main_arg2) :=
        (W6_arr m c 2).trans (((dat1 (E5 m) c).arrAt_in 2 rfl _).trans (A_eq1 (E5 m) c 2))
    _ = W4 m c (Proc.devRef .tc main_arg2) := W5_of m c main_arg2 (by decide)
    _ = W3 m c (Proc.devRef .tc main_arg2) :=
        (W4_arr m c 3).trans (((dat0 (E3 m) c).arrAt_in 3 rfl _).trans (A_eq0 (E3 m) c 3))
    _ = m ((c : Thread nD τ).loc main_arg2) := W3_launch m c main_arg2 (by decide) (by decide) (by decide)

end Readout

variable (m : (ℓ : Loc nD τ sig) → Buf (Elt F) ℓ)

/-- Region 1 does not touch the edge rows region 0 wrote, nor does the segment-mean stretch between the regions. -/
theorem W6_main_v4 (c : Dev nD) : W6 m c (Proc.devRef .tc main_v4) = W4 m c (Proc.devRef .tc main_v4) :=
  (W6_of_ne m c main_v4 (by decide)).trans (W5_of m c main_v4 (by decide))

/-- No item after region 0 writes the edge rows. -/
theorem W10_main_v4 (c : Dev nD) : W10 m c (Proc.devRef .tc main_v4) = W4 m c (Proc.devRef .tc main_v4) :=
  (W10_of m c main_v4 (by decide)).trans <| (W9_of m c main_v4 (by decide)).trans <| (W8_of m c main_v4 (by decide)).trans <|
    (W7_of m c main_v4 (by decide)).trans (W6_main_v4 m c)

/-- The readout stretches do not write the node rows region 1 wrote. -/
theorem W10_main_v19 (c : Dev nD) : W10 m c (Proc.devRef .tc main_v19) = W6 m c (Proc.devRef .tc main_v19) :=
  (W10_of m c main_v19 (by decide)).trans <| (W9_of m c main_v19 (by decide)).trans <| (W8_of m c main_v19 (by decide)).trans
    (W7_of m c main_v19 (by decide))

/-- The program's third result is the readout of the edge and node rows as region 1 leaves them and of the launch
    contents of the global row and the readout's weights. -/
theorem W10_main_v36 (c : Dev nD) :
    W10 m c (Proc.devRef .tc main_v36)
      = readout (W6 m c (Proc.devRef .tc main_v4)) (W6 m c (Proc.devRef .tc main_v19)) (m ((c : Thread nD τ).loc main_arg2))
          (m ((c : Thread nD τ).loc main_arg13)) (m ((c : Thread nD τ).loc main_arg14))
          (m ((c : Thread nD τ).loc main_arg15)) (m ((c : Thread nD τ).loc main_arg16)) := by
  have e15 : W8 m c (Proc.devRef .tc main_arg15) = m ((c : Thread nD τ).loc main_arg15) :=
    (W8_of m c main_arg15 (by decide)).trans <| (W7_of m c main_arg15 (by decide)).trans (W6_main_arg15 m c)
  have e16 : W8 m c (Proc.devRef .tc main_arg16) = m ((c : Thread nD τ).loc main_arg16) :=
    (W8_of m c main_arg16 (by decide)).trans <| (W7_of m c main_arg16 (by decide)).trans (W6_main_arg16 m c)
  unfold readout
  rw [← W6_main_arg2 m c, ← W6_main_arg13 m c, ← W6_main_arg14 m c, ← e15, ← e16, ← after2_v31 (W6 m c)]
  rw [← after2_1_v32 (W7 m c), ← after2_2_v35 (W8 m c)]
  exact after2_3_v36 (W9 m c)

/-- The reference computes its third result by the same readout, from its own edge rows (`val_main_v26`) and node
    rows (`val_main_v50`): its stages from the two column sums on are the readout's operations one by one, over
    descriptors equal to the kernel program's. -/
theorem readout_ref (x0 : (⟨Cert.ReferenceIdeal.S1600000x32, .f32⟩ : BufTy).Contents (Elt F)) (x1 : (⟨Cert.ReferenceIdeal.S50000x32, .f32⟩ : BufTy).Contents (Elt F)) (x2 : (⟨Cert.ReferenceIdeal.S1x32, .f32⟩ : BufTy).Contents (Elt F))
    (x3 : (⟨Cert.ReferenceIdeal.S1600000, .i32⟩ : BufTy).Contents (Elt F)) (x4 : (⟨Cert.ReferenceIdeal.S1600000, .i32⟩ : BufTy).Contents (Elt F)) (x5 : (⟨Cert.ReferenceIdeal.S128x64, .f32⟩ : BufTy).Contents (Elt F))
    (x6 : (⟨Cert.ReferenceIdeal.S64, .f32⟩ : BufTy).Contents (Elt F)) (x7 : (⟨Cert.ReferenceIdeal.S64x64, .f32⟩ : BufTy).Contents (Elt F)) (x8 : (⟨Cert.ReferenceIdeal.S64, .f32⟩ : BufTy).Contents (Elt F)) (x9 : (⟨Cert.ReferenceIdeal.S128x64, .f32⟩ : BufTy).Contents (Elt F))
    (x10 : (⟨Cert.ReferenceIdeal.S64, .f32⟩ : BufTy).Contents (Elt F)) (x11 : (⟨Cert.ReferenceIdeal.S64x64, .f32⟩ : BufTy).Contents (Elt F)) (x12 : (⟨Cert.ReferenceIdeal.S64, .f32⟩ : BufTy).Contents (Elt F)) (x13 : (⟨Cert.ReferenceIdeal.S160x64, .f32⟩ : BufTy).Contents (Elt F))
    (x14 : (⟨Cert.ReferenceIdeal.S64, .f32⟩ : BufTy).Contents (Elt F)) (x15 : (⟨Cert.ReferenceIdeal.S64x64, .f32⟩ : BufTy).Contents (Elt F)) (x16 : (⟨Cert.ReferenceIdeal.S64, .f32⟩ : BufTy).Contents (Elt F)) :
    Cert.ReferenceIdeal.ReadP.val_main_v67 (F := F) x0 x1 x2 x3 x4 x5 x6 x7 x8 x9 x10 x11 x12 x13 x14 x15 x16
      = readout (Cert.ReferenceIdeal.ReadP.val_main_v26 (F := F) x0 x1 x2 x3 x4 x5 x6 x7 x8) (Cert.ReferenceIdeal.ReadP.val_main_v50 (F := F) x0 x1 x2 x3 x4 x5 x6 x7 x8 x9 x10 x11 x12) x2 x13 x14 x15 x16 := by
  unfold Cert.ReferenceIdeal.ReadP.val_main_v67 Cert.ReferenceIdeal.ReadP.val_main_call5_v11 Cert.ReferenceIdeal.ReadP.val_main_call5_v10 Cert.ReferenceIdeal.ReadP.val_main_call5_v9
  unfold Cert.ReferenceIdeal.ReadP.val_main_call5_v8 Cert.ReferenceIdeal.ReadP.val_main_call5_v7 Cert.ReferenceIdeal.ReadP.val_main_call5_v6 Cert.ReferenceIdeal.ReadP.val_main_call5_v4
  unfold Cert.ReferenceIdeal.ReadP.val_main_call5_v3 Cert.ReferenceIdeal.ReadP.val_main_call5_v1 Cert.ReferenceIdeal.ReadP.val_main_call5_v0 Cert.ReferenceIdeal.ReadP.val_main_call5_v2
  unfold Cert.ReferenceIdeal.ReadP.val_main_call5_v5 Cert.ReferenceIdeal.ReadP.val_main_call5_cst Cert.ReferenceIdeal.ReadP.val_main_v66 Cert.ReferenceIdeal.ReadP.val_main_v65
  unfold Cert.ReferenceIdeal.ReadP.val_main_v64 Cert.ReferenceIdeal.ReadP.val_main_v63 Cert.ReferenceIdeal.ReadP.val_main_call4_v11 Cert.ReferenceIdeal.ReadP.val_main_call4_v10
  unfold Cert.ReferenceIdeal.ReadP.val_main_call4_v9 Cert.ReferenceIdeal.ReadP.val_main_call4_v8 Cert.ReferenceIdeal.ReadP.val_main_call4_v7 Cert.ReferenceIdeal.ReadP.val_main_call4_v6
  unfold Cert.ReferenceIdeal.ReadP.val_main_call4_v4 Cert.ReferenceIdeal.ReadP.val_main_call4_v3 Cert.ReferenceIdeal.ReadP.val_main_call4_v1 Cert.ReferenceIdeal.ReadP.val_main_call4_v0
  unfold Cert.ReferenceIdeal.ReadP.val_main_call4_v2 Cert.ReferenceIdeal.ReadP.val_main_call4_v5 Cert.ReferenceIdeal.ReadP.val_main_call4_cst Cert.ReferenceIdeal.ReadP.val_main_v62
  unfold Cert.ReferenceIdeal.ReadP.val_main_v61 Cert.ReferenceIdeal.ReadP.val_main_v60 Cert.ReferenceIdeal.ReadP.val_main_v59 Cert.ReferenceIdeal.ReadP.val_main_v58
  unfold Cert.ReferenceIdeal.ReadP.val_main_v57 Cert.ReferenceIdeal.ReadP.val_main_cst_9 Cert.ReferenceIdeal.ReadP.val_main_v56 Cert.ReferenceIdeal.ReadP.val_main_v55
  unfold Cert.ReferenceIdeal.ReadP.val_main_cst_8 Cert.ReferenceIdeal.ReadP.val_main_v54 Cert.ReferenceIdeal.ReadP.val_main_v53 Cert.ReferenceIdeal.ReadP.val_main_cst_7
  unfold Cert.ReferenceIdeal.ReadP.val_main_v52 Cert.ReferenceIdeal.ReadP.val_main_v51 Cert.ReferenceIdeal.ReadP.val_main_cst_6
  generalize Cert.ReferenceIdeal.ReadP.val_main_v26 (F := F) x0 x1 x2 x3 x4 x5 x6 x7 x8 = e
  generalize Cert.ReferenceIdeal.ReadP.val_main_v50 (F := F) x0 x1 x2 x3 x4 x5 x6 x7 x8 x9 x10 x11 x12 = v
  rfl

end Cert.KernelIdeal.Hand

end
-- ==== Proof.KI.HostTake.lean ====
/-
  Region 0's windows as the kernel program's host operations leave them, and the reference's two gathers in the same
  words.

  The kernel program gathers the node rows at the source and at the destination indices in three steps: a
  negative index is moved up by the number of rows (50000), the gather clamps the row number into the table, and every
  row whose moved-up index lies outside [0, 49999] is then overwritten by a fill value. The reference moves the index
  up the same way and gathers with the same clamp, and overwrites nothing. When every index is a row number, 0 ≤ i <
  50000, the moved-up index is the index, both bound tests hold at every entry, their conjunction reduced over the
  axis of size one is 1, so the overwrite selects the gathered value everywhere: the kernel program's gathered array
  is `takeRows`, the reference's term. The two biases reach the region reshaped from 64 to 1 × 64, and the other
  four inputs as launched.
-/
import proofs.«409539_j52209622450458_2_alg».proof.Proof.KI.Fold
import proofs.«409539_j52209622450458_2_alg».proof.Proof.RI.Read
import proofs.«409539_j52209622450458_2_alg».proof.Proof.Spec
import proofs.«409539_j52209622450458_2_alg».proof.Proof.Gen.KernelIdeal.Regions
import Idealize.ShloMosaic.Lib.StableHlo.Predicate

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.StableHlo

variable {F : FTy → Type} [FloatOps F]

/-- The rows of the node table at the entries of an index array, a negative entry counted from the end; the
    gather clamps the row number into the table. -/
def takeRows (node : (⟨S50000x32, .f32⟩ : BufTy).Contents (Elt F)) (idx : (⟨S1600000, .i32⟩ : BufTy).Contents (Elt F)) :
    (⟨S1600000x32, .f32⟩ : BufTy).Contents (Elt F) :=
  Host.gather gather_S50000x32_S1600000x1_S1600000x32_1_0_n_n_0_1_132 node
    (broadcastInDim S1600000x1 ![0] bcast_S1600000_S1600000x1_0
      (select (cmpi .slt idx (broadcastInDim S1600000 ![] bcast_S_S1600000 (constantI S_ 32 0#32)))
        (addi idx (broadcastInDim S1600000 ![] bcast_S_S1600000 (constantI S_ 32 50000#32))) idx))

namespace Take

/-- An index array with each negative entry moved up by the number of node rows. -/
def wrapIdx (idx : (⟨S1600000, .i32⟩ : BufTy).Contents (Elt F)) : (⟨S1600000, .i32⟩ : BufTy).Contents (Elt F) :=
  select (cmpi .slt idx (broadcastInDim S1600000 ![] bcast_S_S1600000 (constantI S_ 32 0#32)))
    (addi idx (broadcastInDim S1600000 ![] bcast_S_S1600000 (constantI S_ 32 50000#32))) idx

/-- Per entry: is the moved-up index a row number of the table. -/
def inMask (idx : (⟨S1600000, .i32⟩ : BufTy).Contents (Elt F)) : (⟨S1600000, .i1⟩ : BufTy).Contents (Elt F) :=
  Host.reduce IntOp.andi
    (andi
      (cmpi .sge (broadcastInDim S1600000x1 ![0] bcast_S1600000_S1600000x1_0 (wrapIdx (F := F) idx))
        (broadcastInDim S1600000x1 ![] bcast_S_S1600000x1 (constantI S_ 32 0#32)))
      (cmpi .sle (broadcastInDim S1600000x1 ![0] bcast_S1600000_S1600000x1_0 (wrapIdx (F := F) idx))
        (broadcastInDim S1600000x1 ![0, 1] bcast_S1x1_S1600000x1_0_1
          (broadcastInDim S1x1 ![1] bcast_S1_S1x1_1 (constantI S1 32 49999#32)))))
    (constantI S_ 1 1#1) reducesTo_S1600000x1_S1600000_d1 h_S_

/-- The gathered rows with every row whose moved-up index is no row number overwritten by a fill value. -/
def takeFill (node : (⟨S50000x32, .f32⟩ : BufTy).Contents (Elt F)) (idx : (⟨S1600000, .i32⟩ : BufTy).Contents (Elt F)) :
    (⟨S1600000x32, .f32⟩ : BufTy).Contents (Elt F) :=
  select (broadcastInDim S1600000x32 ![0] bcast_S1600000_S1600000x32_0 (inMask (F := F) idx))
    (takeRows node idx)
    (broadcastInDim S1600000x32 ![] bcast_S_S1600000x32 (constant S_ .f32 0x7FC00000#32))

/-! ## Words -/

/-- A word that reads, signed, as a number in [0, 50000) is that number unsigned. -/
theorem toNat_lt_of_inRange {a : BitVec 32} (h0 : 0 ≤ a.toInt) (h1 : a.toInt < 50000) : a.toNat < 50000 := by
  rw [BitVec.toInt_eq_toNat_cond] at h0 h1
  split at h0 <;> omega

/-- A row number is not negative: the move-up leaves it. -/
theorem wrap_of_lt {a : BitVec 32} (h : a.toNat < 50000) :
    Scalar.select (IntOp.cmpi .slt a 0#32) (IntOp.addi a 50000#32) a = a := by
  have hn : ¬ IntOp.cmpi .slt a 0#32 = 1#1 := fun e =>
    Nat.not_lt_zero _ ((StableHlo.Predicate.slt_iff_toNat (by omega) (by decide)).mp e)
  exact if_neg hn

/-- A row number passes both bound tests. -/
theorem bounds_of_lt {a : BitVec 32} (h : a.toNat < 50000) :
    IntOp.andi (IntOp.cmpi .sge a 0#32) (IntOp.cmpi .sle a 49999#32) = 1#1 := by
  have h1 : IntOp.cmpi .sge a 0#32 = 1#1 :=
    (StableHlo.Predicate.sge_iff_toNat (by omega) (by decide)).mpr (Nat.zero_le _)
  have h2 : IntOp.cmpi .sle a 49999#32 = 1#1 :=
    (StableHlo.Predicate.sle_iff_toNat (by omega) (by decide)).mpr (by show a.toNat ≤ 49999; omega)
  rw [h1, h2]; rfl

/-- A left fold by `and` from 1 over 1s is 1. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..)]
    exact foldl_andi_ones f l fun n hn => h n (List.mem_cons_of_mem _ hn)

/-! ## The fill mask under the precondition -/

/-- In range, the move-up changes no entry. -/
theorem wrapIdx_of_inRange (idx : (⟨S1600000, .i32⟩ : BufTy).Contents (Elt F)) (h : Cert.Spec.InRange idx) :
    wrapIdx (F := F) idx = idx := by
  funext k
  exact wrap_of_lt (toNat_lt_of_inRange (h k).1 (h k).2)

/-- In range, every entry's mask bit is set. -/
theorem inMask_of_inRange (idx : (⟨S1600000, .i32⟩ : BufTy).Contents (Elt F)) (h : Cert.Spec.InRange idx) :
    inMask (F := F) idx = fun _ => 1#1 := by
  funext j
  unfold inMask
  rw [wrapIdx_of_inRange idx h, Host.reduce_eq_foldl]
  refine foldl_andi_ones _ _ fun i _ => ?_
  exact bounds_of_lt (toNat_lt_of_inRange (h _).1 (h _).2)

/-- In range, no row is overwritten. -/
theorem takeFill_of_inRange (node : (⟨S50000x32, .f32⟩ : BufTy).Contents (Elt F))
    (idx : (⟨S1600000, .i32⟩ : BufTy).Contents (Elt F)) (h : Cert.Spec.InRange idx) :
    takeFill node idx = takeRows node idx := by
  unfold takeFill
  rw [inMask_of_inRange idx h]
  funext i
  show Scalar.select (1#1 : BitVec 1) (takeRows node idx i) _ = takeRows node idx i
  exact if_pos rfl

/-! ## The stretches

A stretch's result is read off its operations; a value stored at a typed reference and read back is the value, and at
a literal reference the transport along its type equation is the identity. -/

theorem ofBuf_toBuf {T : BufTy} {Val : EltTy → Type} (x : TRef sig T) (v : T.Contents Val) : x.ofBuf (x.toBuf v) = v := by
  simp only [TRef.ofBuf, TRef.toBuf, cast_cast, cast_eq]

theorem toBuf_heq {T : BufTy} {Val : EltTy → Type} (x : TRef sig T) (v : T.Contents Val) : HEq (x.toBuf v) v :=
  cast_heq _ _

theorem ofBuf_arg1 (V : Valuation τ sig (Elt F)) :
    (TRef.of main_arg1 : TRef sig ⟨S50000x32, .f32⟩).ofBuf (V (Proc.devRef .tc main_arg1)) = V (Proc.devRef .tc main_arg1) := rfl
theorem ofBuf_arg3 (V : Valuation τ sig (Elt F)) :
    (TRef.of main_arg3 : TRef sig ⟨S1600000, .i32⟩).ofBuf (V (Proc.devRef .tc main_arg3)) = V (Proc.devRef .tc main_arg3) := rfl
theorem ofBuf_arg4 (V : Valuation τ sig (Elt F)) :
    (TRef.of main_arg4 : TRef sig ⟨S1600000, .i32⟩).ofBuf (V (Proc.devRef .tc main_arg4)) = V (Proc.devRef .tc main_arg4) := rfl

/-- What the first gather stretch leaves in its result, of what it finds in the node table and the source indices. -/
theorem after_hostOps0_v0 (V : Valuation τ sig (Elt F)) :
    StableHlo.after hostOps0 V (Proc.devRef .tc main_v0)
      = takeFill (V (Proc.devRef .tc main_arg1)) (V (Proc.devRef .tc main_arg3)) := by
  after_results_simp
  simp only [ofBuf_toBuf]
  rw [ofBuf_arg1 V, ofBuf_arg3 V]
  refine eq_of_heq ((toBuf_heq _ _).trans (heq_of_eq ?_))
  unfold takeFill inMask takeRows wrapIdx
  rfl

/-- What the second gather stretch leaves in its result, of what it finds in the node table and the destination indices. -/
theorem after_hostOps0_1_v1 (V : Valuation τ sig (Elt F)) :
    StableHlo.after hostOps0_1 V (Proc.devRef .tc main_v1)
      = takeFill (V (Proc.devRef .tc main_arg1)) (V (Proc.devRef .tc main_arg4)) := by
  after_results_simp
  simp only [ofBuf_toBuf]
  rw [ofBuf_arg1 V, ofBuf_arg4 V]
  refine eq_of_heq ((toBuf_heq _ _).trans (heq_of_eq ?_))
  unfold takeFill inMask takeRows wrapIdx
  rfl

/-- What the reshape stretch leaves in its two results. -/
theorem after_hostOps0_2_v2 (V : Valuation τ sig (Elt F)) :
    StableHlo.after hostOps0_2 V (Proc.devRef .tc main_v2)
      = shapeCast S1x64 (V (Proc.devRef .tc main_arg6)) shapeCasts_S64_S1x64 := by
  after_results
  rfl
theorem after_hostOps0_2_v3 (V : Valuation τ sig (Elt F)) :
    StableHlo.after hostOps0_2 V (Proc.devRef .tc main_v3)
      = shapeCast S1x64 (V (Proc.devRef .tc main_arg8)) shapeCasts_S64_S1x64 := by
  after_results
  rfl

end Take

/-! ## Region 0's windows as it finds them -/

section Windows

variable (m : (ℓ : Loc nD τ sig) → Buf (Elt F) ℓ)

/-- A buffer none of the three stretches writes is as launched. -/
theorem Take.E3_of_launch (c : Dev nD) (r : Ref sig .tc) (h0 : r ∉ hostOps0_W) (h1 : r ∉ hostOps0_1_W) (h2 : r ∉ hostOps0_2_W) :
    W3 m c (Proc.devRef .tc r) = m ((c.tc : Thread nD τ).loc r) :=
  (V3_of m c r h2).trans ((V2_of m c r h1).trans (V1_of m c r h0))

theorem E3_w0 (c : Dev nD) (h : Cert.Spec.InRange (m ((c.tc : Thread nD τ).loc main_arg3))) :
    E3 m c (Pipeline.arrRef spec0 0)
      = takeRows (m ((c.tc : Thread nD τ).loc main_arg1)) (m ((c.tc : Thread nD τ).loc main_arg3)) := by
  have e : E3 m c (Pipeline.arrRef spec0 0) = W1 m c (Proc.devRef .tc main_v0) :=
    (V3_of m c main_v0 (by decide)).trans (V2_of m c main_v0 (by decide))
  rw [e]
  exact (Take.after_hostOps0_v0 (W0 m c)).trans (Take.takeFill_of_inRange _ _ h)

theorem E3_w1 (c : Dev nD) (h : Cert.Spec.InRange (m ((c.tc : Thread nD τ).loc main_arg4))) :
    E3 m c (Pipeline.arrRef spec0 1)
      = takeRows (m ((c.tc : Thread nD τ).loc main_arg1)) (m ((c.tc : Thread nD τ).loc main_arg4)) := by
  have e : E3 m c (Pipeline.arrRef spec0 1) = W2 m c (Proc.devRef .tc main_v1) := V3_of m c main_v1 (by decide)
  have e1 : W1 m c (Proc.devRef .tc main_arg1) = m ((c.tc : Thread nD τ).loc main_arg1) := V1_of m c main_arg1 (by decide)
  have e4 : W1 m c (Proc.devRef .tc main_arg4) = m ((c.tc : Thread nD τ).loc main_arg4) := V1_of m c main_arg4 (by decide)
  rw [e]
  exact ((Take.after_hostOps0_1_v1 (W1 m c)).trans (congrArg₂ Take.takeFill e1 e4)).trans (Take.takeFill_of_inRange _ _ h)

theorem E3_w2 (c : Dev nD) : E3 m c (Pipeline.arrRef spec0 2) = m ((c.tc : Thread nD τ).loc main_arg0) :=
  Take.E3_of_launch m c main_arg0 (by decide) (by decide) (by decide)
theorem E3_w3 (c : Dev nD) : E3 m c (Pipeline.arrRef spec0 3) = m ((c.tc : Thread nD τ).loc main_arg2) :=
  Take.E3_of_launch m c main_arg2 (by decide) (by decide) (by decide)
theorem E3_w4 (c : Dev nD) : E3 m c (Pipeline.arrRef spec0 4) = m ((c.tc : Thread nD τ).loc main_arg5) :=
  Take.E3_of_launch m c main_arg5 (by decide) (by decide) (by decide)
theorem E3_w6 (c : Dev nD) : E3 m c (Pipeline.arrRef spec0 6) = m ((c.tc : Thread nD τ).loc main_arg7) :=
  Take.E3_of_launch m c main_arg7 (by decide) (by decide) (by decide)

theorem E3_w5 (c : Dev nD) :
    E3 m c (Pipeline.arrRef spec0 5) = shapeCast S1x64 (m ((c.tc : Thread nD τ).loc main_arg6)) shapeCasts_S64_S1x64 := by
  have e : W2 m c (Proc.devRef .tc main_arg6) = m ((c.tc : Thread nD τ).loc main_arg6) :=
    (V2_of m c main_arg6 (by decide)).trans (V1_of m c main_arg6 (by decide))
  exact (Take.after_hostOps0_2_v2 (W2 m c)).trans (congrArg (fun x => shapeCast S1x64 x shapeCasts_S64_S1x64) e)

theorem E3_w7 (c : Dev nD) :
    E3 m c (Pipeline.arrRef spec0 7) = shapeCast S1x64 (m ((c.tc : Thread nD τ).loc main_arg8)) shapeCasts_S64_S1x64 := by
  have e : W2 m c (Proc.devRef .tc main_arg8) = m ((c.tc : Thread nD τ).loc main_arg8) :=
    (V2_of m c main_arg8 (by decide)).trans (V1_of m c main_arg8 (by decide))
  exact (Take.after_hostOps0_2_v3 (W2 m c)).trans (congrArg (fun x => shapeCast S1x64 x shapeCasts_S64_S1x64) e)

end Windows

/-! ## The reference's two gathers -/

theorem takeRows_ref (x1 : (⟨Cert.ReferenceIdeal.S50000x32, .f32⟩ : BufTy).Contents (Elt F))
    (x3 : (⟨Cert.ReferenceIdeal.S1600000, .i32⟩ : BufTy).Contents (Elt F)) :
    Cert.ReferenceIdeal.ReadP.val_main_v7 (F := F) x1 x3 = takeRows x1 x3 := by
  unfold Cert.ReferenceIdeal.ReadP.val_main_v7
  unfold Cert.ReferenceIdeal.ReadP.val_main_v6
  unfold Cert.ReferenceIdeal.ReadP.val_main_v5
  unfold Cert.ReferenceIdeal.ReadP.val_main_v4 Cert.ReferenceIdeal.ReadP.val_main_v2
  unfold Cert.ReferenceIdeal.ReadP.val_main_v3 Cert.ReferenceIdeal.ReadP.val_main_v1
  unfold Cert.ReferenceIdeal.ReadP.val_main_c_0 Cert.ReferenceIdeal.ReadP.val_main_c
  rfl

theorem takeRows_ref' (x1 : (⟨Cert.ReferenceIdeal.S50000x32, .f32⟩ : BufTy).Contents (Elt F))
    (x4 : (⟨Cert.ReferenceIdeal.S1600000, .i32⟩ : BufTy).Contents (Elt F)) :
    Cert.ReferenceIdeal.ReadP.val_main_v14 (F := F) x1 x4 = takeRows x1 x4 := by
  unfold Cert.ReferenceIdeal.ReadP.val_main_v14
  unfold Cert.ReferenceIdeal.ReadP.val_main_v13
  unfold Cert.ReferenceIdeal.ReadP.val_main_v12
  unfold Cert.ReferenceIdeal.ReadP.val_main_v11 Cert.ReferenceIdeal.ReadP.val_main_v9
  unfold Cert.ReferenceIdeal.ReadP.val_main_v10 Cert.ReferenceIdeal.ReadP.val_main_v8
  unfold Cert.ReferenceIdeal.ReadP.val_main_c_2 Cert.ReferenceIdeal.ReadP.val_main_c_1
  rfl

end Cert.KernelIdeal.Hand

end
-- ==== Proof.Values.lean ====
/-
  The three results of both programs as functions of the seventeen argument arrays.

  The edge update is the row-wise perceptron on the gathered source and destination rows, the edge features and the
  graph attribute; the node update is the row-wise perceptron on the node features, the mean of the incoming edge
  updates and the graph attribute; the graph update is the readout of those two. The kernel program's buffers at
  its end and the reference program's values are each shown equal to these three functions of the arguments.
-/
import proofs.«409539_j52209622450458_2_alg».proof.Proof.KI.Fold
import proofs.«409539_j52209622450458_2_alg».proof.Proof.RI.Read
import proofs.«409539_j52209622450458_2_alg».proof.Proof.Spec
import proofs.«409539_j52209622450458_2_alg».proof.Proof.KI.Blocks1
import proofs.«409539_j52209622450458_2_alg».proof.Proof.RI.Rows
import proofs.«409539_j52209622450458_2_alg».proof.Proof.KI.HostMean
import proofs.«409539_j52209622450458_2_alg».proof.Proof.KI.Blocks0
import proofs.«409539_j52209622450458_2_alg».proof.Proof.KI.HostReadout
import proofs.«409539_j52209622450458_2_alg».proof.Proof.KI.HostTake
import Idealize.ShloMosaic.Lib.ValueLayout

set_option maxRecDepth 16384

noncomputable section

namespace Cert.Bridge

open Cert.KernelIdeal Cert.KernelIdeal.Gen Cert.KernelIdeal.Hand
open Idealize.ShloMosaic Idealize.ShloMosaic.TcCoe
open Idealize.SL Idealize.SL.Sem
open Cert.ReferenceIdeal.Rows (v26_rows v50_rows)

/-! ## The three results as functions of the arguments -/

/-- The edge update: the row-wise perceptron on the source and destination rows of the node table, the edge
    features and the graph attribute. -/
def eOf (a0 : (⟨S1600000x32, .f32⟩ : BufTy).Contents (Elt Ideal)) (a1 : (⟨S50000x32, .f32⟩ : BufTy).Contents (Elt Ideal)) (a2 : (⟨S1x32, .f32⟩ : BufTy).Contents (Elt Ideal)) (a3 : (⟨S1600000, .i32⟩ : BufTy).Contents (Elt Ideal)) (a4 : (⟨S1600000, .i32⟩ : BufTy).Contents (Elt Ideal)) (a5 : (⟨S128x64, .f32⟩ : BufTy).Contents (Elt Ideal)) (a6 : (⟨S64, .f32⟩ : BufTy).Contents (Elt Ideal)) (a7 : (⟨S64x64, .f32⟩ : BufTy).Contents (Elt Ideal)) (a8 : (⟨S64, .f32⟩ : BufTy).Contents (Elt Ideal)) : (⟨S1600000x64, .f32⟩ : BufTy).Contents (Elt Ideal) :=
  Cert.Spec.eNew (takeRows a1 a3) (takeRows a1 a4) a0 (Cert.Spec.row0 a2) a5 (Cert.Spec.vec a6) a7 (Cert.Spec.vec a8)

/-- The node update: the row-wise perceptron on the node features, the mean of the incoming edge updates and the
    graph attribute. -/
def vOf (a0 : (⟨S1600000x32, .f32⟩ : BufTy).Contents (Elt Ideal)) (a1 : (⟨S50000x32, .f32⟩ : BufTy).Contents (Elt Ideal)) (a2 : (⟨S1x32, .f32⟩ : BufTy).Contents (Elt Ideal)) (a3 : (⟨S1600000, .i32⟩ : BufTy).Contents (Elt Ideal)) (a4 : (⟨S1600000, .i32⟩ : BufTy).Contents (Elt Ideal)) (a5 : (⟨S128x64, .f32⟩ : BufTy).Contents (Elt Ideal)) (a6 : (⟨S64, .f32⟩ : BufTy).Contents (Elt Ideal)) (a7 : (⟨S64x64, .f32⟩ : BufTy).Contents (Elt Ideal)) (a8 : (⟨S64, .f32⟩ : BufTy).Contents (Elt Ideal)) (a9 : (⟨S128x64, .f32⟩ : BufTy).Contents (Elt Ideal)) (a10 : (⟨S64, .f32⟩ : BufTy).Contents (Elt Ideal)) (a11 : (⟨S64x64, .f32⟩ : BufTy).Contents (Elt Ideal)) (a12 : (⟨S64, .f32⟩ : BufTy).Contents (Elt Ideal)) : (⟨S50000x64, .f32⟩ : BufTy).Contents (Elt Ideal) :=
  Cert.Spec.vNew a1 (segMean (eOf a0 a1 a2 a3 a4 a5 a6 a7 a8) a4) (Cert.Spec.row0 a2) a9 (Cert.Spec.vec a10) a11 (Cert.Spec.vec a12)

/-- The graph update: the readout of the edge and node updates and the graph attribute. -/
def uOf (a0 : (⟨S1600000x32, .f32⟩ : BufTy).Contents (Elt Ideal)) (a1 : (⟨S50000x32, .f32⟩ : BufTy).Contents (Elt Ideal)) (a2 : (⟨S1x32, .f32⟩ : BufTy).Contents (Elt Ideal)) (a3 : (⟨S1600000, .i32⟩ : BufTy).Contents (Elt Ideal)) (a4 : (⟨S1600000, .i32⟩ : BufTy).Contents (Elt Ideal)) (a5 : (⟨S128x64, .f32⟩ : BufTy).Contents (Elt Ideal)) (a6 : (⟨S64, .f32⟩ : BufTy).Contents (Elt Ideal)) (a7 : (⟨S64x64, .f32⟩ : BufTy).Contents (Elt Ideal)) (a8 : (⟨S64, .f32⟩ : BufTy).Contents (Elt Ideal)) (a9 : (⟨S128x64, .f32⟩ : BufTy).Contents (Elt Ideal)) (a10 : (⟨S64, .f32⟩ : BufTy).Contents (Elt Ideal)) (a11 : (⟨S64x64, .f32⟩ : BufTy).Contents (Elt Ideal)) (a12 : (⟨S64, .f32⟩ : BufTy).Contents (Elt Ideal)) (a13 : (⟨S160x64, .f32⟩ : BufTy).Contents (Elt Ideal)) (a14 : (⟨S64, .f32⟩ : BufTy).Contents (Elt Ideal)) (a15 : (⟨S64x64, .f32⟩ : BufTy).Contents (Elt Ideal)) (a16 : (⟨S64, .f32⟩ : BufTy).Contents (Elt Ideal)) : (⟨S1x64, .f32⟩ : BufTy).Contents (Elt Ideal) :=
  readout (eOf a0 a1 a2 a3 a4 a5 a6 a7 a8) (vOf a0 a1 a2 a3 a4 a5 a6 a7 a8 a9 a10 a11 a12) a2 a13 a14 a15 a16

/-! ## A 64-vector reshaped to one row -/

/-- A vector of length 64 reshaped to 1 × 64 and read at (0, j) is the vector at j. -/
theorem row0_shapeCast (b : (⟨S64, .f32⟩ : BufTy).Contents (Elt Ideal)) :
    Cert.Spec.row0 (shapeCast S1x64 b shapeCasts_S64_S1x64) = Cert.Spec.vec b := by
  funext k
  exact ValueIdx.shapeCast_a_1a_apply b shapeCasts_S64_S1x64 0 k

/-! ## The kernel program's results -/

section Kernel
variable (m : (ℓ : Loc nD τ sig) → Buf (Elt Ideal) ℓ) (c : Dev nD)

/-- Region 0's output array at its exit is the edge update of the arguments. -/
theorem W4_main_v4 (hs : Cert.Spec.InRange (m ((c.tc : Thread nD τ).loc main_arg3))) (hd : Cert.Spec.InRange (m ((c.tc : Thread nD τ).loc main_arg4))) :
    W4 m c (Proc.devRef .tc main_v4) = eOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  show W4 m c (Proc.devRef .tc (Pipeline.arrRef spec0 8)) = _
  rw [W4_arr, arr0_eq, E3_w0 m c hs, E3_w1 m c hd, E3_w2, E3_w3, E3_w4, E3_w5, E3_w6, E3_w7, row0_shapeCast, row0_shapeCast]
  rfl

/-- Region 1's output array at its exit is the node update of the arguments. -/
theorem W6_main_v19 (hs : Cert.Spec.InRange (m ((c.tc : Thread nD τ).loc main_arg3))) (hd : Cert.Spec.InRange (m ((c.tc : Thread nD τ).loc main_arg4))) :
    W6 m c (Proc.devRef .tc main_v19) = vOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  show W6 m c (Proc.devRef .tc (Pipeline.arrRef spec1 7)) = _
  rw [W6_arr, arr1_eq, E5_w0, E5_w1, E5_w2, E5_w3, E5_w4, E5_w5, E5_w6, W4_main_v4 m c hs hd, row0_shapeCast, row0_shapeCast]
  rfl

/-- At the kernel program's end the three result buffers hold the edge, node and graph updates of the arguments. -/
theorem kernel_results (hs : Cert.Spec.InRange (m ((c.tc : Thread nD τ).loc main_arg3))) (hd : Cert.Spec.InRange (m ((c.tc : Thread nD τ).loc main_arg4))) :
    W10 m c (Proc.devRef .tc main_v4) = eOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
    ∧ W10 m c (Proc.devRef .tc main_v19) = vOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
    ∧ W10 m c (Proc.devRef .tc main_v36) = uOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by
  refine ⟨?_, ?_, ?_⟩
  · rw [W10_main_v4, W4_main_v4 m c hs hd]
  · rw [W10_main_v19, W6_main_v19 m c hs hd]
  · rw [W10_main_v36, W6_main_v4, W4_main_v4 m c hs hd, W6_main_v19 m c hs hd]
    rfl

end Kernel

/-! ## The reference program's results -/

/-- The reference program's three values are the edge, node and graph updates of the arguments. -/
theorem reference_results (x0 : (⟨S1600000x32, .f32⟩ : BufTy).Contents (Elt Ideal)) (x1 : (⟨S50000x32, .f32⟩ : BufTy).Contents (Elt Ideal)) (x2 : (⟨S1x32, .f32⟩ : BufTy).Contents (Elt Ideal)) (x3 : (⟨S1600000, .i32⟩ : BufTy).Contents (Elt Ideal)) (x4 : (⟨S1600000, .i32⟩ : BufTy).Contents (Elt Ideal)) (x5 : (⟨S128x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S128x64, .f32⟩ : BufTy).Contents (Elt Ideal)) (x10 : (⟨S64, .f32⟩ : BufTy).Contents (Elt Ideal)) (x11 : (⟨S64x64, .f32⟩ : BufTy).Contents (Elt Ideal)) (x12 : (⟨S64, .f32⟩ : BufTy).Contents (Elt Ideal)) (x13 : (⟨S160x64, .f32⟩ : BufTy).Contents (Elt Ideal)) (x14 : (⟨S64, .f32⟩ : BufTy).Contents (Elt Ideal)) (x15 : (⟨S64x64, .f32⟩ : BufTy).Contents (Elt Ideal)) (x16 : (⟨S64, .f32⟩ : BufTy).Contents (Elt Ideal)) :
    Cert.ReferenceIdeal.ReadP.val_main_v26 (F := Ideal) x0 x1 x2 x3 x4 x5 x6 x7 x8 = eOf x0 x1 x2 x3 x4 x5 x6 x7 x8
    ∧ Cert.ReferenceIdeal.ReadP.val_main_v50 (F := Ideal) x0 x1 x2 x3 x4 x5 x6 x7 x8 x9 x10 x11 x12 = vOf x0 x1 x2 x3 x4 x5 x6 x7 x8 x9 x10 x11 x12
    ∧ Cert.ReferenceIdeal.ReadP.val_main_v67 (F := Ideal) x0 x1 x2 x3 x4 x5 x6 x7 x8 x9 x10 x11 x12 x13 x14 x15 x16 = uOf x0 x1 x2 x3 x4 x5 x6 x7 x8 x9 x10 x11 x12 x13 x14 x15 x16 := by
  have he : Cert.ReferenceIdeal.ReadP.val_main_v26 (F := Ideal) x0 x1 x2 x3 x4 x5 x6 x7 x8 = eOf x0 x1 x2 x3 x4 x5 x6 x7 x8 := by
    rw [v26_rows, takeRows_ref, takeRows_ref']
    rfl
  have hv : Cert.ReferenceIdeal.ReadP.val_main_v50 (F := Ideal) x0 x1 x2 x3 x4 x5 x6 x7 x8 x9 x10 x11 x12 = vOf x0 x1 x2 x3 x4 x5 x6 x7 x8 x9 x10 x11 x12 := by
    rw [v50_rows, segMean_ref, he]
    rfl
  refine ⟨he, hv, ?_⟩
  rw [readout_ref, he, hv]
  rfl

end Cert.Bridge

end
-- ==== Proof.PreDecode.lean ====
/-
  The precondition's four integer conjuncts, decoded.

  The precondition is a chain of conjunctions; its last four conjuncts say, of the two edge endpoint arrays
  src and dst (1600000 signed 32-bit words each), that every word is at least 0 and below 50000. Each of the four
  is an "all" over the array: a reduction by "and", from 1, of the array of comparison bits. The whole chain
  being 1 makes each conjunct 1; an "and"-reduction that is 1 had a 1 at every position; and a comparison bit that
  is 1 says the compared words, read as signed integers, are in that order. So every entry of src and of dst is a
  row number of the node table.
-/
import proofs.«409539_j52209622450458_2_alg».proof.Defs
import proofs.«409539_j52209622450458_2_alg».proof.Proof.Spec
import Idealize.ShloMosaic.Lib.ReduceAll
import Idealize.ShloMosaic.Lib.ValueIdx

noncomputable section

namespace Cert.Bridge

open Idealize.ShloMosaic
open Cert.Pre_finite_inputs

/-- The scalar shape has one index. -/
instance subsingleton_scalarIdx : Subsingleton S_.Idx := ⟨fun a b => funext fun d => d.elim0⟩

/-- A word whose comparison bits "at least 0" and "below 50000" (both signed) are set is, read signed, in [0, 50000). -/
theorem word_inRange (w : BitVec 32) (h0 : IntOp.cmpi .sge w 0#32 = 1#1) (h1 : IntOp.cmpi .slt w 50000#32 = 1#1) :
    0 ≤ w.toInt ∧ w.toInt < 50000 := by
  rw [IntOp.cmpi_sge] at h0
  rw [IntOp.cmpi_slt] at h1
  have e0 : (0#32 : BitVec 32).toInt = 0 := by decide
  have e1 : (50000#32 : BitVec 32).toInt = 50000 := by decide
  rw [e0] at h0
  rw [e1] at h1
  exact ⟨h0, h1⟩

section Parts

variable [Facts] {F : FTy → Type} [FloatOps F]

/-- The chain's last part: if it is 1, so is the conjunction carried into it, every bit of the carried mask is set,
    and every word of dst is below 50000. -/
theorem part5_decode (a4 : IVec S1600000 32) (v81 : IVec S_ 1) (v83 : IVec S1600000 1) (c33 : IVec S_ 1)
    (h : fn_part5 (F := F) a4 v81 v83 c33 ValueIdx.ix0 = 1#1) :
    v81 ValueIdx.ix0 = 1#1 ∧ (∀ i, v83 i = 1#1) ∧ ∀ i, IntOp.cmpi .slt (a4 i) 50000#32 = 1#1 := by
  unfold fn_part5 at h
  obtain ⟨h1, h2⟩ := IntOp.andi_eq_one.1 h
  obtain ⟨h3, h4⟩ := IntOp.andi_eq_one.1 h1
  exact ⟨h3, fun i => Host.reduce_andi_all _ _ _ _ _ h4 i, fun i => Host.reduce_andi_all _ _ _ _ _ h2 i⟩

/-- The chain's fourth part: if it is 1, every word of src and of dst is in [0, 50000). -/
theorem part4_decode (a3 a4 : IVec S1600000 32) (a16 : FVec F S64 .f32) (v63 v67 : IVec S_ 1)
    (h : fn_part4 (F := F) a3 a4 a16 v63 v67 ValueIdx.ix0 = 1#1) :
    (∀ i, 0 ≤ (a3 i).toInt ∧ (a3 i).toInt < 50000) ∧ ∀ i, 0 ≤ (a4 i).toInt ∧ (a4 i).toInt < 50000 := by
  unfold fn_part4 at h
  obtain ⟨h81, h83, hd1⟩ := part5_decode _ _ _ _ h
  obtain ⟨h77, h80⟩ := IntOp.andi_eq_one.1 h81
  obtain ⟨h73, h76⟩ := IntOp.andi_eq_one.1 h77
  have hs0 : ∀ i, IntOp.cmpi .sge (a3 i) 0#32 = 1#1 := fun i => Host.reduce_andi_all _ _ _ _ _ h76 i
  have hs1 : ∀ i, IntOp.cmpi .slt (a3 i) 50000#32 = 1#1 := fun i => Host.reduce_andi_all _ _ _ _ _ h80 i
  have hd0 : ∀ i, IntOp.cmpi .sge (a4 i) 0#32 = 1#1 := fun i => h83 i
  exact ⟨fun i => word_inRange _ (hs0 i) (hs1 i), fun i => word_inRange _ (hd0 i) (hd1 i)⟩

end Parts

/-- Under the precondition, on every device, every entry of src and of dst is a row number of the node table. -/
theorem inRange_of_pre [hP : Cert.Pre_finite_inputs.Facts] (m : (ℓ : Loc Cert.KernelIdeal.nD Cert.KernelIdeal.τ Cert.KernelIdeal.sig) → Buf (Elt Ideal) ℓ) (h : Cert.Pre_KernelIdeal m) (c : Dev Cert.KernelIdeal.nD) :
    Cert.Spec.InRange (m ((c.tc : Thread Cert.KernelIdeal.nD Cert.KernelIdeal.τ).loc Cert.KernelIdeal.main_arg3)) ∧ Cert.Spec.InRange (m ((c.tc : Thread Cert.KernelIdeal.nD Cert.KernelIdeal.τ).loc Cert.KernelIdeal.main_arg4)) := by
  have e := congrFun (h c) ValueIdx.ix0
  unfold Cert.Pre_finite_inputs.fn at e
  unfold Cert.Pre_finite_inputs.fn_part1 at e
  unfold Cert.Pre_finite_inputs.fn_part2 at e
  unfold Cert.Pre_finite_inputs.fn_part3 at e
  exact part4_decode (F := Ideal) _ _ _ _ _ e

end Cert.Bridge

end
-- ==== Proof.lean ====
/-
  A message-passing graph layer: per edge, a two-layer softplus perceptron of the row
  [source node | destination node | edge | graph attribute]; per node, the same kind of perceptron of
  [node | mean of the incoming edge results | graph attribute]; and a graph readout, a perceptron of
  [graph attribute | mean edge result | mean node result]. The kernel program computes the two big perceptrons in
  tiled kernel regions (3200 edges, 2000 nodes per grid point) and everything else on the host; the reference is all host.

  Both programs gather the node rows by the edge endpoints. The kernel program's gather fills rows whose index is out of
  range with a constant where the reference's gather clamps, so the two agree exactly where every endpoint is a node number:
  that is the precondition's range conjunct, and it is the only place the precondition is used. Under it the gathered rows
  are one and the same term on both sides. Every row of a perceptron's result depends on the same row of its inputs only, so a
  tile's block of the result is the whole-array function restricted to the tile, and the tiles cover the array. A matrix
  product into a zero accumulator is the host's product, a change of float format is the identity, and the softplus is spelt
  max x 0 + log1p (exp (-|x|)) on both sides (each guards it with a comparison of a value with itself, which is false on the
  extended reals). The segment mean and the readout are the same host operations on both sides and are carried as opaque
  functions of equal inputs. No algebraic law beyond these identities is needed, so finiteness is never used.

  The three frames: each program's run terminates without fault and writes no argument (the kernel programs' runs go
  region by region through the fold of buffer contents between @main's items; the reference's stage by stage).
-/
import proofs.«409539_j52209622450458_2_alg».proof.Defs
import proofs.«409539_j52209622450458_2_alg».proof.Proof.Gen.Kernel
import proofs.«409539_j52209622450458_2_alg».proof.Proof.Gen.KernelIdeal
import proofs.«409539_j52209622450458_2_alg».proof.Proof.Gen.ReferenceIdeal
import proofs.«409539_j52209622450458_2_alg».proof.Proof.Gen.Pre_finite_inputs
import proofs.«409539_j52209622450458_2_alg».proof.Proof.K.Run
import proofs.«409539_j52209622450458_2_alg».proof.Proof.KI.Run
import proofs.«409539_j52209622450458_2_alg».proof.Proof.RI.Run
import proofs.«409539_j52209622450458_2_alg».proof.Proof.Values
import proofs.«409539_j52209622450458_2_alg».proof.Proof.PreDecode
import Idealize.ShloMosaic.Adequacy
import Idealize.ShloMosaic.Init

set_option maxRecDepth 16384

noncomputable section

namespace Cert.Proof

open Idealize.ShloMosaic Idealize.ShloMosaic.TcCoe Idealize.SL.Sem

/-- The word-level kernel program ends with every argument as launched. -/
theorem frame_k [hK : Cert.Kernel.Facts] [hP : Cert.Pre_finite_inputs.Facts] : Cert.frame_Kernel := fun m ρ _ =>
  (θ_run Cert.Kernel.defs _ _).mono (fun _ h c => (h c).2.2.2) (Cert.Kernel.Hand.run (F := Bits) m ρ)

/-- So does the idealized kernel program. -/
theorem frame_ki [hKI : Cert.KernelIdeal.Facts] [hP : Cert.Pre_finite_inputs.Facts] : Cert.frame_KernelIdeal := fun m ρ _ =>
  (θ_run Cert.KernelIdeal.defs _ _).mono (fun _ h c => (h c).2.2.2) (Cert.KernelIdeal.Hand.run (F := Ideal) m ρ)

/-- And the reference. -/
theorem frame_ri [hRI : Cert.ReferenceIdeal.Facts] [hP : Cert.Pre_finite_inputs.Facts] : Cert.frame_ReferenceIdeal := fun m ρ _ =>
  (θ_run Cert.ReferenceIdeal.defs _ _).mono (fun _ h c => (h c).2.2.2) (Cert.ReferenceIdeal.RunP.run (F := Ideal) m ρ)

/-- On arguments that agree and whose edge endpoints are node numbers, both programs end with the edge update, the node
    update and the readout at the same three functions of the arguments. -/
theorem algebraic [hKI : Cert.KernelIdeal.Facts] [hRI : Cert.ReferenceIdeal.Facts] [hP : Cert.Pre_finite_inputs.Facts] :
    Cert.algebraic_KernelIdeal_ReferenceIdeal := by
  intro m ρ m' ρ' hpre hagree
  refine ⟨fun c => Cert.Bridge.eOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), fun c => Cert.Bridge.vOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), fun c => Cert.Bridge.uOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)), ?_, ?_⟩
  · refine (θ_run Cert.KernelIdeal.defs _ _).mono (fun _ h c => ?_) (Cert.KernelIdeal.Hand.run (F := Ideal) m ρ)
    obtain ⟨hs, hd⟩ := Cert.Bridge.inRange_of_pre m hpre c
    obtain ⟨k1, k2, k3⟩ := Cert.Bridge.kernel_results m c hs hd
    exact ⟨(h c).1.trans k1, (h c).2.1.trans k2, (h c).2.2.1.trans k3, (h c).2.2.2⟩
  · refine (θ_run Cert.ReferenceIdeal.defs _ _).mono (fun _ h c => ?_) (Cert.ReferenceIdeal.RunP.run (F := Ideal) m' ρ')
    obtain ⟨r1, r2, r3⟩ := Cert.Bridge.reference_results (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16))
    obtain ⟨a0, a1, a2, a3, a4, a5, a6, a7, a8, a9, a10, a11, a12, a13, a14, a15, a16⟩ := hagree c
    refine ⟨(h c).1.trans (r1.trans ?_), (h c).2.1.trans (r2.trans ?_), (h c).2.2.1.trans (r3.trans ?_), (h c).2.2.2⟩
    · rw [a0, a1, a2, a3, a4, a5, a6, a7, a8]
    · rw [a0, a1, a2, a3, a4, a5, a6, a7, a8, a9, a10, a11, a12]
    · rw [a0, a1, a2, a3, a4, a5, a6, a7, a8, a9, a10, a11, a12, a13, a14, a15, a16]

theorem claim : Cert.Claim :=
  ⟨Cert.Kernel.Gen.facts, Cert.KernelIdeal.Gen.facts, Cert.ReferenceIdeal.Gen.facts, Cert.Pre_finite_inputs.Gen.facts,
    @frame_k Cert.Kernel.Gen.facts Cert.Pre_finite_inputs.Gen.facts,
    @frame_ki Cert.KernelIdeal.Gen.facts Cert.Pre_finite_inputs.Gen.facts,
    @frame_ri Cert.ReferenceIdeal.Gen.facts Cert.Pre_finite_inputs.Gen.facts,
    trivial,
    @algebraic Cert.KernelIdeal.Gen.facts Cert.ReferenceIdeal.Gen.facts Cert.Pre_finite_inputs.Gen.facts⟩

end Cert.Proof

end
